-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x1024 : Shape := ⟨3, ![32768, 1, 1024]⟩
abbrev S32768x4 : Shape := ⟨2, ![32768, 4]⟩
abbrev S_ : Shape := ⟨0, ![]⟩
abbrev S32768x1 : Shape := ⟨2, ![32768, 1]⟩
abbrev S32768x1024 : Shape := ⟨2, ![32768, 1024]⟩

class Facts : Prop where
  bcast_S_S32768x1x1024 : S_.BroadcastsInDim S32768x1x1024 (![] : Fin 0 → Fin S32768x1x1024.rank)
  reducesTo_S32768x1x1024_S_d0_1_2 : S32768x1x1024.ReducesTo [0, 1, 2] S_
  h_S_ : 0 < S_.numel
  slices_S32768x4_S32768x1_0_0 : S32768x4.Slices ![0, 0] S32768x1
  slices_S32768x4_S32768x1_0_1 : S32768x4.Slices ![0, 1] S32768x1
  slices_S32768x4_S32768x1_0_2 : S32768x4.Slices ![0, 2] S32768x1
  slices_S32768x4_S32768x1_0_3 : S32768x4.Slices ![0, 3] S32768x1
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S_S32768x1024 : S_.BroadcastsInDim S32768x1024 (![] : Fin 0 → Fin S32768x1024.rank)
  reducesTo_S32768x1024_S_d0_1 : S32768x1024.ReducesTo [0, 1] S_

variable [Facts]

def comparator_i32_d1 : BitVec 32 → BitVec 32 → BitVec 1 :=
  fun l r =>
    let v40 := IntOp.cmpi .slt l r
    v40
def fn_part1 {F : FTy → Type} [FloatOps F] (main_v3 : IVec S_ 1) (main_v6 : IVec S32768x1 32) (main_v7 : IVec S32768x1 32) (main_v8 : IVec S32768x1 32) (main_v11 : IVec S32768x1 32) (main_v13 : IVec S32768x1 32) (main_v15 : IVec S32768x1 32) (main_v17 : IVec S32768x1 32) (main_v18 : IVec S32768x1024 32) (main_v19 : IVec S32768x1024 32) (main_v20 : IVec S32768x1024 32) : IVec S_ 1 :=
  let main_v21 : IVec S32768x1024 1 := cmpi .sle main_v20 main_v18
  let main_v22 : IVec S32768x1024 32 := broadcastInDim S32768x1024 ![0, 1] bcast_S32768x1_S32768x1024_0_1 main_v11
  let main_v23 : IVec S32768x1024 32 := select main_v21 main_v22 main_v19
  let main_v24 : IVec S32768x1024 32 := broadcastInDim S32768x1024 ![0, 1] bcast_S32768x1_S32768x1024_0_1 main_v6
  let main_v25 : IVec S32768x1024 1 := cmpi .sle main_v24 main_v18
  let main_v26 : IVec S32768x1024 32 := broadcastInDim S32768x1024 ![0, 1] bcast_S32768x1_S32768x1024_0_1 main_v13
  let main_v27 : IVec S32768x1024 32 := select main_v25 main_v26 main_v23
  let main_v28 : IVec S32768x1024 32 := broadcastInDim S32768x1024 ![0, 1] bcast_S32768x1_S32768x1024_0_1 main_v7
  let main_v29 : IVec S32768x1024 1 := cmpi .sle main_v28 main_v18
  let main_v30 : IVec S32768x1024 32 := broadcastInDim S32768x1024 ![0, 1] bcast_S32768x1_S32768x1024_0_1 main_v15
  let main_v31 : IVec S32768x1024 32 := select main_v29 main_v30 main_v27
  let main_v32 : IVec S32768x1024 32 := broadcastInDim S32768x1024 ![0, 1] bcast_S32768x1_S32768x1024_0_1 main_v8
  let main_v33 : IVec S32768x1024 1 := cmpi .sle main_v32 main_v18
  let main_v34 : IVec S32768x1024 32 := broadcastInDim S32768x1024 ![0, 1] bcast_S32768x1_S32768x1024_0_1 main_v17
  let main_v35 : IVec S32768x1024 32 := select main_v33 main_v34 main_v31
  let main_c_1 : IVec S_ 32 := constantI S_ 32 0#32
  let main_v36 : IVec S32768x1024 32 := broadcastInDim S32768x1024 ![] bcast_S_S32768x1024 main_c_1
  let main_v37 : IVec S32768x1024 1 := cmpi .ne main_v35 main_v36
  let main_c_2 : IVec S_ 1 := constantI S_ 1 1#1
  let main_v38 : IVec S_ 1 := (fun x v => Host.reduce IntOp.andi x v reducesTo_S32768x1024_S_d0_1 h_S_) main_v37 main_c_2
  let main_v39 : IVec S_ 1 := andi main_v3 main_v38
  main_v39

def fn {F : FTy → Type} [FloatOps F] (main_arg0 : FVec F S32768x1x1024 .f32) (main_arg1 : IVec S32768x4 32) : IVec S_ 1 :=
  let main_v0 : FVec F S32768x1x1024 .f32 := Host.absf main_arg0
  let main_cst : FVec F S_ .f32 := constant S_ .f32 0x7F800000#32
  let main_v1 : FVec F S32768x1x1024 .f32 := broadcastInDim S32768x1x1024 ![] bcast_S_S32768x1x1024 main_cst
  let main_v2 : IVec S32768x1x1024 1 := cmpf .olt main_v0 main_v1
  let main_c : IVec S_ 1 := constantI S_ 1 1#1
  let main_v3 : IVec S_ 1 := (fun x v => Host.reduce IntOp.andi x v reducesTo_S32768x1x1024_S_d0_1_2 h_S_) main_v2 main_c
  let main_v4 : IVec S32768x4 32 := (fun x => Host.sort S32768x4 1 comparator_i32_d1 x) main_arg1
  let main_v5 : IVec S32768x1 32 := (extractStridedSlice S32768x1 ![0, 0] · slices_S32768x4_S32768x1_0_0) main_v4
  let main_v6 : IVec S32768x1 32 := (extractStridedSlice S32768x1 ![0, 1] · slices_S32768x4_S32768x1_0_1) main_v4
  let main_v7 : IVec S32768x1 32 := (extractStridedSlice S32768x1 ![0, 2] · slices_S32768x4_S32768x1_0_2) main_v4
  let main_v8 : IVec S32768x1 32 := (extractStridedSlice S32768x1 ![0, 3] · slices_S32768x4_S32768x1_0_3) main_v4
  let main_c_0 : IVec S_ 32 := constantI S_ 32 1023#32
  let main_v9 : IVec S32768x1 32 := broadcastInDim S32768x1 ![] bcast_S_S32768x1 main_c_0
  let main_v10 : IVec S32768x1 32 := subi main_v6 main_v5
  let main_v11 : IVec S32768x1 32 := andi main_v10 main_v9
  let main_v12 : IVec S32768x1 32 := subi main_v7 main_v6
  let main_v13 : IVec S32768x1 32 := andi main_v12 main_v9
  let main_v14 : IVec S32768x1 32 := subi main_v8 main_v7
  let main_v15 : IVec S32768x1 32 := andi main_v14 main_v9
  let main_v16 : IVec S32768x1 32 := subi main_v5 main_v8
  let main_v17 : IVec S32768x1 32 := andi main_v16 main_v9
  let main_v18 : IVec S32768x1024 32 := iotaInDim S32768x1024 32 1
  let main_v19 : IVec S32768x1024 32 := broadcastInDim S32768x1024 ![0, 1] bcast_S32768x1_S32768x1024_0_1 main_v17
  let main_v20 : IVec S32768x1024 32 := broadcastInDim S32768x1024 ![0, 1] bcast_S32768x1_S32768x1024_0_1 main_v5
  fn_part1 (F := F) main_v3 main_v6 main_v7 main_v8 main_v11 main_v13 main_v15 main_v17 main_v18 main_v19 main_v20
-- ==== Kernel.lean ====
abbrev S32768x1x1024 : Shape := ⟨3, ![32768, 1, 1024]⟩
abbrev S32768x4 : Shape := ⟨2, ![32768, 4]⟩
abbrev S32768x1024 : Shape := ⟨2, ![32768, 1024]⟩
abbrev S16x128 : Shape := ⟨2, ![16, 128]⟩
abbrev S1024x4 : Shape := ⟨2, ![1024, 4]⟩
abbrev S1024x1024 : Shape := ⟨2, ![1024, 1024]⟩
abbrev S8x128 : Shape := ⟨2, ![8, 128]⟩
abbrev S1024x1 : Shape := ⟨2, ![1024, 1]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S32768x1x1024, .f32⟩
  | .hbm, ⟨1, _⟩ => ⟨S32768x4, .i32⟩
  | .hbm, ⟨2, _⟩ => ⟨S32768x1024, .f32⟩
  | .hbm, ⟨3, _⟩ => ⟨S32768x4, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .local _ .vmem, ⟨0, _⟩ => ⟨S1024x4, .i32⟩
  | .local _ .vmem, ⟨1, _⟩ => ⟨S1024x4, .i32⟩
  | .local _ .vmem, ⟨2, _⟩ => ⟨S1024x1024, .f32⟩
  | .local _ .vmem, ⟨3, _⟩ => ⟨S1024x1024, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S32768x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v94 : BitVec 1 := Scalar.cmpi .eq arg1 c15_i32
  let v95 : BitVec 32 := Scalar.extui v94
  let c0_i32_19 : BitVec 32 := 0#32
  let v96 : BitVec 1 := Scalar.cmpi .ne v95 c0_i32_19
  v96

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32768x1x1024_S32768x1024 : S32768x1x1024.ShapeCasts S32768x1024
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x4_S1024x4_0_0 : ∀ a, (![0, 0] : Fin 2 → Nat) a + S1024x4.size a ≤ S1024x4.size a
  h_S1024x4 : 0 < S1024x4.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1024_d1_w32 : S1024x1024.Iotas .tc 32 [1]
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  broadcasts_S1024x1_S1024x1024 : S1024x1.Broadcasts S1024x1024
  shapeCasts_S1024x1_S1024x1 : S1024x1.ShapeCasts S1024x1
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S32768x4.size a
  hwx0_0 : ∀ i : grid0.Coords, EltTy.bits .i32 = 32 ∨ (Rect.block (s := S32768x4) S1024x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def comparator_i32_d1 : BitVec 32 → BitVec 32 → BitVec 1 :=
  fun l r =>
    let v1 := IntOp.cmpi .slt l r
    v1

abbrev win0_0 : Pipeline.Window sig grid0 :=
  Pipeline.Window.ofSpec (Memref.whole main_v1) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x1x1024 : Shape := ⟨3, ![32768, 1, 1024]⟩
abbrev S32768x4 : Shape := ⟨2, ![32768, 4]⟩
abbrev S1024 : Shape := ⟨1, ![1024]⟩
abbrev S32768x4x1 : Shape := ⟨3, ![32768, 4, 1]⟩
abbrev S1x1x1024 : Shape := ⟨3, ![1, 1, 1024]⟩
abbrev S32768x4x1024 : Shape := ⟨3, ![32768, 4, 1024]⟩
abbrev S_ : Shape := ⟨0, ![]⟩
abbrev S32768x1024 : Shape := ⟨2, ![32768, 1024]⟩
abbrev S32768x1024x1 : Shape := ⟨3, ![32768, 1024, 1]⟩
abbrev S1 : Shape := ⟨1, ![1]⟩
abbrev S1x1x1 : Shape := ⟨3, ![1, 1, 1]⟩
abbrev S1x1024 : Shape := ⟨2, ![1, 1024]⟩

abbrev nBuf : Space → Nat
  | .hbm => 159
  | .vmem => 0
  | .smem => 0
  | _ => 0

abbrev hbmTy0_0 (i : Nat) : BufTy := match i % 128 with
  | 0 => ⟨S32768x1x1024, .f32⟩
  | 1 => ⟨S32768x4, .i32⟩
  | 2 => ⟨S32768x4, .i32⟩
  | 3 => ⟨S1024, .i32⟩
  | 4 => ⟨S32768x4x1, .i32⟩
  | 5 => ⟨S1x1x1024, .i32⟩
  | 6 => ⟨S32768x4x1024, .i32⟩
  | 7 => ⟨S32768x4x1024, .i32⟩
  | 8 => ⟨S32768x4x1024, .i1⟩
  | 9 => ⟨S32768x4x1024, .i32⟩
  | 10 => ⟨S_, .i32⟩
  | 11 => ⟨S32768x1024, .i32⟩
  | 12 => ⟨S_, .i32⟩
  | 13 => ⟨S32768x1024, .i32⟩
  | 14 => ⟨S32768x1024, .i32⟩
  | 15 => ⟨S_, .i32⟩
  | 16 => ⟨S32768x1024, .i32⟩
  | 17 => ⟨S32768x1024, .i1⟩
  | 18 => ⟨S_, .i32⟩
  | 19 => ⟨S_, .i32⟩
  | 20 => ⟨S32768x1024, .i32⟩
  | 21 => ⟨S32768x1024, .i32⟩
  | 22 => ⟨S_, .i32⟩
  | 23 => ⟨S32768x1024, .i32⟩
  | 24 => ⟨S32768x1024, .i1⟩
  | 25 => ⟨S_, .i32⟩
  | 26 => ⟨S32768x1024, .i32⟩
  | 27 => ⟨S32768x1024, .i32⟩
  | 28 => ⟨S32768x1024, .i32⟩
  | 29 => ⟨S32768x1024x1, .i32⟩
  | 30 => ⟨S1, .i32⟩
  | 31 => ⟨S_, .i32⟩
  | 32 => ⟨S32768x1024x1, .i32⟩
  | 33 => ⟨S32768x1024x1, .i1⟩
  | 34 => ⟨S1x1x1, .i32⟩
  | 35 => ⟨S32768x1024x1, .i32⟩
  | 36 => ⟨S32768x1024x1, .i1⟩
  | 37 => ⟨S32768x1024x1, .i1⟩
  | 38 => ⟨S_, .i1⟩
  | 39 => ⟨S32768x1024, .i1⟩
  | 40 => ⟨S32768x1024, .i32⟩
  | 41 => ⟨S_, .i32⟩
  | 42 => ⟨S32768x1024, .i32⟩
  | 43 => ⟨S32768x1024, .i32⟩
  | 44 => ⟨S_, .i32⟩
  | 45 => ⟨S32768x1024, .i32⟩
  | 46 => ⟨S32768x1024, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S32768x1024, .i32⟩
  | 54 => ⟨S32768x1024, .i32⟩
  | 55 => ⟨S_, .i32⟩
  | 56 => ⟨S32768x1024, .i32⟩
  | 57 => ⟨S32768x1024, .i1⟩
  | 58 => ⟨S_, .i32⟩
  | 59 => ⟨S32768x1024, .i32⟩
  | 60 => ⟨S32768x1024, .i1⟩
  | 61 => ⟨S_, .i32⟩
  | 62 => ⟨S_, .i1⟩
  | 63 => ⟨S32768x1024, .i1⟩
  | 64 => ⟨S32768x1024, .i1⟩
  | 65 => ⟨S32768x1024, .i1⟩
  | 66 => ⟨S32768x1024, .i32⟩
  | 67 => ⟨S32768x1024, .i32⟩
  | 68 => ⟨S32768x1024, .i32⟩
  | 69 => ⟨S_, .i32⟩
  | 70 => ⟨S32768x1024, .i32⟩
  | 71 => ⟨S32768x1024, .i1⟩
  | 72 => ⟨S_, .i32⟩
  | 73 => ⟨S32768x1024, .i32⟩
  | 74 => ⟨S32768x1024, .i32⟩
  | 75 => ⟨S32768x1024, .i32⟩
  | 76 => ⟨S32768x1024x1, .i32⟩
  | 77 => ⟨S1, .i32⟩
  | 78 => ⟨S_, .i32⟩
  | 79 => ⟨S32768x1024x1, .i32⟩
  | 80 => ⟨S32768x1024x1, .i1⟩
  | 81 => ⟨S1x1x1, .i32⟩
  | 82 => ⟨S32768x1024x1, .i32⟩
  | 83 => ⟨S32768x1024x1, .i1⟩
  | 84 => ⟨S32768x1024x1, .i1⟩
  | 85 => ⟨S_, .i1⟩
  | 86 => ⟨S32768x1024, .i1⟩
  | 87 => ⟨S32768x1024, .i32⟩
  | 88 => ⟨S_, .i32⟩
  | 89 => ⟨S32768x1024, .i32⟩
  | 90 => ⟨S32768x1024, .i32⟩
  | 91 => ⟨S32768x1024, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S32768x1024, .i32⟩
  | 99 => ⟨S32768x1024, .i32⟩
  | 100 => ⟨S_, .i32⟩
  | 101 => ⟨S32768x1024, .i32⟩
  | 102 => ⟨S32768x1024, .i1⟩
  | 103 => ⟨S_, .i32⟩
  | 104 => ⟨S32768x1024, .i32⟩
  | 105 => ⟨S32768x1024, .i1⟩
  | 106 => ⟨S_, .i32⟩
  | 107 => ⟨S_, .i1⟩
  | 108 => ⟨S32768x1024, .i1⟩
  | 109 => ⟨S32768x1024, .i1⟩
  | 110 => ⟨S32768x1024, .i1⟩
  | 111 => ⟨S32768x1024, .i32⟩
  | 112 => ⟨S32768x1024, .i32⟩
  | 113 => ⟨S32768x1024, .i32⟩
  | 114 => ⟨S1x1024, .i32⟩
  | 115 => ⟨S32768x1024, .i32⟩
  | 116 => ⟨S32768x1024, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S32768x1024, .i32⟩
  | 124 => ⟨S32768x1024, .i32⟩
  | 125 => ⟨S_, .i32⟩
  | 126 => ⟨S32768x1024, .i32⟩
  | 127 => ⟨S32768x1024, .i1⟩
  | _ => ⟨S32768x1x1024, .f32⟩

abbrev hbmTy0_1 (i : Nat) : BufTy := match i % 128 with
  | 0 => ⟨S_, .i32⟩
  | 1 => ⟨S32768x1024, .i32⟩
  | 2 => ⟨S32768x1024, .i1⟩
  | 3 => ⟨S_, .i32⟩
  | 4 => ⟨S_, .i1⟩
  | 5 => ⟨S32768x1024, .i1⟩
  | 6 => ⟨S32768x1024, .i1⟩
  | 7 => ⟨S32768x1024, .i1⟩
  | 8 => ⟨S32768x1024, .i32⟩
  | 9 => ⟨S32768x1024, .i32⟩
  | 10 => ⟨S32768x1024, .i32⟩
  | 11 => ⟨S32768x1024, .f32⟩
  | 12 => ⟨S_, .f32⟩
  | 13 => ⟨S32768x1024, .f32⟩
  | 14 => ⟨S32768x1024, .f32⟩
  | 15 => ⟨S32768x1024, .f32⟩
  | 16 => ⟨S32768x1024, .f32⟩
  | 17 => ⟨S32768x1024, .f32⟩
  | 18 => ⟨S_, .f32⟩
  | 19 => ⟨S32768x1024, .f32⟩
  | 20 => ⟨S32768x1024, .f32⟩
  | 21 => ⟨S_, .f32⟩
  | 22 => ⟨S32768x1024, .f32⟩
  | 23 => ⟨S32768x1024, .f32⟩
  | 24 => ⟨S32768x1024, .f32⟩
  | 25 => ⟨S32768x1024, .f32⟩
  | 26 => ⟨S32768x1024, .f32⟩
  | 27 => ⟨S_, .f32⟩
  | 28 => ⟨S_, .f32⟩
  | 29 => ⟨S_, .f32⟩
  | 30 => ⟨S_, .f32⟩
  | _ => ⟨S32768x1x1024, .f32⟩

abbrev hbmTy (i : Nat) : BufTy := match i / 128 with
  | 0 => hbmTy0_0 i
  | 1 => hbmTy0_1 i
  | _ => ⟨S32768x1x1024, .f32⟩

abbrev bufTy : (tb : Table) → Fin (tcTables nBuf tb) → BufTy
  | .hbm, ⟨i, _⟩ => hbmTy i
  | _, _ => ⟨S32768x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v13 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_c_1 : Ref sig .tc := ⟨.hbm, 30, rfl⟩
abbrev main_call2_c_2 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_3 : Ref sig .tc := ⟨.hbm, 38, rfl⟩
abbrev main_call2_v12 : Ref sig .tc := ⟨.hbm, 39, rfl⟩
abbrev main_call2_v13 : Ref sig .tc := ⟨.hbm, 40, rfl⟩
abbrev main_call2_c_4 : Ref sig .tc := ⟨.hbm, 41, rfl⟩
abbrev main_call2_v14 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_c_4 : Ref sig .tc := ⟨.hbm, 47, rfl⟩
abbrev main_call3_v0 : Ref sig .tc := ⟨.hbm, 48, rfl⟩
abbrev main_call3_c : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_c_1 : Ref sig .tc := ⟨.hbm, 55, rfl⟩
abbrev main_call3_v5 : Ref sig .tc := ⟨.hbm, 56, rfl⟩
abbrev main_call3_v6 : Ref sig .tc := ⟨.hbm, 57, rfl⟩
abbrev main_call3_c_2 : Ref sig .tc := ⟨.hbm, 58, rfl⟩
abbrev main_call3_v7 : Ref sig .tc := ⟨.hbm, 59, rfl⟩
abbrev main_call3_v8 : Ref sig .tc := ⟨.hbm, 60, rfl⟩
abbrev main_call3_c_3 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_v17 : Ref sig .tc := ⟨.hbm, 68, rfl⟩
abbrev main_call4_c : Ref sig .tc := ⟨.hbm, 69, rfl⟩
abbrev main_call4_v0 : Ref sig .tc := ⟨.hbm, 70, rfl⟩
abbrev main_call4_v1 : Ref sig .tc := ⟨.hbm, 71, rfl⟩
abbrev main_call4_c_0 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_c_1 : Ref sig .tc := ⟨.hbm, 77, rfl⟩
abbrev main_call4_c_2 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_c_3 : Ref sig .tc := ⟨.hbm, 85, rfl⟩
abbrev main_call4_v12 : Ref sig .tc := ⟨.hbm, 86, rfl⟩
abbrev main_call4_v13 : Ref sig .tc := ⟨.hbm, 87, rfl⟩
abbrev main_call4_c_4 : Ref sig .tc := ⟨.hbm, 88, rfl⟩
abbrev main_call4_v14 : Ref sig .tc := ⟨.hbm, 89, rfl⟩
abbrev main_v18 : Ref sig .tc := ⟨.hbm, 90, rfl⟩
abbrev main_v19 : Ref sig .tc := ⟨.hbm, 91, rfl⟩
abbrev main_c_5 : Ref sig .tc := ⟨.hbm, 92, rfl⟩
abbrev main_call5_v0 : Ref sig .tc := ⟨.hbm, 93, rfl⟩
abbrev main_call5_c : Ref sig .tc := ⟨.hbm, 94, rfl⟩
abbrev main_call5_v1 : Ref sig .tc := ⟨.hbm, 95, rfl⟩
abbrev main_call5_c_0 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_call5_c_1 : Ref sig .tc := ⟨.hbm, 100, rfl⟩
abbrev main_call5_v5 : Ref sig .tc := ⟨.hbm, 101, rfl⟩
abbrev main_call5_v6 : Ref sig .tc := ⟨.hbm, 102, rfl⟩
abbrev main_call5_c_2 : Ref sig .tc := ⟨.hbm, 103, rfl⟩
abbrev main_call5_v7 : Ref sig .tc := ⟨.hbm, 104, rfl⟩
abbrev main_call5_v8 : Ref sig .tc := ⟨.hbm, 105, rfl⟩
abbrev main_call5_c_3 : Ref sig .tc := ⟨.hbm, 106, rfl⟩
abbrev main_call5_v9 : Ref sig .tc := ⟨.hbm, 107, rfl⟩
abbrev main_call5_v10 : Ref sig .tc := ⟨.hbm, 108, rfl⟩
abbrev main_call5_v11 : Ref sig .tc := ⟨.hbm, 109, rfl⟩
abbrev main_call5_v12 : Ref sig .tc := ⟨.hbm, 110, rfl⟩
abbrev main_call5_v13 : Ref sig .tc := ⟨.hbm, 111, rfl⟩
abbrev main_call5_v14 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_c_6 : Ref sig .tc := ⟨.hbm, 117, rfl⟩
abbrev main_call6_v0 : Ref sig .tc := ⟨.hbm, 118, rfl⟩
abbrev main_call6_c : Ref sig .tc := ⟨.hbm, 119, rfl⟩
abbrev main_call6_v1 : Ref sig .tc := ⟨.hbm, 120, rfl⟩
abbrev main_call6_c_0 : Ref sig .tc := ⟨.hbm, 121, rfl⟩
abbrev main_call6_v2 : Ref sig .tc := ⟨.hbm, 122, rfl⟩
abbrev main_call6_v3 : Ref sig .tc := ⟨.hbm, 123, rfl⟩
abbrev main_call6_v4 : Ref sig .tc := ⟨.hbm, 124, rfl⟩
abbrev main_call6_c_1 : Ref sig .tc := ⟨.hbm, 125, rfl⟩
abbrev main_call6_v5 : Ref sig .tc := ⟨.hbm, 126, rfl⟩
abbrev main_call6_v6 : Ref sig .tc := ⟨.hbm, 127, rfl⟩
abbrev main_call6_c_2 : Ref sig .tc := ⟨.hbm, 128, rfl⟩
abbrev main_call6_v7 : Ref sig .tc := ⟨.hbm, 129, rfl⟩
abbrev main_call6_v8 : Ref sig .tc := ⟨.hbm, 130, rfl⟩
abbrev main_call6_c_3 : Ref sig .tc := ⟨.hbm, 131, rfl⟩
abbrev main_call6_v9 : Ref sig .tc := ⟨.hbm, 132, rfl⟩
abbrev main_call6_v10 : Ref sig .tc := ⟨.hbm, 133, rfl⟩
abbrev main_call6_v11 : Ref sig .tc := ⟨.hbm, 134, rfl⟩
abbrev main_call6_v12 : Ref sig .tc := ⟨.hbm, 135, rfl⟩
abbrev main_call6_v13 : Ref sig .tc := ⟨.hbm, 136, rfl⟩
abbrev main_call6_v14 : Ref sig .tc := ⟨.hbm, 137, rfl⟩
abbrev main_v24 : Ref sig .tc := ⟨.hbm, 138, rfl⟩
abbrev main_v25 : Ref sig .tc := ⟨.hbm, 139, rfl⟩
abbrev main_cst : Ref sig .tc := ⟨.hbm, 140, rfl⟩
abbrev main_v26 : Ref sig .tc := ⟨.hbm, 141, rfl⟩
abbrev main_v27 : Ref sig .tc := ⟨.hbm, 142, rfl⟩
abbrev main_v28 : Ref sig .tc := ⟨.hbm, 143, rfl⟩
abbrev main_v29 : Ref sig .tc := ⟨.hbm, 144, rfl⟩
abbrev main_v30 : Ref sig .tc := ⟨.hbm, 145, rfl⟩
abbrev main_cst_7 : Ref sig .tc := ⟨.hbm, 146, rfl⟩
abbrev main_v31 : Ref sig .tc := ⟨.hbm, 147, rfl⟩
abbrev main_v32 : Ref sig .tc := ⟨.hbm, 148, rfl⟩
abbrev main_cst_8 : Ref sig .tc := ⟨.hbm, 149, rfl⟩
abbrev main_v33 : Ref sig .tc := ⟨.hbm, 150, rfl⟩
abbrev main_v34 : Ref sig .tc := ⟨.hbm, 151, rfl⟩
abbrev main_v35 : Ref sig .tc := ⟨.hbm, 152, rfl⟩
abbrev main_v36 : Ref sig .tc := ⟨.hbm, 153, rfl⟩
abbrev main_v37 : Ref sig .tc := ⟨.hbm, 154, rfl⟩
abbrev main_cst_9 : Ref sig .tc := ⟨.hbm, 155, rfl⟩
abbrev main_v38 : Ref sig .tc := ⟨.hbm, 156, rfl⟩
abbrev main_cst_10 : Ref sig .tc := ⟨.hbm, 157, rfl⟩
abbrev main_v39 : Ref sig .tc := ⟨.hbm, 158, rfl⟩

abbrev nD : Nat := 1
abbrev τ : Topo := Topo.v7x

variable {F : FTy → Type} [FloatOps F]

class Facts₀ : Prop where
  bcast_S32768x4_S32768x4x1_0_1 : S32768x4.BroadcastsInDim S32768x4x1 (![0, 1] : Fin 2 → Fin S32768x4x1.rank)
  bcast_S1024_S1x1x1024_2 : S1024.BroadcastsInDim S1x1x1024 (![2] : Fin 1 → Fin S1x1x1024.rank)
  bcast_S32768x4x1_S32768x4x1024_0_1_2 : S32768x4x1.BroadcastsInDim S32768x4x1024 (![0, 1, 2] : Fin 3 → Fin S32768x4x1024.rank)
  bcast_S1x1x1024_S32768x4x1024_0_1_2 : S1x1x1024.BroadcastsInDim S32768x4x1024 (![0, 1, 2] : Fin 3 → Fin S32768x4x1024.rank)
  natLt_1_32 : 1 < 32
  reducesTo_S32768x4x1024_S32768x1024_d1 : S32768x4x1024.ReducesTo [1] S32768x1024
  h_S_ : 0 < S_.numel
  bcast_S_S32768x1024 : S_.BroadcastsInDim S32768x1024 (![] : Fin 0 → Fin S32768x1024.rank)
  shapeCasts_S32768x1024_S32768x1024x1 : S32768x1024.ShapeCasts S32768x1024x1
  bcast_S_S32768x1024x1 : S_.BroadcastsInDim S32768x1024x1 (![] : Fin 0 → Fin S32768x1024x1.rank)
  bcast_S1_S1x1x1_2 : S1.BroadcastsInDim S1x1x1 (![2] : Fin 1 → Fin S1x1x1.rank)
  bcast_S1x1x1_S32768x1024x1_0_1_2 : S1x1x1.BroadcastsInDim S32768x1024x1 (![0, 1, 2] : Fin 3 → Fin S32768x1024x1.rank)
  reducesTo_S32768x1024x1_S32768x1024_d2 : S32768x1024x1.ReducesTo [2] S32768x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  shapeCasts_S32768x1x1024_S32768x1024 : S32768x1x1024.ShapeCasts S32768x1024
  reducesTo_S32768x1024_S_d0_1 : S32768x1024.ReducesTo [0, 1] S_
  gather_S32768x4_S32768x1024x1_S32768x1024_n_1_0_0_1_2_11_wf : GatherDims.WF S32768x4 S32768x1024x1 S32768x1024 [] [1] [0] [1] [0] 2 ![1, 1]

variable [Facts₀]

def comparator_i32_d1 : BitVec 32 → BitVec 32 → BitVec 1 :=
  fun l r =>
    let v1 := IntOp.cmpi .slt l r
    v1
def gather_S32768x4_S32768x1024x1_S32768x1024_n_1_0_0_1_2_11 : GatherDims S32768x4 S32768x1024x1 S32768x1024 where
  offsetDims := []
  collapsedSliceDims := [1]
  operandBatchingDims := [0]
  startIndicesBatchingDims := [0]
  startIndexMap := [1]
  indexVectorDim := 2
  sliceSizes := ![1, 1]
  wf := gather_S32768x4_S32768x1024x1_S32768x1024_n_1_0_0_1_2_11_wf

class Facts : Prop extends Facts₀ where

variable [Facts]
-- ==== Proof.RefTerm.lean ====
/-
  The reference program's result as ONE pure function of its two arguments, cut into the stages its source names:
  the segment number of every (row, position); a take along the row of breakpoints; the floored modulus; and the loss.
  Each stage is the composition of the program's own operations, in its order, nothing evaluated.
-/
import proofs.«426116_j60318520705345_3_alg».proof.ReferenceIdeal

noncomputable section

namespace Cert.ReferenceIdeal.Term

open Idealize.ShloMosaic Cert.ReferenceIdeal Cert.ReferenceIdeal.Facts₀

variable [Facts]

/-- A scalar word spread over the 32768 × 1024 array. -/
abbrev spread {α : Type} (v : S_.Idx → α) : S32768x1024.Idx → α :=
  broadcastInDim S32768x1024 ![] bcast_S_S32768x1024 v

/-- The positions 0 … 1023. -/
abbrev positions : IVec S1024 32 := iotaInDim S1024 32 0

/-- Where `c` holds the scalar `v`, elsewhere `x`. -/
def whereScalar (c : IVec S32768x1024 1) (v : IVec S_ 32) (x : IVec S32768x1024 32) : IVec S32768x1024 32 :=
  select c (spread (id v)) x

/-- The segment number of each (row, position): the count of the row's breakpoints that are ≤ the position, less one;
    and 3, the wrap-round segment, where no breakpoint is. -/
def segOf (m : IVec S32768x4 32) : IVec S32768x1024 32 :=
  let mcol : IVec S32768x4x1 32 := broadcastInDim S32768x4x1 ![0, 1] bcast_S32768x4_S32768x4x1_0_1 m
  let prow : IVec S1x1x1024 32 := broadcastInDim S1x1x1024 ![2] bcast_S1024_S1x1x1024_2 positions
  let mfull : IVec S32768x4x1024 32 := broadcastInDim S32768x4x1024 ![0, 1, 2] bcast_S32768x4x1_S32768x4x1024_0_1_2 mcol
  let pfull : IVec S32768x4x1024 32 := broadcastInDim S32768x4x1024 ![0, 1, 2] bcast_S1x1x1024_S32768x4x1024_0_1_2 prow
  let le : IVec S32768x4x1024 1 := cmpi .sle mfull pfull
  let le32 : IVec S32768x4x1024 32 := extui 32 le natLt_1_32
  let cnt : IVec S32768x1024 32 := Host.reduce IntOp.addi le32 (constantI S_ 32 0#32) reducesTo_S32768x4x1024_S32768x1024_d1 h_S_
  let seg0 : IVec S32768x1024 32 := subi cnt (spread (constantI S_ 32 1#32))
  let neg : IVec S32768x1024 1 := cmpi .slt seg0 (spread (constantI S_ 32 0#32))
  whereScalar neg (constantI S_ 32 3#32) seg0

/-- The row's entry at a column index per (row, position): a negative index counted from the end, the entry fetched
    (the fetch clamps), and the most negative word where the index is outside 0 … 3. -/
def takeAlong (m : IVec S32768x4 32) (idx : IVec S32768x1024 32) : IVec S32768x1024 32 :=
  let neg : IVec S32768x1024 1 := cmpi .slt idx (spread (constantI S_ 32 0#32))
  let wrapped : IVec S32768x1024 32 := select neg (addi idx (spread (constantI S_ 32 4#32))) idx
  let col : IVec S32768x1024x1 32 := shapeCast S32768x1024x1 wrapped shapeCasts_S32768x1024_S32768x1024x1
  let ge : IVec S32768x1024x1 1 := cmpi .sge col (broadcastInDim S32768x1024x1 ![] bcast_S_S32768x1024x1 (constantI S_ 32 0#32))
  let three : IVec S32768x1024x1 32 := broadcastInDim S32768x1024x1 ![0, 1, 2] bcast_S1x1x1_S32768x1024x1_0_1_2
    (broadcastInDim S1x1x1 ![2] bcast_S1_S1x1x1_2 (constantI S1 32 3#32))
  let le : IVec S32768x1024x1 1 := cmpi .sle col three
  let inb : IVec S32768x1024 1 := Host.reduce IntOp.andi (andi ge le) (constantI S_ 1 1#1) reducesTo_S32768x1024x1_S32768x1024_d2 h_S_
  let got : IVec S32768x1024 32 := Host.gather gather_S32768x4_S32768x1024x1_S32768x1024_n_1_0_0_1_2_11 m col
  select inb got (spread (constantI S_ 32 2147483648#32))

/-- The floored modulus `x mod d` (the sign of the divisor), `d` a scalar: the truncated remainder, plus `d` where
    it is nonzero and its sign differs from `d`'s; a zero divisor is replaced by 1 first. -/
def floorMod (x : IVec S32768x1024 32) (d : IVec S_ 32) : IVec S32768x1024 32 :=
  let d0 : IVec S_ 32 := id d
  let isz : IVec S_ 1 := cmpi .eq d0 (constantI S_ 32 0#32)
  let d1 : IVec S_ 32 := select isz (constantI S_ 32 1#32) d0
  let r : IVec S32768x1024 32 := Host.remsi x (spread d1)
  let nz : IVec S32768x1024 1 := cmpi .ne r (spread (constantI S_ 32 0#32))
  let rneg : IVec S32768x1024 1 := cmpi .slt r (spread (constantI S_ 32 0#32))
  let dneg : IVec S_ 1 := cmpi .slt d1 (constantI S_ 32 0#32)
  let differ : IVec S32768x1024 1 := cmpi .ne rneg (spread dneg)
  let adj : IVec S32768x1024 1 := andi differ nz
  select adj (addi r (spread d1)) r

/-- The sorted breakpoints. -/
def sorted (idx : IVec S32768x4 32) : IVec S32768x4 32 := Host.sort S32768x4 1 comparator_i32_d1 idx

/-- Each (row, position)'s segment start. -/
def startOf (m : IVec S32768x4 32) : IVec S32768x1024 32 := takeAlong m (segOf m)

/-- Each (row, position)'s segment length: next breakpoint (circularly) minus start, mod 1024. -/
def lenOf (m : IVec S32768x4 32) : IVec S32768x1024 32 :=
  let nxt := takeAlong m (floorMod (addi (segOf m) (spread (constantI S_ 32 1#32))) (constantI S_ 32 4#32))
  floorMod (subi nxt (startOf m)) (constantI S_ 32 1024#32)

/-- Each (row, position)'s offset in its segment: position minus start, mod 1024. -/
def offOf (m : IVec S32768x4 32) : IVec S32768x1024 32 :=
  let p : IVec S32768x1024 32 := broadcastInDim S32768x1024 ![0, 1] bcast_S1x1024_S32768x1024_0_1
    (broadcastInDim S1x1024 ![1] bcast_S1024_S1x1024_1 positions)
  floorMod (subi p (startOf m)) (constantI S_ 32 1024#32)

variable {F : FTy → Type} [FloatOps F]

/-- The target array from the sorted breakpoints: cos(offset · 2π / length) / 2 + 1/2. -/
def targetOf (m : IVec S32768x4 32) : FVec F S32768x1024 .f32 :=
  let ang : FVec F S32768x1024 .f32 :=
    Host.divf (mulf (sitofp .f32 (offOf m)) (spread (constant S_ .f32 0x40C90FDB#32))) (sitofp .f32 (lenOf m))
  addf (mulf (Host.cos ang) (spread (constant S_ .f32 0x3F000000#32))) (spread (constant S_ .f32 0x3F000000#32))

/-- The reference's result: the sum over all elements of the squared deviation from the target, over the count. -/
def loss (x : FVec F S32768x1x1024 .f32) (idx : IVec S32768x4 32) : FVec F S_ .f32 :=
  let d : FVec F S32768x1024 .f32 := subf (shapeCast S32768x1024 x shapeCasts_S32768x1x1024_S32768x1024) (targetOf (sorted idx))
  let s : FVec F S_ .f32 := Host.reduceAdd (mulf d d) (constant S_ .f32 0x00000000#32) reducesTo_S32768x1024_S_d0_1 h_S_
  Host.divf s (constant S_ .f32 0x4C000000#32)

end Cert.ReferenceIdeal.Term

end
-- ==== Proof.RefRunTables.lean ====
/-
  The reference program's operations in order, every call replaced by its callee's operations over the call's own
  buffers, cut into the stages its source names: each stage as the program spells it (a callee's operations over typed
  references) and again over the buffers themselves; per stage the buffers it writes, and that it touches TensorCore
  references only.
-/
import proofs.«426116_j60318520705345_3_alg».proof.ReferenceIdeal
import Idealize.ShloMosaic.Lib.StableHlo.Run

noncomputable section

namespace Cert.ReferenceIdeal.HandRun

open Idealize.ShloMosaic Idealize.ShloMosaic.TcCoe Idealize.SL.Sem Cert.ReferenceIdeal Cert.ReferenceIdeal.Facts₀

variable [Facts] {F : FTy → Type} [FloatOps F]

/-- The breakpoints sorted along each row. (1 operation) -/
abbrev opsSort : List (HloOp τ sig (Elt F)) :=
  [ StableHlo.unary main_arg1 main_v0 ((fun x => Host.sort S32768x4 1 comparator_i32_d1 x) : (⟨S32768x4, .i32⟩ : BufTy).Contents (Elt F) → (⟨S32768x4, .i32⟩ : BufTy).Contents (Elt F)) ]

/-- The same stage as the program spells it: a callee's operations over the call record's typed references. -/
abbrev opsSortT : List (HloOp τ sig (Elt F)) :=
  [ StableHlo.TRef.unary (.of main_arg1 : StableHlo.TRef sig ⟨S32768x4, .i32⟩) main_call0.v0 (fun x => Host.sort S32768x4 1 comparator_i32_d1 x) ]

/-- The buffers that stage writes. -/
abbrev opsSort_W : List (Ref sig .tc) :=
  [main_v0]

/-- That stage touches TensorCore references only. -/
theorem opsSort_sub : (opsSort : List (HloOp τ sig (Elt F))).Forall fun op => op.bufs ⊆ StableHlo.tcRefs τ sig :=
  StableHlo.unary_bufs_sub ..

/-- The positions, and the segment number of every (row, position): the count of the row's breakpoints not above the position, less one, and 3 where none is. (19 operations) -/
abbrev opsSeg : List (HloOp τ sig (Elt F)) :=
  [ StableHlo.nullary main_v1 (iotaInDim S1024 32 0),
    StableHlo.unary main_v0 main_v2 (broadcastInDim S32768x4x1 ![0, 1] bcast_S32768x4_S32768x4x1_0_1 : (⟨S32768x4, .i32⟩ : BufTy).Contents (Elt F) → (⟨S32768x4x1, .i32⟩ : BufTy).Contents (Elt F)),
    StableHlo.unary main_v1 main_v3 (broadcastInDim S1x1x1024 ![2] bcast_S1024_S1x1x1024_2 : (⟨S1024, .i32⟩ : BufTy).Contents (Elt F) → (⟨S1x1x1024, .i32⟩ : BufTy).Contents (Elt F)),
    StableHlo.unary main_v2 main_v4 (broadcastInDim S32768x4x1024 ![0, 1, 2] bcast_S32768x4x1_S32768x4x1024_0_1_2 : (⟨S32768x4x1, .i32⟩ : BufTy).Contents (Elt F) → (⟨S32768x4x1024, .i32⟩ : BufTy).Contents (Elt F)),
    StableHlo.unary main_v3 main_v5 (broadcastInDim S32768x4x1024 ![0, 1, 2] bcast_S1x1x1024_S32768x4x1024_0_1_2 : (⟨S1x1x1024, .i32⟩ : BufTy).Contents (Elt F) → (⟨S32768x4x1024, .i32⟩ : BufTy).Contents (Elt F)),
    StableHlo.binary main_v4 main_v5 main_v6 (cmpi .sle : (⟨S32768x4x1024, .i32⟩ : BufTy).Contents (Elt F) → (⟨S32768x4x1024, .i32⟩ : BufTy).Contents (Elt F) → (⟨S32768x4x1024, .i1⟩ : BufTy).Contents (Elt F)),
    StableHlo.unary main_v6 main_v7 ((extui 32 · natLt_1_32) : (⟨S32768x4x1024, .i1⟩ : BufTy).Contents (Elt F) → (⟨S32768x4x1024, .i32⟩ : BufTy).Contents (Elt F)),
    StableHlo.nullary main_c (constantI S_ 32 0#32),
    StableHlo.binary main_v7 main_c main_v8 ((fun x v => Host.reduce IntOp.addi x v reducesTo_S32768x4x1024_S32768x1024_d1 h_S_) : (⟨S32768x4x1024, .i32⟩ : BufTy).Contents (Elt F) → (⟨S_, .i32⟩ : BufTy).Contents (Elt F) → (⟨S32768x1024, .i32⟩ : BufTy).Contents (Elt F)),
    StableHlo.nullary main_c_0 (constantI S_ 32 1#32),
    StableHlo.unary main_c_0 main_v9 (broadcastInDim S32768x1024 ![] bcast_S_S32768x1024 : (⟨S_, .i32⟩ : BufTy).Contents (Elt F) → (⟨S32768x1024, .i32⟩ : BufTy).Contents (Elt F)),
    StableHlo.binary main_v8 main_v9 main_v10 (subi : (⟨S32768x1024, .i32⟩ : BufTy).Contents (Elt F) → (⟨S32768x1024, .i32⟩ : BufTy).Contents (Elt F) → (⟨S32768x1024, .i32⟩ : BufTy).Contents (Elt F)),
    StableHlo.nullary main_c_1 (constantI S_ 32 0#32),
    StableHlo.unary main_c_1 main_v11 (broadcastInDim S32768x1024 ![] bcast_S_S32768x1024 : (⟨S_, .i32⟩ : BufTy).Contents (Elt F) → (⟨S32768x1024, .i32⟩ : BufTy).Contents (Elt F)),
    StableHlo.binary main_v10 main_v11 main_v12 (cmpi .slt : (⟨S32768x1024, .i32⟩ : BufTy).Contents (Elt F) → (⟨S32768x1024, .i32⟩ : BufTy).Contents (Elt F) → (⟨S32768x1024, .i1⟩ : BufTy).Contents (Elt F)),
    StableHlo.nullary main_c_2 (constantI S_ 32 3#32),
    StableHlo.unary main_c_2 main_call1_v0 (id : (⟨S_, .i32⟩ : BufTy).Contents (Elt F) → (⟨S_, .i32⟩ : BufTy).Contents (Elt F)),
    StableHlo.unary main_call1_v0 main_call1_v1 ((broadcastInDim S32768x1024 ![] bcast_S_S32768x1024) : (⟨S_, .i32⟩ : BufTy).Contents (Elt F) → (⟨S32768x1024, .i32⟩ : BufTy).Contents (Elt F)),
    StableHlo.ternary main_v12 main_call1_v1 main_v10 main_v13 (select : (⟨S32768x1024, .i1⟩ : BufTy).Contents (Elt F) → (⟨S32768x1024, .i32⟩ : BufTy).Contents (Elt F) → (⟨S32768x1024, .i32⟩ : BufTy).Contents (Elt F) → (⟨S32768x1024, .i32⟩ : BufTy).Contents (Elt F)) ]

/-- The same stage as the program spells it: a callee's operations over the call record's typed references. -/
abbrev opsSegT : List (HloOp τ sig (Elt F)) :=
  [ StableHlo.nullary main_v1 (iotaInDim S1024 32 0),
    StableHlo.unary main_v0 main_v2 (broadcastInDim S32768x4x1 ![0, 1] bcast_S32768x4_S32768x4x1_0_1 : (⟨S32768x4, .i32⟩ : BufTy).Contents (Elt F) → (⟨S32768x4x1, .i32⟩ : BufTy).Contents (Elt F)),
    StableHlo.unary main_v1 main_v3 (broadcastInDim S1x1x1024 ![2] bcast_S1024_S1x1x1024_2 : (⟨S1024, .i32⟩ : BufTy).Contents (Elt F) → (⟨S1x1x1024, .i32⟩ : BufTy).Contents (Elt F)),
    StableHlo.unary main_v2 main_v4 (broadcastInDim S32768x4x1024 ![0, 1, 2] bcast_S32768x4x1_S32768x4x1024_0_1_2 : (⟨S32768x4x1, .i32⟩ : BufTy).Contents (Elt F) → (⟨S32768x4x1024, .i32⟩ : BufTy).Contents (Elt F)),
    StableHlo.unary main_v3 main_v5 (broadcastInDim S32768x4x1024 ![0, 1, 2] bcast_S1x1x1024_S32768x4x1024_0_1_2 : (⟨S1x1x1024, .i32⟩ : BufTy).Contents (Elt F) → (⟨S32768x4x1024, .i32⟩ : BufTy).Contents (Elt F)),
    StableHlo.binary main_v4 main_v5 main_v6 (cmpi .sle : (⟨S32768x4x1024, .i32⟩ : BufTy).Contents (Elt F) → (⟨S32768x4x1024, .i32⟩ : BufTy).Contents (Elt F) → (⟨S32768x4x1024, .i1⟩ : BufTy).Contents (Elt F)),
    StableHlo.unary main_v6 main_v7 ((extui 32 · natLt_1_32) : (⟨S32768x4x1024, .i1⟩ : BufTy).Contents (Elt F) → (⟨S32768x4x1024, .i32⟩ : BufTy).Contents (Elt F)),
    StableHlo.nullary main_c (constantI S_ 32 0#32),
    StableHlo.binary main_v7 main_c main_v8 ((fun x v => Host.reduce IntOp.addi x v reducesTo_S32768x4x1024_S32768x1024_d1 h_S_) : (⟨S32768x4x1024, .i32⟩ : BufTy).Contents (Elt F) → (⟨S_, .i32⟩ : BufTy).Contents (Elt F) → (⟨S32768x1024, .i32⟩ : BufTy).Contents (Elt F)),
    StableHlo.nullary main_c_0 (constantI S_ 32 1#32),
    StableHlo.unary main_c_0 main_v9 (broadcastInDim S32768x1024 ![] bcast_S_S32768x1024 : (⟨S_, .i32⟩ : BufTy).Contents (Elt F) → (⟨S32768x1024, .i32⟩ : BufTy).Contents (Elt F)),
    StableHlo.binary main_v8 main_v9 main_v10 (subi : (⟨S32768x1024, .i32⟩ : BufTy).Contents (Elt F) → (⟨S32768x1024, .i32⟩ : BufTy).Contents (Elt F) → (⟨S32768x1024, .i32⟩ : BufTy).Contents (Elt F)),
    StableHlo.nullary main_c_1 (constantI S_ 32 0#32),
    StableHlo.unary main_c_1 main_v11 (broadcastInDim S32768x1024 ![] bcast_S_S32768x1024 : (⟨S_, .i32⟩ : BufTy).Contents (Elt F) → (⟨S32768x1024, .i32⟩ : BufTy).Contents (Elt F)),
    StableHlo.binary main_v10 main_v11 main_v12 (cmpi .slt : (⟨S32768x1024, .i32⟩ : BufTy).Contents (Elt F) → (⟨S32768x1024, .i32⟩ : BufTy).Contents (Elt F) → (⟨S32768x1024, .i1⟩ : BufTy).Contents (Elt F)),
    StableHlo.nullary main_c_2 (constantI S_ 32 3#32),
    StableHlo.TRef.unary (.of main_c_2 : StableHlo.TRef sig ⟨S_, .i32⟩) main_call1.v0 id,
    StableHlo.TRef.unary main_call1.v0 main_call1.v1 (broadcastInDim S32768x1024 ![] bcast_S_S32768x1024),
    StableHlo.TRef.ternary (.of main_v12 : StableHlo.TRef sig ⟨S32768x1024, .i1⟩) main_call1.v1 (.of main_v10 : StableHlo.TRef sig ⟨S32768x1024, .i32⟩) main_call1.v2 select ]

/-- The buffers that stage writes. -/
abbrev opsSeg_W : List (Ref sig .tc) :=
  [main_v1, main_v2, main_v3, main_v4, main_v5, main_v6, main_v7, main_c, main_v8, main_c_0, main_v9, main_v10, main_c_1, main_v11, main_v12, main_c_2, main_call1_v0, main_call1_v1, main_v13]

/-- That stage touches TensorCore references only. -/
theorem opsSeg_sub : (opsSeg : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩

/-- The segment's first breakpoint: the sorted row taken at the segment number. (22 operations) -/
abbrev opsStart : List (HloOp τ sig (Elt F)) :=
  [ StableHlo.nullary main_call2_c (constantI S_ 32 0#32),
    StableHlo.unary main_call2_c main_call2_v0 ((broadcastInDim S32768x1024 ![] bcast_S_S32768x1024) : (⟨S_, .i32⟩ : BufTy).Contents (Elt F) → (⟨S32768x1024, .i32⟩ : BufTy).Contents (Elt F)),
    StableHlo.binary main_v13 main_call2_v0 main_call2_v1 ((cmpi .slt) : (⟨S32768x1024, .i32⟩ : BufTy).Contents (Elt F) → (⟨S32768x1024, .i32⟩ : BufTy).Contents (Elt F) → (⟨S32768x1024, .i1⟩ : BufTy).Contents (Elt F)),
    StableHlo.nullary main_call2_c_0 (constantI S_ 32 4#32),
    StableHlo.unary main_call2_c_0 main_call2_v2 ((broadcastInDim S32768x1024 ![] bcast_S_S32768x1024) : (⟨S_, .i32⟩ : BufTy).Contents (Elt F) → (⟨S32768x1024, .i32⟩ : BufTy).Contents (Elt F)),
    StableHlo.binary main_v13 main_call2_v2 main_call2_v3 (addi : (⟨S32768x1024, .i32⟩ : BufTy).Contents (Elt F) → (⟨S32768x1024, .i32⟩ : BufTy).Contents (Elt F) → (⟨S32768x1024, .i32⟩ : BufTy).Contents (Elt F)),
    StableHlo.ternary main_call2_v1 main_call2_v3 main_v13 main_call2_v4 (select : (⟨S32768x1024, .i1⟩ : BufTy).Contents (Elt F) → (⟨S32768x1024, .i32⟩ : BufTy).Contents (Elt F) → (⟨S32768x1024, .i32⟩ : BufTy).Contents (Elt F) → (⟨S32768x1024, .i32⟩ : BufTy).Contents (Elt F)),
    StableHlo.reshape main_call2_v4 main_call2_v5 rfl shapeCasts_S32768x1024_S32768x1024x1,
    StableHlo.nullary main_call2_c_1 (constantI S1 32 3#32),
    StableHlo.nullary main_call2_c_2 (constantI S_ 32 0#32),
    StableHlo.unary main_call2_c_2 main_call2_v6 ((broadcastInDim S32768x1024x1 ![] bcast_S_S32768x1024x1) : (⟨S_, .i32⟩ : BufTy).Contents (Elt F) → (⟨S32768x1024x1, .i32⟩ : BufTy).Contents (Elt F)),
    StableHlo.binary main_call2_v5 main_call2_v6 main_call2_v7 ((cmpi .sge) : (⟨S32768x1024x1, .i32⟩ : BufTy).Contents (Elt F) → (⟨S32768x1024x1, .i32⟩ : BufTy).Contents (Elt F) → (⟨S32768x1024x1, .i1⟩ : BufTy).Contents (Elt F)),
    StableHlo.unary main_call2_c_1 main_call2_v8 ((broadcastInDim S1x1x1 ![2] bcast_S1_S1x1x1_2) : (⟨S1, .i32⟩ : BufTy).Contents (Elt F) → (⟨S1x1x1, .i32⟩ : BufTy).Contents (Elt F)),
    StableHlo.unary main_call2_v8 main_call2_v9 ((broadcastInDim S32768x1024x1 ![0, 1, 2] bcast_S1x1x1_S32768x1024x1_0_1_2) : (⟨S1x1x1, .i32⟩ : BufTy).Contents (Elt F) → (⟨S32768x1024x1, .i32⟩ : BufTy).Contents (Elt F)),
    StableHlo.binary main_call2_v5 main_call2_v9 main_call2_v10 ((cmpi .sle) : (⟨S32768x1024x1, .i32⟩ : BufTy).Contents (Elt F) → (⟨S32768x1024x1, .i32⟩ : BufTy).Contents (Elt F) → (⟨S32768x1024x1, .i1⟩ : BufTy).Contents (Elt F)),
    StableHlo.binary main_call2_v7 main_call2_v10 main_call2_v11 (andi : (⟨S32768x1024x1, .i1⟩ : BufTy).Contents (Elt F) → (⟨S32768x1024x1, .i1⟩ : BufTy).Contents (Elt F) → (⟨S32768x1024x1, .i1⟩ : BufTy).Contents (Elt F)),
    StableHlo.nullary main_call2_c_3 (constantI S_ 1 1#1),
    StableHlo.binary main_call2_v11 main_call2_c_3 main_call2_v12 ((fun x v => Host.reduce IntOp.andi x v reducesTo_S32768x1024x1_S32768x1024_d2 h_S_) : (⟨S32768x1024x1, .i1⟩ : BufTy).Contents (Elt F) → (⟨S_, .i1⟩ : BufTy).Contents (Elt F) → (⟨S32768x1024, .i1⟩ : BufTy).Contents (Elt F)),
    StableHlo.binary main_v0 main_call2_v5 main_call2_v13 ((fun x i => Host.gather gather_S32768x4_S32768x1024x1_S32768x1024_n_1_0_0_1_2_11 x i) : (⟨S32768x4, .i32⟩ : BufTy).Contents (Elt F) → (⟨S32768x1024x1, .i32⟩ : BufTy).Contents (Elt F) → (⟨S32768x1024, .i32⟩ : BufTy).Contents (Elt F)),
    StableHlo.nullary main_call2_c_4 (constantI S_ 32 2147483648#32),
    StableHlo.unary main_call2_c_4 main_call2_v14 ((broadcastInDim S32768x1024 ![] bcast_S_S32768x1024) : (⟨S_, .i32⟩ : BufTy).Contents (Elt F) → (⟨S32768x1024, .i32⟩ : BufTy).Contents (Elt F)),
    StableHlo.ternary main_call2_v12 main_call2_v13 main_call2_v14 main_v14 (select : (⟨S32768x1024, .i1⟩ : BufTy).Contents (Elt F) → (⟨S32768x1024, .i32⟩ : BufTy).Contents (Elt F) → (⟨S32768x1024, .i32⟩ : BufTy).Contents (Elt F) → (⟨S32768x1024, .i32⟩ : BufTy).Contents (Elt F)) ]

/-- The same stage as the program spells it: a callee's operations over the call record's typed references. -/
abbrev opsStartT : List (HloOp τ sig (Elt F)) :=
  [ StableHlo.TRef.nullary main_call2.c (constantI S_ 32 0#32),
    StableHlo.TRef.unary main_call2.c main_call2.v0 (broadcastInDim S32768x1024 ![] bcast_S_S32768x1024),
    StableHlo.TRef.binary (.of main_v13 : StableHlo.TRef sig ⟨S32768x1024, .i32⟩) main_call2.v0 main_call2.v1 (cmpi .slt),
    StableHlo.TRef.nullary main_call2.c_0 (constantI S_ 32 4#32),
    StableHlo.TRef.unary main_call2.c_0 main_call2.v2 (broadcastInDim S32768x1024 ![] bcast_S_S32768x1024),
    StableHlo.TRef.binary (.of main_v13 : StableHlo.TRef sig ⟨S32768x1024, .i32⟩) main_call2.v2 main_call2.v3 addi,
    StableHlo.TRef.ternary main_call2.v1 main_call2.v3 (.of main_v13 : StableHlo.TRef sig ⟨S32768x1024, .i32⟩) main_call2.v4 select,
    StableHlo.TRef.reshape main_call2.v4 main_call2.v5 rfl shapeCasts_S32768x1024_S32768x1024x1,
    StableHlo.TRef.nullary main_call2.c_1 (constantI S1 32 3#32),
    StableHlo.TRef.nullary main_call2.c_2 (constantI S_ 32 0#32),
    StableHlo.TRef.unary main_call2.c_2 main_call2.v6 (broadcastInDim S32768x1024x1 ![] bcast_S_S32768x1024x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S32768x1024x1 ![0, 1, 2] bcast_S1x1x1_S32768x1024x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S32768x1024x1_S32768x1024_d2 h_S_),
    StableHlo.TRef.binary (.of main_v0 : StableHlo.TRef sig ⟨S32768x4, .i32⟩) main_call2.v5 main_call2.v13 (fun x i => Host.gather gather_S32768x4_S32768x1024x1_S32768x1024_n_1_0_0_1_2_11 x i),
    StableHlo.TRef.nullary main_call2.c_4 (constantI S_ 32 2147483648#32),
    StableHlo.TRef.unary main_call2.c_4 main_call2.v14 (broadcastInDim S32768x1024 ![] bcast_S_S32768x1024),
    StableHlo.TRef.ternary main_call2.v12 main_call2.v13 main_call2.v14 main_call2.v15 select ]

/-- The buffers that stage writes. -/
abbrev opsStart_W : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v14]

/-- That stage touches TensorCore references only. -/
theorem opsStart_sub : (opsStart : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- The next segment number round the circle: the segment number plus one, modulo 4. (25 operations) -/
abbrev opsNextIdx : List (HloOp τ sig (Elt F)) :=
  [ StableHlo.nullary main_c_3 (constantI S_ 32 1#32),
    StableHlo.unary main_c_3 main_v15 (broadcastInDim S32768x1024 ![] bcast_S_S32768x1024 : (⟨S_, .i32⟩ : BufTy).Contents (Elt F) → (⟨S32768x1024, .i32⟩ : BufTy).Contents (Elt F)),
    StableHlo.binary main_v13 main_v15 main_v16 (addi : (⟨S32768x1024, .i32⟩ : BufTy).Contents (Elt F) → (⟨S32768x1024, .i32⟩ : BufTy).Contents (Elt F) → (⟨S32768x1024, .i32⟩ : BufTy).Contents (Elt F)),
    StableHlo.nullary main_c_4 (constantI S_ 32 4#32),
    StableHlo.unary main_c_4 main_call3_v0 (id : (⟨S_, .i32⟩ : BufTy).Contents (Elt F) → (⟨S_, .i32⟩ : BufTy).Contents (Elt F)),
    StableHlo.nullary main_call3_c (constantI S_ 32 0#32),
    StableHlo.binary main_call3_v0 main_call3_c main_call3_v1 ((cmpi .eq) : (⟨S_, .i32⟩ : BufTy).Contents (Elt F) → (⟨S_, .i32⟩ : BufTy).Contents (Elt F) → (⟨S_, .i1⟩ : BufTy).Contents (Elt F)),
    StableHlo.nullary main_call3_c_0 (constantI S_ 32 1#32),
    StableHlo.ternary main_call3_v1 main_call3_c_0 main_call3_v0 main_call3_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call3_v2 main_call3_v3 ((broadcastInDim S32768x1024 ![] bcast_S_S32768x1024) : (⟨S_, .i32⟩ : BufTy).Contents (Elt F) → (⟨S32768x1024, .i32⟩ : BufTy).Contents (Elt F)),
    StableHlo.binary main_v16 main_call3_v3 main_call3_v4 (Host.remsi : (⟨S32768x1024, .i32⟩ : BufTy).Contents (Elt F) → (⟨S32768x1024, .i32⟩ : BufTy).Contents (Elt F) → (⟨S32768x1024, .i32⟩ : BufTy).Contents (Elt F)),
    StableHlo.nullary main_call3_c_1 (constantI S_ 32 0#32),
    StableHlo.unary main_call3_c_1 main_call3_v5 ((broadcastInDim S32768x1024 ![] bcast_S_S32768x1024) : (⟨S_, .i32⟩ : BufTy).Contents (Elt F) → (⟨S32768x1024, .i32⟩ : BufTy).Contents (Elt F)),
    StableHlo.binary main_call3_v4 main_call3_v5 main_call3_v6 ((cmpi .ne) : (⟨S32768x1024, .i32⟩ : BufTy).Contents (Elt F) → (⟨S32768x1024, .i32⟩ : BufTy).Contents (Elt F) → (⟨S32768x1024, .i1⟩ : BufTy).Contents (Elt F)),
    StableHlo.nullary main_call3_c_2 (constantI S_ 32 0#32),
    StableHlo.unary main_call3_c_2 main_call3_v7 ((broadcastInDim S32768x1024 ![] bcast_S_S32768x1024) : (⟨S_, .i32⟩ : BufTy).Contents (Elt F) → (⟨S32768x1024, .i32⟩ : BufTy).Contents (Elt F)),
    StableHlo.binary main_call3_v4 main_call3_v7 main_call3_v8 ((cmpi .slt) : (⟨S32768x1024, .i32⟩ : BufTy).Contents (Elt F) → (⟨S32768x1024, .i32⟩ : BufTy).Contents (Elt F) → (⟨S32768x1024, .i1⟩ : BufTy).Contents (Elt F)),
    StableHlo.nullary main_call3_c_3 (constantI S_ 32 0#32),
    StableHlo.binary main_call3_v2 main_call3_c_3 main_call3_v9 ((cmpi .slt) : (⟨S_, .i32⟩ : BufTy).Contents (Elt F) → (⟨S_, .i32⟩ : BufTy).Contents (Elt F) → (⟨S_, .i1⟩ : BufTy).Contents (Elt F)),
    StableHlo.unary main_call3_v9 main_call3_v10 ((broadcastInDim S32768x1024 ![] bcast_S_S32768x1024) : (⟨S_, .i1⟩ : BufTy).Contents (Elt F) → (⟨S32768x1024, .i1⟩ : BufTy).Contents (Elt F)),
    StableHlo.binary main_call3_v8 main_call3_v10 main_call3_v11 ((cmpi .ne) : (⟨S32768x1024, .i1⟩ : BufTy).Contents (Elt F) → (⟨S32768x1024, .i1⟩ : BufTy).Contents (Elt F) → (⟨S32768x1024, .i1⟩ : BufTy).Contents (Elt F)),
    StableHlo.binary main_call3_v11 main_call3_v6 main_call3_v12 (andi : (⟨S32768x1024, .i1⟩ : BufTy).Contents (Elt F) → (⟨S32768x1024, .i1⟩ : BufTy).Contents (Elt F) → (⟨S32768x1024, .i1⟩ : BufTy).Contents (Elt F)),
    StableHlo.unary main_call3_v2 main_call3_v13 ((broadcastInDim S32768x1024 ![] bcast_S_S32768x1024) : (⟨S_, .i32⟩ : BufTy).Contents (Elt F) → (⟨S32768x1024, .i32⟩ : BufTy).Contents (Elt F)),
    StableHlo.binary main_call3_v4 main_call3_v13 main_call3_v14 (addi : (⟨S32768x1024, .i32⟩ : BufTy).Contents (Elt F) → (⟨S32768x1024, .i32⟩ : BufTy).Contents (Elt F) → (⟨S32768x1024, .i32⟩ : BufTy).Contents (Elt F)),
    StableHlo.ternary main_call3_v12 main_call3_v14 main_call3_v4 main_v17 (select : (⟨S32768x1024, .i1⟩ : BufTy).Contents (Elt F) → (⟨S32768x1024, .i32⟩ : BufTy).Contents (Elt F) → (⟨S32768x1024, .i32⟩ : BufTy).Contents (Elt F) → (⟨S32768x1024, .i32⟩ : BufTy).Contents (Elt F)) ]

/-- The same stage as the program spells it: a callee's operations over the call record's typed references. -/
abbrev opsNextIdxT : List (HloOp τ sig (Elt F)) :=
  [ StableHlo.nullary main_c_3 (constantI S_ 32 1#32),
    StableHlo.unary main_c_3 main_v15 (broadcastInDim S32768x1024 ![] bcast_S_S32768x1024 : (⟨S_, .i32⟩ : BufTy).Contents (Elt F) → (⟨S32768x1024, .i32⟩ : BufTy).Contents (Elt F)),
    StableHlo.binary main_v13 main_v15 main_v16 (addi : (⟨S32768x1024, .i32⟩ : BufTy).Contents (Elt F) → (⟨S32768x1024, .i32⟩ : BufTy).Contents (Elt F) → (⟨S32768x1024, .i32⟩ : BufTy).Contents (Elt F)),
    StableHlo.nullary main_c_4 (constantI S_ 32 4#32),
    StableHlo.TRef.unary (.of main_c_4 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S32768x1024 ![] bcast_S_S32768x1024),
    StableHlo.TRef.binary (.of main_v16 : StableHlo.TRef sig ⟨S32768x1024, .i32⟩) main_call3.v3 main_call3.v4 Host.remsi,
    StableHlo.TRef.nullary main_call3.c_1 (constantI S_ 32 0#32),
    StableHlo.TRef.unary main_call3.c_1 main_call3.v5 (broadcastInDim S32768x1024 ![] bcast_S_S32768x1024),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S32768x1024 ![] bcast_S_S32768x1024),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S32768x1024 ![] bcast_S_S32768x1024),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S32768x1024 ![] bcast_S_S32768x1024),
    StableHlo.TRef.binary main_call3.v4 main_call3.v13 main_call3.v14 addi,
    StableHlo.TRef.ternary main_call3.v12 main_call3.v14 main_call3.v4 main_call3.v15 select ]

/-- The buffers that stage writes. -/
abbrev opsNextIdx_W : List (Ref sig .tc) :=
  [main_c_3, main_v15, main_v16, main_c_4, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v17]

/-- That stage touches TensorCore references only. -/
theorem opsNextIdx_sub : (opsNextIdx : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- The segment's end: the sorted row taken at the next segment number. (22 operations) -/
abbrev opsNext : List (HloOp τ sig (Elt F)) :=
  [ StableHlo.nullary main_call4_c (constantI S_ 32 0#32),
    StableHlo.unary main_call4_c main_call4_v0 ((broadcastInDim S32768x1024 ![] bcast_S_S32768x1024) : (⟨S_, .i32⟩ : BufTy).Contents (Elt F) → (⟨S32768x1024, .i32⟩ : BufTy).Contents (Elt F)),
    StableHlo.binary main_v17 main_call4_v0 main_call4_v1 ((cmpi .slt) : (⟨S32768x1024, .i32⟩ : BufTy).Contents (Elt F) → (⟨S32768x1024, .i32⟩ : BufTy).Contents (Elt F) → (⟨S32768x1024, .i1⟩ : BufTy).Contents (Elt F)),
    StableHlo.nullary main_call4_c_0 (constantI S_ 32 4#32),
    StableHlo.unary main_call4_c_0 main_call4_v2 ((broadcastInDim S32768x1024 ![] bcast_S_S32768x1024) : (⟨S_, .i32⟩ : BufTy).Contents (Elt F) → (⟨S32768x1024, .i32⟩ : BufTy).Contents (Elt F)),
    StableHlo.binary main_v17 main_call4_v2 main_call4_v3 (addi : (⟨S32768x1024, .i32⟩ : BufTy).Contents (Elt F) → (⟨S32768x1024, .i32⟩ : BufTy).Contents (Elt F) → (⟨S32768x1024, .i32⟩ : BufTy).Contents (Elt F)),
    StableHlo.ternary main_call4_v1 main_call4_v3 main_v17 main_call4_v4 (select : (⟨S32768x1024, .i1⟩ : BufTy).Contents (Elt F) → (⟨S32768x1024, .i32⟩ : BufTy).Contents (Elt F) → (⟨S32768x1024, .i32⟩ : BufTy).Contents (Elt F) → (⟨S32768x1024, .i32⟩ : BufTy).Contents (Elt F)),
    StableHlo.reshape main_call4_v4 main_call4_v5 rfl shapeCasts_S32768x1024_S32768x1024x1,
    StableHlo.nullary main_call4_c_1 (constantI S1 32 3#32),
    StableHlo.nullary main_call4_c_2 (constantI S_ 32 0#32),
    StableHlo.unary main_call4_c_2 main_call4_v6 ((broadcastInDim S32768x1024x1 ![] bcast_S_S32768x1024x1) : (⟨S_, .i32⟩ : BufTy).Contents (Elt F) → (⟨S32768x1024x1, .i32⟩ : BufTy).Contents (Elt F)),
    StableHlo.binary main_call4_v5 main_call4_v6 main_call4_v7 ((cmpi .sge) : (⟨S32768x1024x1, .i32⟩ : BufTy).Contents (Elt F) → (⟨S32768x1024x1, .i32⟩ : BufTy).Contents (Elt F) → (⟨S32768x1024x1, .i1⟩ : BufTy).Contents (Elt F)),
    StableHlo.unary main_call4_c_1 main_call4_v8 ((broadcastInDim S1x1x1 ![2] bcast_S1_S1x1x1_2) : (⟨S1, .i32⟩ : BufTy).Contents (Elt F) → (⟨S1x1x1, .i32⟩ : BufTy).Contents (Elt F)),
    StableHlo.unary main_call4_v8 main_call4_v9 ((broadcastInDim S32768x1024x1 ![0, 1, 2] bcast_S1x1x1_S32768x1024x1_0_1_2) : (⟨S1x1x1, .i32⟩ : BufTy).Contents (Elt F) → (⟨S32768x1024x1, .i32⟩ : BufTy).Contents (Elt F)),
    StableHlo.binary main_call4_v5 main_call4_v9 main_call4_v10 ((cmpi .sle) : (⟨S32768x1024x1, .i32⟩ : BufTy).Contents (Elt F) → (⟨S32768x1024x1, .i32⟩ : BufTy).Contents (Elt F) → (⟨S32768x1024x1, .i1⟩ : BufTy).Contents (Elt F)),
    StableHlo.binary main_call4_v7 main_call4_v10 main_call4_v11 (andi : (⟨S32768x1024x1, .i1⟩ : BufTy).Contents (Elt F) → (⟨S32768x1024x1, .i1⟩ : BufTy).Contents (Elt F) → (⟨S32768x1024x1, .i1⟩ : BufTy).Contents (Elt F)),
    StableHlo.nullary main_call4_c_3 (constantI S_ 1 1#1),
    StableHlo.binary main_call4_v11 main_call4_c_3 main_call4_v12 ((fun x v => Host.reduce IntOp.andi x v reducesTo_S32768x1024x1_S32768x1024_d2 h_S_) : (⟨S32768x1024x1, .i1⟩ : BufTy).Contents (Elt F) → (⟨S_, .i1⟩ : BufTy).Contents (Elt F) → (⟨S32768x1024, .i1⟩ : BufTy).Contents (Elt F)),
    StableHlo.binary main_v0 main_call4_v5 main_call4_v13 ((fun x i => Host.gather gather_S32768x4_S32768x1024x1_S32768x1024_n_1_0_0_1_2_11 x i) : (⟨S32768x4, .i32⟩ : BufTy).Contents (Elt F) → (⟨S32768x1024x1, .i32⟩ : BufTy).Contents (Elt F) → (⟨S32768x1024, .i32⟩ : BufTy).Contents (Elt F)),
    StableHlo.nullary main_call4_c_4 (constantI S_ 32 2147483648#32),
    StableHlo.unary main_call4_c_4 main_call4_v14 ((broadcastInDim S32768x1024 ![] bcast_S_S32768x1024) : (⟨S_, .i32⟩ : BufTy).Contents (Elt F) → (⟨S32768x1024, .i32⟩ : BufTy).Contents (Elt F)),
    StableHlo.ternary main_call4_v12 main_call4_v13 main_call4_v14 main_v18 (select : (⟨S32768x1024, .i1⟩ : BufTy).Contents (Elt F) → (⟨S32768x1024, .i32⟩ : BufTy).Contents (Elt F) → (⟨S32768x1024, .i32⟩ : BufTy).Contents (Elt F) → (⟨S32768x1024, .i32⟩ : BufTy).Contents (Elt F)) ]

/-- The same stage as the program spells it: a callee's operations over the call record's typed references. -/
abbrev opsNextT : List (HloOp τ sig (Elt F)) :=
  [ StableHlo.TRef.nullary main_call4.c (constantI S_ 32 0#32),
    StableHlo.TRef.unary main_call4.c main_call4.v0 (broadcastInDim S32768x1024 ![] bcast_S_S32768x1024),
    StableHlo.TRef.binary (.of main_v17 : StableHlo.TRef sig ⟨S32768x1024, .i32⟩) main_call4.v0 main_call4.v1 (cmpi .slt),
    StableHlo.TRef.nullary main_call4.c_0 (constantI S_ 32 4#32),
    StableHlo.TRef.unary main_call4.c_0 main_call4.v2 (broadcastInDim S32768x1024 ![] bcast_S_S32768x1024),
    StableHlo.TRef.binary (.of main_v17 : StableHlo.TRef sig ⟨S32768x1024, .i32⟩) main_call4.v2 main_call4.v3 addi,
    StableHlo.TRef.ternary main_call4.v1 main_call4.v3 (.of main_v17 : StableHlo.TRef sig ⟨S32768x1024, .i32⟩) main_call4.v4 select,
    StableHlo.TRef.reshape main_call4.v4 main_call4.v5 rfl shapeCasts_S32768x1024_S32768x1024x1,
    StableHlo.TRef.nullary main_call4.c_1 (constantI S1 32 3#32),
    StableHlo.TRef.nullary main_call4.c_2 (constantI S_ 32 0#32),
    StableHlo.TRef.unary main_call4.c_2 main_call4.v6 (broadcastInDim S32768x1024x1 ![] bcast_S_S32768x1024x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S32768x1024x1 ![0, 1, 2] bcast_S1x1x1_S32768x1024x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S32768x1024x1_S32768x1024_d2 h_S_),
    StableHlo.TRef.binary (.of main_v0 : StableHlo.TRef sig ⟨S32768x4, .i32⟩) main_call4.v5 main_call4.v13 (fun x i => Host.gather gather_S32768x4_S32768x1024x1_S32768x1024_n_1_0_0_1_2_11 x i),
    StableHlo.TRef.nullary main_call4.c_4 (constantI S_ 32 2147483648#32),
    StableHlo.TRef.unary main_call4.c_4 main_call4.v14 (broadcastInDim S32768x1024 ![] bcast_S_S32768x1024),
    StableHlo.TRef.ternary main_call4.v12 main_call4.v13 main_call4.v14 main_call4.v15 select ]

/-- The buffers that stage writes. -/
abbrev opsNext_W : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_c_4, main_call4_v14, main_v18]

/-- That stage touches TensorCore references only. -/
theorem opsNext_sub : (opsNext : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- The segment's circular length: end minus start, modulo 1024. (23 operations) -/
abbrev opsLen : List (HloOp τ sig (Elt F)) :=
  [ StableHlo.binary main_v18 main_v14 main_v19 (subi : (⟨S32768x1024, .i32⟩ : BufTy).Contents (Elt F) → (⟨S32768x1024, .i32⟩ : BufTy).Contents (Elt F) → (⟨S32768x1024, .i32⟩ : BufTy).Contents (Elt F)),
    StableHlo.nullary main_c_5 (constantI S_ 32 1024#32),
    StableHlo.unary main_c_5 main_call5_v0 (id : (⟨S_, .i32⟩ : BufTy).Contents (Elt F) → (⟨S_, .i32⟩ : BufTy).Contents (Elt F)),
    StableHlo.nullary main_call5_c (constantI S_ 32 0#32),
    StableHlo.binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    StableHlo.nullary main_call5_c_0 (constantI S_ 32 1#32),
    StableHlo.ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_v2 main_call5_v3 ((broadcastInDim S32768x1024 ![] bcast_S_S32768x1024) : (⟨S_, .i32⟩ : BufTy).Contents (Elt F) → (⟨S32768x1024, .i32⟩ : BufTy).Contents (Elt F)),
    StableHlo.binary main_v19 main_call5_v3 main_call5_v4 (Host.remsi : (⟨S32768x1024, .i32⟩ : BufTy).Contents (Elt F) → (⟨S32768x1024, .i32⟩ : BufTy).Contents (Elt F) → (⟨S32768x1024, .i32⟩ : BufTy).Contents (Elt F)),
    StableHlo.nullary main_call5_c_1 (constantI S_ 32 0#32),
    StableHlo.unary main_call5_c_1 main_call5_v5 ((broadcastInDim S32768x1024 ![] bcast_S_S32768x1024) : (⟨S_, .i32⟩ : BufTy).Contents (Elt F) → (⟨S32768x1024, .i32⟩ : BufTy).Contents (Elt F)),
    StableHlo.binary main_call5_v4 main_call5_v5 main_call5_v6 ((cmpi .ne) : (⟨S32768x1024, .i32⟩ : BufTy).Contents (Elt F) → (⟨S32768x1024, .i32⟩ : BufTy).Contents (Elt F) → (⟨S32768x1024, .i1⟩ : BufTy).Contents (Elt F)),
    StableHlo.nullary main_call5_c_2 (constantI S_ 32 0#32),
    StableHlo.unary main_call5_c_2 main_call5_v7 ((broadcastInDim S32768x1024 ![] bcast_S_S32768x1024) : (⟨S_, .i32⟩ : BufTy).Contents (Elt F) → (⟨S32768x1024, .i32⟩ : BufTy).Contents (Elt F)),
    StableHlo.binary main_call5_v4 main_call5_v7 main_call5_v8 ((cmpi .slt) : (⟨S32768x1024, .i32⟩ : BufTy).Contents (Elt F) → (⟨S32768x1024, .i32⟩ : BufTy).Contents (Elt F) → (⟨S32768x1024, .i1⟩ : BufTy).Contents (Elt F)),
    StableHlo.nullary main_call5_c_3 (constantI S_ 32 0#32),
    StableHlo.binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    StableHlo.unary main_call5_v9 main_call5_v10 ((broadcastInDim S32768x1024 ![] bcast_S_S32768x1024) : (⟨S_, .i1⟩ : BufTy).Contents (Elt F) → (⟨S32768x1024, .i1⟩ : BufTy).Contents (Elt F)),
    StableHlo.binary main_call5_v8 main_call5_v10 main_call5_v11 ((cmpi .ne) : (⟨S32768x1024, .i1⟩ : BufTy).Contents (Elt F) → (⟨S32768x1024, .i1⟩ : BufTy).Contents (Elt F) → (⟨S32768x1024, .i1⟩ : BufTy).Contents (Elt F)),
    StableHlo.binary main_call5_v11 main_call5_v6 main_call5_v12 (andi : (⟨S32768x1024, .i1⟩ : BufTy).Contents (Elt F) → (⟨S32768x1024, .i1⟩ : BufTy).Contents (Elt F) → (⟨S32768x1024, .i1⟩ : BufTy).Contents (Elt F)),
    StableHlo.unary main_call5_v2 main_call5_v13 ((broadcastInDim S32768x1024 ![] bcast_S_S32768x1024) : (⟨S_, .i32⟩ : BufTy).Contents (Elt F) → (⟨S32768x1024, .i32⟩ : BufTy).Contents (Elt F)),
    StableHlo.binary main_call5_v4 main_call5_v13 main_call5_v14 (addi : (⟨S32768x1024, .i32⟩ : BufTy).Contents (Elt F) → (⟨S32768x1024, .i32⟩ : BufTy).Contents (Elt F) → (⟨S32768x1024, .i32⟩ : BufTy).Contents (Elt F)),
    StableHlo.ternary main_call5_v12 main_call5_v14 main_call5_v4 main_v20 (select : (⟨S32768x1024, .i1⟩ : BufTy).Contents (Elt F) → (⟨S32768x1024, .i32⟩ : BufTy).Contents (Elt F) → (⟨S32768x1024, .i32⟩ : BufTy).Contents (Elt F) → (⟨S32768x1024, .i32⟩ : BufTy).Contents (Elt F)) ]

/-- The same stage as the program spells it: a callee's operations over the call record's typed references. -/
abbrev opsLenT : List (HloOp τ sig (Elt F)) :=
  [ StableHlo.binary main_v18 main_v14 main_v19 (subi : (⟨S32768x1024, .i32⟩ : BufTy).Contents (Elt F) → (⟨S32768x1024, .i32⟩ : BufTy).Contents (Elt F) → (⟨S32768x1024, .i32⟩ : BufTy).Contents (Elt F)),
    StableHlo.nullary main_c_5 (constantI S_ 32 1024#32),
    StableHlo.TRef.unary (.of main_c_5 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S32768x1024 ![] bcast_S_S32768x1024),
    StableHlo.TRef.binary (.of main_v19 : StableHlo.TRef sig ⟨S32768x1024, .i32⟩) main_call5.v3 main_call5.v4 Host.remsi,
    StableHlo.TRef.nullary main_call5.c_1 (constantI S_ 32 0#32),
    StableHlo.TRef.unary main_call5.c_1 main_call5.v5 (broadcastInDim S32768x1024 ![] bcast_S_S32768x1024),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S32768x1024 ![] bcast_S_S32768x1024),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S32768x1024 ![] bcast_S_S32768x1024),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S32768x1024 ![] bcast_S_S32768x1024),
    StableHlo.TRef.binary main_call5.v4 main_call5.v13 main_call5.v14 addi,
    StableHlo.TRef.ternary main_call5.v12 main_call5.v14 main_call5.v4 main_call5.v15 select ]

/-- The buffers that stage writes. -/
abbrev opsLen_W : List (Ref sig .tc) :=
  [main_v19, main_c_5, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v20]

/-- That stage touches TensorCore references only. -/
theorem opsLen_sub : (opsLen : List (HloOp τ sig (Elt F))).Forall fun op => op.bufs ⊆ StableHlo.tcRefs τ sig :=
  ⟨StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- The position's offset in its segment: position minus start, modulo 1024. (25 operations) -/
abbrev opsOff : List (HloOp τ sig (Elt F)) :=
  [ StableHlo.unary main_v1 main_v21 (broadcastInDim S1x1024 ![1] bcast_S1024_S1x1024_1 : (⟨S1024, .i32⟩ : BufTy).Contents (Elt F) → (⟨S1x1024, .i32⟩ : BufTy).Contents (Elt F)),
    StableHlo.unary main_v21 main_v22 (broadcastInDim S32768x1024 ![0, 1] bcast_S1x1024_S32768x1024_0_1 : (⟨S1x1024, .i32⟩ : BufTy).Contents (Elt F) → (⟨S32768x1024, .i32⟩ : BufTy).Contents (Elt F)),
    StableHlo.binary main_v22 main_v14 main_v23 (subi : (⟨S32768x1024, .i32⟩ : BufTy).Contents (Elt F) → (⟨S32768x1024, .i32⟩ : BufTy).Contents (Elt F) → (⟨S32768x1024, .i32⟩ : BufTy).Contents (Elt F)),
    StableHlo.nullary main_c_6 (constantI S_ 32 1024#32),
    StableHlo.unary main_c_6 main_call6_v0 (id : (⟨S_, .i32⟩ : BufTy).Contents (Elt F) → (⟨S_, .i32⟩ : BufTy).Contents (Elt F)),
    StableHlo.nullary main_call6_c (constantI S_ 32 0#32),
    StableHlo.binary main_call6_v0 main_call6_c main_call6_v1 ((cmpi .eq) : (⟨S_, .i32⟩ : BufTy).Contents (Elt F) → (⟨S_, .i32⟩ : BufTy).Contents (Elt F) → (⟨S_, .i1⟩ : BufTy).Contents (Elt F)),
    StableHlo.nullary main_call6_c_0 (constantI S_ 32 1#32),
    StableHlo.ternary main_call6_v1 main_call6_c_0 main_call6_v0 main_call6_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call6_v2 main_call6_v3 ((broadcastInDim S32768x1024 ![] bcast_S_S32768x1024) : (⟨S_, .i32⟩ : BufTy).Contents (Elt F) → (⟨S32768x1024, .i32⟩ : BufTy).Contents (Elt F)),
    StableHlo.binary main_v23 main_call6_v3 main_call6_v4 (Host.remsi : (⟨S32768x1024, .i32⟩ : BufTy).Contents (Elt F) → (⟨S32768x1024, .i32⟩ : BufTy).Contents (Elt F) → (⟨S32768x1024, .i32⟩ : BufTy).Contents (Elt F)),
    StableHlo.nullary main_call6_c_1 (constantI S_ 32 0#32),
    StableHlo.unary main_call6_c_1 main_call6_v5 ((broadcastInDim S32768x1024 ![] bcast_S_S32768x1024) : (⟨S_, .i32⟩ : BufTy).Contents (Elt F) → (⟨S32768x1024, .i32⟩ : BufTy).Contents (Elt F)),
    StableHlo.binary main_call6_v4 main_call6_v5 main_call6_v6 ((cmpi .ne) : (⟨S32768x1024, .i32⟩ : BufTy).Contents (Elt F) → (⟨S32768x1024, .i32⟩ : BufTy).Contents (Elt F) → (⟨S32768x1024, .i1⟩ : BufTy).Contents (Elt F)),
    StableHlo.nullary main_call6_c_2 (constantI S_ 32 0#32),
    StableHlo.unary main_call6_c_2 main_call6_v7 ((broadcastInDim S32768x1024 ![] bcast_S_S32768x1024) : (⟨S_, .i32⟩ : BufTy).Contents (Elt F) → (⟨S32768x1024, .i32⟩ : BufTy).Contents (Elt F)),
    StableHlo.binary main_call6_v4 main_call6_v7 main_call6_v8 ((cmpi .slt) : (⟨S32768x1024, .i32⟩ : BufTy).Contents (Elt F) → (⟨S32768x1024, .i32⟩ : BufTy).Contents (Elt F) → (⟨S32768x1024, .i1⟩ : BufTy).Contents (Elt F)),
    StableHlo.nullary main_call6_c_3 (constantI S_ 32 0#32),
    StableHlo.binary main_call6_v2 main_call6_c_3 main_call6_v9 ((cmpi .slt) : (⟨S_, .i32⟩ : BufTy).Contents (Elt F) → (⟨S_, .i32⟩ : BufTy).Contents (Elt F) → (⟨S_, .i1⟩ : BufTy).Contents (Elt F)),
    StableHlo.unary main_call6_v9 main_call6_v10 ((broadcastInDim S32768x1024 ![] bcast_S_S32768x1024) : (⟨S_, .i1⟩ : BufTy).Contents (Elt F) → (⟨S32768x1024, .i1⟩ : BufTy).Contents (Elt F)),
    StableHlo.binary main_call6_v8 main_call6_v10 main_call6_v11 ((cmpi .ne) : (⟨S32768x1024, .i1⟩ : BufTy).Contents (Elt F) → (⟨S32768x1024, .i1⟩ : BufTy).Contents (Elt F) → (⟨S32768x1024, .i1⟩ : BufTy).Contents (Elt F)),
    StableHlo.binary main_call6_v11 main_call6_v6 main_call6_v12 (andi : (⟨S32768x1024, .i1⟩ : BufTy).Contents (Elt F) → (⟨S32768x1024, .i1⟩ : BufTy).Contents (Elt F) → (⟨S32768x1024, .i1⟩ : BufTy).Contents (Elt F)),
    StableHlo.unary main_call6_v2 main_call6_v13 ((broadcastInDim S32768x1024 ![] bcast_S_S32768x1024) : (⟨S_, .i32⟩ : BufTy).Contents (Elt F) → (⟨S32768x1024, .i32⟩ : BufTy).Contents (Elt F)),
    StableHlo.binary main_call6_v4 main_call6_v13 main_call6_v14 (addi : (⟨S32768x1024, .i32⟩ : BufTy).Contents (Elt F) → (⟨S32768x1024, .i32⟩ : BufTy).Contents (Elt F) → (⟨S32768x1024, .i32⟩ : BufTy).Contents (Elt F)),
    StableHlo.ternary main_call6_v12 main_call6_v14 main_call6_v4 main_v24 (select : (⟨S32768x1024, .i1⟩ : BufTy).Contents (Elt F) → (⟨S32768x1024, .i32⟩ : BufTy).Contents (Elt F) → (⟨S32768x1024, .i32⟩ : BufTy).Contents (Elt F) → (⟨S32768x1024, .i32⟩ : BufTy).Contents (Elt F)) ]

/-- The same stage as the program spells it: a callee's operations over the call record's typed references. -/
abbrev opsOffT : List (HloOp τ sig (Elt F)) :=
  [ StableHlo.unary main_v1 main_v21 (broadcastInDim S1x1024 ![1] bcast_S1024_S1x1024_1 : (⟨S1024, .i32⟩ : BufTy).Contents (Elt F) → (⟨S1x1024, .i32⟩ : BufTy).Contents (Elt F)),
    StableHlo.unary main_v21 main_v22 (broadcastInDim S32768x1024 ![0, 1] bcast_S1x1024_S32768x1024_0_1 : (⟨S1x1024, .i32⟩ : BufTy).Contents (Elt F) → (⟨S32768x1024, .i32⟩ : BufTy).Contents (Elt F)),
    StableHlo.binary main_v22 main_v14 main_v23 (subi : (⟨S32768x1024, .i32⟩ : BufTy).Contents (Elt F) → (⟨S32768x1024, .i32⟩ : BufTy).Contents (Elt F) → (⟨S32768x1024, .i32⟩ : BufTy).Contents (Elt F)),
    StableHlo.nullary main_c_6 (constantI S_ 32 1024#32),
    StableHlo.TRef.unary (.of main_c_6 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S32768x1024 ![] bcast_S_S32768x1024),
    StableHlo.TRef.binary (.of main_v23 : StableHlo.TRef sig ⟨S32768x1024, .i32⟩) main_call6.v3 main_call6.v4 Host.remsi,
    StableHlo.TRef.nullary main_call6.c_1 (constantI S_ 32 0#32),
    StableHlo.TRef.unary main_call6.c_1 main_call6.v5 (broadcastInDim S32768x1024 ![] bcast_S_S32768x1024),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S32768x1024 ![] bcast_S_S32768x1024),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S32768x1024 ![] bcast_S_S32768x1024),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S32768x1024 ![] bcast_S_S32768x1024),
    StableHlo.TRef.binary main_call6.v4 main_call6.v13 main_call6.v14 addi,
    StableHlo.TRef.ternary main_call6.v12 main_call6.v14 main_call6.v4 main_call6.v15 select ]

/-- The buffers that stage writes. -/
abbrev opsOff_W : List (Ref sig .tc) :=
  [main_v21, main_v22, main_v23, main_c_6, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v24]

/-- That stage touches TensorCore references only. -/
theorem opsOff_sub : (opsOff : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- The target: the cosine of offset times the full turn over the length, halved, plus one half. (13 operations) -/
abbrev opsTarget : List (HloOp τ sig (Elt F)) :=
  [ StableHlo.unary main_v24 main_v25 (sitofp .f32 : (⟨S32768x1024, .i32⟩ : BufTy).Contents (Elt F) → (⟨S32768x1024, .f32⟩ : BufTy).Contents (Elt F)),
    StableHlo.nullary main_cst (constant S_ .f32 0x40C90FDB#32),
    StableHlo.unary main_cst main_v26 (broadcastInDim S32768x1024 ![] bcast_S_S32768x1024 : (⟨S_, .f32⟩ : BufTy).Contents (Elt F) → (⟨S32768x1024, .f32⟩ : BufTy).Contents (Elt F)),
    StableHlo.binary main_v25 main_v26 main_v27 (mulf : (⟨S32768x1024, .f32⟩ : BufTy).Contents (Elt F) → (⟨S32768x1024, .f32⟩ : BufTy).Contents (Elt F) → (⟨S32768x1024, .f32⟩ : BufTy).Contents (Elt F)),
    StableHlo.unary main_v20 main_v28 (sitofp .f32 : (⟨S32768x1024, .i32⟩ : BufTy).Contents (Elt F) → (⟨S32768x1024, .f32⟩ : BufTy).Contents (Elt F)),
    StableHlo.binary main_v27 main_v28 main_v29 (Host.divf : (⟨S32768x1024, .f32⟩ : BufTy).Contents (Elt F) → (⟨S32768x1024, .f32⟩ : BufTy).Contents (Elt F) → (⟨S32768x1024, .f32⟩ : BufTy).Contents (Elt F)),
    StableHlo.unary main_v29 main_v30 (Host.cos : (⟨S32768x1024, .f32⟩ : BufTy).Contents (Elt F) → (⟨S32768x1024, .f32⟩ : BufTy).Contents (Elt F)),
    StableHlo.nullary main_cst_7 (constant S_ .f32 0x3F000000#32),
    StableHlo.unary main_cst_7 main_v31 (broadcastInDim S32768x1024 ![] bcast_S_S32768x1024 : (⟨S_, .f32⟩ : BufTy).Contents (Elt F) → (⟨S32768x1024, .f32⟩ : BufTy).Contents (Elt F)),
    StableHlo.binary main_v30 main_v31 main_v32 (mulf : (⟨S32768x1024, .f32⟩ : BufTy).Contents (Elt F) → (⟨S32768x1024, .f32⟩ : BufTy).Contents (Elt F) → (⟨S32768x1024, .f32⟩ : BufTy).Contents (Elt F)),
    StableHlo.nullary main_cst_8 (constant S_ .f32 0x3F000000#32),
    StableHlo.unary main_cst_8 main_v33 (broadcastInDim S32768x1024 ![] bcast_S_S32768x1024 : (⟨S_, .f32⟩ : BufTy).Contents (Elt F) → (⟨S32768x1024, .f32⟩ : BufTy).Contents (Elt F)),
    StableHlo.binary main_v32 main_v33 main_v34 (addf : (⟨S32768x1024, .f32⟩ : BufTy).Contents (Elt F) → (⟨S32768x1024, .f32⟩ : BufTy).Contents (Elt F) → (⟨S32768x1024, .f32⟩ : BufTy).Contents (Elt F)) ]

/-- The same stage as the program spells it: a callee's operations over the call record's typed references. -/
abbrev opsTargetT : List (HloOp τ sig (Elt F)) :=
  [ StableHlo.unary main_v24 main_v25 (sitofp .f32 : (⟨S32768x1024, .i32⟩ : BufTy).Contents (Elt F) → (⟨S32768x1024, .f32⟩ : BufTy).Contents (Elt F)),
    StableHlo.nullary main_cst (constant S_ .f32 0x40C90FDB#32),
    StableHlo.unary main_cst main_v26 (broadcastInDim S32768x1024 ![] bcast_S_S32768x1024 : (⟨S_, .f32⟩ : BufTy).Contents (Elt F) → (⟨S32768x1024, .f32⟩ : BufTy).Contents (Elt F)),
    StableHlo.binary main_v25 main_v26 main_v27 (mulf : (⟨S32768x1024, .f32⟩ : BufTy).Contents (Elt F) → (⟨S32768x1024, .f32⟩ : BufTy).Contents (Elt F) → (⟨S32768x1024, .f32⟩ : BufTy).Contents (Elt F)),
    StableHlo.unary main_v20 main_v28 (sitofp .f32 : (⟨S32768x1024, .i32⟩ : BufTy).Contents (Elt F) → (⟨S32768x1024, .f32⟩ : BufTy).Contents (Elt F)),
    StableHlo.binary main_v27 main_v28 main_v29 (Host.divf : (⟨S32768x1024, .f32⟩ : BufTy).Contents (Elt F) → (⟨S32768x1024, .f32⟩ : BufTy).Contents (Elt F) → (⟨S32768x1024, .f32⟩ : BufTy).Contents (Elt F)),
    StableHlo.unary main_v29 main_v30 (Host.cos : (⟨S32768x1024, .f32⟩ : BufTy).Contents (Elt F) → (⟨S32768x1024, .f32⟩ : BufTy).Contents (Elt F)),
    StableHlo.nullary main_cst_7 (constant S_ .f32 0x3F000000#32),
    StableHlo.unary main_cst_7 main_v31 (broadcastInDim S32768x1024 ![] bcast_S_S32768x1024 : (⟨S_, .f32⟩ : BufTy).Contents (Elt F) → (⟨S32768x1024, .f32⟩ : BufTy).Contents (Elt F)),
    StableHlo.binary main_v30 main_v31 main_v32 (mulf : (⟨S32768x1024, .f32⟩ : BufTy).Contents (Elt F) → (⟨S32768x1024, .f32⟩ : BufTy).Contents (Elt F) → (⟨S32768x1024, .f32⟩ : BufTy).Contents (Elt F)),
    StableHlo.nullary main_cst_8 (constant S_ .f32 0x3F000000#32),
    StableHlo.unary main_cst_8 main_v33 (broadcastInDim S32768x1024 ![] bcast_S_S32768x1024 : (⟨S_, .f32⟩ : BufTy).Contents (Elt F) → (⟨S32768x1024, .f32⟩ : BufTy).Contents (Elt F)),
    StableHlo.binary main_v32 main_v33 main_v34 (addf : (⟨S32768x1024, .f32⟩ : BufTy).Contents (Elt F) → (⟨S32768x1024, .f32⟩ : BufTy).Contents (Elt F) → (⟨S32768x1024, .f32⟩ : BufTy).Contents (Elt F)) ]

/-- The buffers that stage writes. -/
abbrev opsTarget_W : List (Ref sig .tc) :=
  [main_v25, main_cst, main_v26, main_v27, main_v28, main_v29, main_v30, main_cst_7, main_v31, main_v32, main_cst_8, main_v33, main_v34]

/-- That stage touches TensorCore references only. -/
theorem opsTarget_sub : (opsTarget : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- The loss: the squared deviation from the target summed over every element, over the count. (7 operations) -/
abbrev opsLoss : List (HloOp τ sig (Elt F)) :=
  [ StableHlo.reshape main_arg0 main_v35 rfl shapeCasts_S32768x1x1024_S32768x1024,
    StableHlo.binary main_v35 main_v34 main_v36 (subf : (⟨S32768x1024, .f32⟩ : BufTy).Contents (Elt F) → (⟨S32768x1024, .f32⟩ : BufTy).Contents (Elt F) → (⟨S32768x1024, .f32⟩ : BufTy).Contents (Elt F)),
    StableHlo.binary main_v36 main_v36 main_v37 (mulf : (⟨S32768x1024, .f32⟩ : BufTy).Contents (Elt F) → (⟨S32768x1024, .f32⟩ : BufTy).Contents (Elt F) → (⟨S32768x1024, .f32⟩ : BufTy).Contents (Elt F)),
    StableHlo.nullary main_cst_9 (constant S_ .f32 0x00000000#32),
    StableHlo.binary main_v37 main_cst_9 main_v38 ((fun x v => Host.reduceAdd x v reducesTo_S32768x1024_S_d0_1 h_S_) : (⟨S32768x1024, .f32⟩ : BufTy).Contents (Elt F) → (⟨S_, .f32⟩ : BufTy).Contents (Elt F) → (⟨S_, .f32⟩ : BufTy).Contents (Elt F)),
    StableHlo.nullary main_cst_10 (constant S_ .f32 0x4C000000#32),
    StableHlo.binary main_v38 main_cst_10 main_v39 (Host.divf : (⟨S_, .f32⟩ : BufTy).Contents (Elt F) → (⟨S_, .f32⟩ : BufTy).Contents (Elt F) → (⟨S_, .f32⟩ : BufTy).Contents (Elt F)) ]

/-- The same stage as the program spells it: a callee's operations over the call record's typed references. -/
abbrev opsLossT : List (HloOp τ sig (Elt F)) :=
  [ StableHlo.reshape main_arg0 main_v35 rfl shapeCasts_S32768x1x1024_S32768x1024,
    StableHlo.binary main_v35 main_v34 main_v36 (subf : (⟨S32768x1024, .f32⟩ : BufTy).Contents (Elt F) → (⟨S32768x1024, .f32⟩ : BufTy).Contents (Elt F) → (⟨S32768x1024, .f32⟩ : BufTy).Contents (Elt F)),
    StableHlo.binary main_v36 main_v36 main_v37 (mulf : (⟨S32768x1024, .f32⟩ : BufTy).Contents (Elt F) → (⟨S32768x1024, .f32⟩ : BufTy).Contents (Elt F) → (⟨S32768x1024, .f32⟩ : BufTy).Contents (Elt F)),
    StableHlo.nullary main_cst_9 (constant S_ .f32 0x00000000#32),
    StableHlo.binary main_v37 main_cst_9 main_v38 ((fun x v => Host.reduceAdd x v reducesTo_S32768x1024_S_d0_1 h_S_) : (⟨S32768x1024, .f32⟩ : BufTy).Contents (Elt F) → (⟨S_, .f32⟩ : BufTy).Contents (Elt F) → (⟨S_, .f32⟩ : BufTy).Contents (Elt F)),
    StableHlo.nullary main_cst_10 (constant S_ .f32 0x4C000000#32),
    StableHlo.binary main_v38 main_cst_10 main_v39 (Host.divf : (⟨S_, .f32⟩ : BufTy).Contents (Elt F) → (⟨S_, .f32⟩ : BufTy).Contents (Elt F) → (⟨S_, .f32⟩ : BufTy).Contents (Elt F)) ]

/-- The buffers that stage writes. -/
abbrev opsLoss_W : List (Ref sig .tc) :=
  [main_v35, main_v36, main_v37, main_cst_9, main_v38, main_cst_10, main_v39]

/-- That stage touches TensorCore references only. -/
theorem opsLoss_sub : (opsLoss : List (HloOp τ sig (Elt F))).Forall fun op => op.bufs ⊆ StableHlo.tcRefs τ sig :=
  ⟨StableHlo.reshape_bufs_sub .., StableHlo.binary_bufs_sub .., StableHlo.binary_bufs_sub .., StableHlo.nullary_bufs_sub .., StableHlo.binary_bufs_sub .., StableHlo.nullary_bufs_sub .., StableHlo.binary_bufs_sub ..⟩

/-- @main's 157 operations in order, stage after stage. -/
abbrev ops : List (HloOp τ sig (Elt F)) :=
  opsSort ++ (opsSeg ++ (opsStart ++ (opsNextIdx ++ (opsNext ++ (opsLen ++ (opsOff ++ (opsTarget ++ (opsLoss))))))))

/-- The same as the program spells them. -/
abbrev opsT : List (HloOp τ sig (Elt F)) :=
  opsSortT ++ (opsSegT ++ (opsStartT ++ (opsNextIdxT ++ (opsNextT ++ (opsLenT ++ (opsOffT ++ (opsTargetT ++ (opsLossT))))))))

end Cert.ReferenceIdeal.HandRun

end
-- ==== Proof.RefRun.lean ====
/-
  The reference's run: every weakly fair execution of its @main terminates with the result buffer at the program's
  composed term of the two arguments (RefTerm.lean's `loss`) and the arguments unchanged.

  The 157 operations (the calls replaced by their callees' operations) are read stage by stage: each stage's result
  buffer holds that stage's function of the buffers the stage reads, every buffer a stage does not write keeps its
  contents through it, and the stages' functions compose to `loss`.
-/
import proofs.«426116_j60318520705345_3_alg».proof.Proof.RefTerm
import proofs.«426116_j60318520705345_3_alg».proof.Proof.RefRunTables
import Idealize.ShloMosaic.Lib.StableHlo.Run

noncomputable section

namespace Cert.ReferenceIdeal.HandRun

open Idealize.ShloMosaic Idealize.ShloMosaic.TcCoe Idealize.SL.Sem Cert.ReferenceIdeal Cert.ReferenceIdeal.Facts₀

variable [Facts] {F : FTy → Type} [FloatOps F]

/-! ## Lists of operations -/

/-- The contents after two stretches run one after the other. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- An operation whose one written buffer is among a list of references writes inside that list. -/
theorem writes_sub_of {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- Every operation of a literal stage determines its results. -/
local macro "stage_fresh" : tactic => `(tactic| repeat' (first | apply And.intro | rfl))

/-- Every operation of a literal stage writes one buffer, a member of the stage's list. -/
local macro "stage_writes" : tactic =>
  `(tactic| repeat' (first | apply And.intro | exact writes_sub_of rfl (by decide)))

/-! ## The stages: what each determines, writes and keeps; and that it is the program's own spelling -/

theorem opsSort_fresh : (opsSort : List (HloOp τ sig (Elt F))).Forall fun op => op.fresh = ∅ := by stage_fresh
theorem opsSort_writes : (opsSort : List (HloOp τ sig (Elt F))).Forall fun op =>
    op.writes ⊆ (opsSort_W.map (Proc.devRef (τ := τ) .tc)).toFinset := by stage_writes
theorem opsSort_keep (V : Valuation τ sig (Elt F)) (r : Ref sig .tc) (h : r ∉ opsSort_W) :
    StableHlo.after opsSort V (Proc.devRef .tc r) = V (Proc.devRef .tc r) :=
  StableHlo.after_of_writes_sub opsSort V opsSort_writes h
attribute [local irreducible] Host.reduce Host.gather Host.sort in
set_option maxRecDepth 8192 in
theorem opsSortT_eq : (opsSortT : List (HloOp τ sig (Elt F))) = opsSort := rfl

theorem opsSeg_fresh : (opsSeg : List (HloOp τ sig (Elt F))).Forall fun op => op.fresh = ∅ := by stage_fresh
theorem opsSeg_writes : (opsSeg : List (HloOp τ sig (Elt F))).Forall fun op =>
    op.writes ⊆ (opsSeg_W.map (Proc.devRef (τ := τ) .tc)).toFinset := by stage_writes
theorem opsSeg_keep (V : Valuation τ sig (Elt F)) (r : Ref sig .tc) (h : r ∉ opsSeg_W) :
    StableHlo.after opsSeg V (Proc.devRef .tc r) = V (Proc.devRef .tc r) :=
  StableHlo.after_of_writes_sub opsSeg V opsSeg_writes h
attribute [local irreducible] Host.reduce Host.gather Host.sort in
set_option maxRecDepth 8192 in
theorem opsSegT_eq : (opsSegT : List (HloOp τ sig (Elt F))) = opsSeg := rfl

theorem opsStart_fresh : (opsStart : List (HloOp τ sig (Elt F))).Forall fun op => op.fresh = ∅ := by stage_fresh
theorem opsStart_writes : (opsStart : List (HloOp τ sig (Elt F))).Forall fun op =>
    op.writes ⊆ (opsStart_W.map (Proc.devRef (τ := τ) .tc)).toFinset := by stage_writes
theorem opsStart_keep (V : Valuation τ sig (Elt F)) (r : Ref sig .tc) (h : r ∉ opsStart_W) :
    StableHlo.after opsStart V (Proc.devRef .tc r) = V (Proc.devRef .tc r) :=
  StableHlo.after_of_writes_sub opsStart V opsStart_writes h
attribute [local irreducible] Host.reduce Host.gather Host.sort in
set_option maxRecDepth 8192 in
theorem opsStartT_eq : (opsStartT : List (HloOp τ sig (Elt F))) = opsStart := rfl

theorem opsNextIdx_fresh : (opsNextIdx : List (HloOp τ sig (Elt F))).Forall fun op => op.fresh = ∅ := by stage_fresh
theorem opsNextIdx_writes : (opsNextIdx : List (HloOp τ sig (Elt F))).Forall fun op =>
    op.writes ⊆ (opsNextIdx_W.map (Proc.devRef (τ := τ) .tc)).toFinset := by stage_writes
theorem opsNextIdx_keep (V : Valuation τ sig (Elt F)) (r : Ref sig .tc) (h : r ∉ opsNextIdx_W) :
    StableHlo.after opsNextIdx V (Proc.devRef .tc r) = V (Proc.devRef .tc r) :=
  StableHlo.after_of_writes_sub opsNextIdx V opsNextIdx_writes h
attribute [local irreducible] Host.reduce Host.gather Host.sort in
set_option maxRecDepth 8192 in
theorem opsNextIdxT_eq : (opsNextIdxT : List (HloOp τ sig (Elt F))) = opsNextIdx := rfl

theorem opsNext_fresh : (opsNext : List (HloOp τ sig (Elt F))).Forall fun op => op.fresh = ∅ := by stage_fresh
theorem opsNext_writes : (opsNext : List (HloOp τ sig (Elt F))).Forall fun op =>
    op.writes ⊆ (opsNext_W.map (Proc.devRef (τ := τ) .tc)).toFinset := by stage_writes
theorem opsNext_keep (V : Valuation τ sig (Elt F)) (r : Ref sig .tc) (h : r ∉ opsNext_W) :
    StableHlo.after opsNext V (Proc.devRef .tc r) = V (Proc.devRef .tc r) :=
  StableHlo.after_of_writes_sub opsNext V opsNext_writes h
attribute [local irreducible] Host.reduce Host.gather Host.sort in
set_option maxRecDepth 8192 in
theorem opsNextT_eq : (opsNextT : List (HloOp τ sig (Elt F))) = opsNext := rfl

theorem opsLen_fresh : (opsLen : List (HloOp τ sig (Elt F))).Forall fun op => op.fresh = ∅ := by stage_fresh
theorem opsLen_writes : (opsLen : List (HloOp τ sig (Elt F))).Forall fun op =>
    op.writes ⊆ (opsLen_W.map (Proc.devRef (τ := τ) .tc)).toFinset := by stage_writes
theorem opsLen_keep (V : Valuation τ sig (Elt F)) (r : Ref sig .tc) (h : r ∉ opsLen_W) :
    StableHlo.after opsLen V (Proc.devRef .tc r) = V (Proc.devRef .tc r) :=
  StableHlo.after_of_writes_sub opsLen V opsLen_writes h
attribute [local irreducible] Host.reduce Host.gather Host.sort in
set_option maxRecDepth 8192 in
theorem opsLenT_eq : (opsLenT : List (HloOp τ sig (Elt F))) = opsLen := rfl

theorem opsOff_fresh : (opsOff : List (HloOp τ sig (Elt F))).Forall fun op => op.fresh = ∅ := by stage_fresh
theorem opsOff_writes : (opsOff : List (HloOp τ sig (Elt F))).Forall fun op =>
    op.writes ⊆ (opsOff_W.map (Proc.devRef (τ := τ) .tc)).toFinset := by stage_writes
theorem opsOff_keep (V : Valuation τ sig (Elt F)) (r : Ref sig .tc) (h : r ∉ opsOff_W) :
    StableHlo.after opsOff V (Proc.devRef .tc r) = V (Proc.devRef .tc r) :=
  StableHlo.after_of_writes_sub opsOff V opsOff_writes h
attribute [local irreducible] Host.reduce Host.gather Host.sort in
set_option maxRecDepth 8192 in
theorem opsOffT_eq : (opsOffT : List (HloOp τ sig (Elt F))) = opsOff := rfl

theorem opsTarget_fresh : (opsTarget : List (HloOp τ sig (Elt F))).Forall fun op => op.fresh = ∅ := by stage_fresh
theorem opsTarget_writes : (opsTarget : List (HloOp τ sig (Elt F))).Forall fun op =>
    op.writes ⊆ (opsTarget_W.map (Proc.devRef (τ := τ) .tc)).toFinset := by stage_writes
theorem opsTarget_keep (V : Valuation τ sig (Elt F)) (r : Ref sig .tc) (h : r ∉ opsTarget_W) :
    StableHlo.after opsTarget V (Proc.devRef .tc r) = V (Proc.devRef .tc r) :=
  StableHlo.after_of_writes_sub opsTarget V opsTarget_writes h
attribute [local irreducible] Host.reduce Host.gather Host.sort in
set_option maxRecDepth 8192 in
theorem opsTargetT_eq : (opsTargetT : List (HloOp τ sig (Elt F))) = opsTarget := rfl

theorem opsLoss_fresh : (opsLoss : List (HloOp τ sig (Elt F))).Forall fun op => op.fresh = ∅ := by stage_fresh
theorem opsLoss_writes : (opsLoss : List (HloOp τ sig (Elt F))).Forall fun op =>
    op.writes ⊆ (opsLoss_W.map (Proc.devRef (τ := τ) .tc)).toFinset := by stage_writes
theorem opsLoss_keep (V : Valuation τ sig (Elt F)) (r : Ref sig .tc) (h : r ∉ opsLoss_W) :
    StableHlo.after opsLoss V (Proc.devRef .tc r) = V (Proc.devRef .tc r) :=
  StableHlo.after_of_writes_sub opsLoss V opsLoss_writes h
attribute [local irreducible] Host.reduce Host.gather Host.sort in
set_option maxRecDepth 8192 in
theorem opsLossT_eq : (opsLossT : List (HloOp τ sig (Elt F))) = opsLoss := rfl

/-! ## What each stage computes, from any contents `V`

Each stage's result buffer after the stage is the stage's own operations composed, over `V` at the buffers the stage
reads; that composition is, read as text, the function of RefTerm.lean it is named after. -/

/-- The target from the offsets and the lengths: the cosine of offset times the full turn over the length, halved,
    plus one half. -/
def targetFrom (off len : IVec S32768x1024 32) : FVec F S32768x1024 .f32 :=
  addf (mulf (Host.cos (Host.divf (mulf (sitofp .f32 off) (Term.spread (constant S_ .f32 0x40C90FDB#32))) (sitofp .f32 len)))
    (Term.spread (constant S_ .f32 0x3F000000#32))) (Term.spread (constant S_ .f32 0x3F000000#32))

/-- The loss from the values and the target: the squared deviations summed from zero, over the count. -/
def lossFrom (x : FVec F S32768x1x1024 .f32) (t : FVec F S32768x1024 .f32) : FVec F S_ .f32 :=
  Host.divf
    (Host.reduceAdd
      (mulf (subf (shapeCast S32768x1024 x shapeCasts_S32768x1x1024_S32768x1024) t)
        (subf (shapeCast S32768x1024 x shapeCasts_S32768x1x1024_S32768x1024) t))
      (constant S_ .f32 0x00000000#32) reducesTo_S32768x1024_S_d0_1 h_S_)
    (constant S_ .f32 0x4C000000#32)

theorem targetOf_eq (m : IVec S32768x4 32) : Term.targetOf (F := F) m = targetFrom (Term.offOf m) (Term.lenOf m) := rfl

theorem loss_eq (x : FVec F S32768x1x1024 .f32) (idx : IVec S32768x4 32) :
    Term.loss x idx = lossFrom x (Term.targetOf (Term.sorted idx)) := rfl

/-- The offsets from the positions and the segments' starts: position minus start, modulo 1024. -/
def offFrom (p : IVec S1024 32) (s : IVec S32768x1024 32) : IVec S32768x1024 32 :=
  Term.floorMod
    (subi (broadcastInDim S32768x1024 ![0, 1] bcast_S1x1024_S32768x1024_0_1 (broadcastInDim S1x1024 ![1] bcast_S1024_S1x1024_1 p)) s)
    (constantI S_ 32 1024#32)

theorem offOf_eq (m : IVec S32768x4 32) : Term.offOf m = offFrom Term.positions (Term.startOf m) := rfl

section Stages

variable (V : Valuation τ sig (Elt F))

attribute [local irreducible] Host.reduce Host.gather Host.sort Host.reduceAdd

theorem opsSort_v0 : StableHlo.after opsSort V (Proc.devRef .tc main_v0) = Term.sorted (V (Proc.devRef .tc main_arg1)) := by
  after_results_simp
  rfl

theorem opsSeg_v1 : StableHlo.after opsSeg V (Proc.devRef .tc main_v1) = Term.positions := by
  after_results_simp

theorem opsSeg_v13 : StableHlo.after opsSeg V (Proc.devRef .tc main_v13) = Term.segOf (V (Proc.devRef .tc main_v0)) := by
  after_results_simp
  rfl

theorem opsStart_v14 :
    StableHlo.after opsStart V (Proc.devRef .tc main_v14)
      = Term.takeAlong (V (Proc.devRef .tc main_v0)) (V (Proc.devRef .tc main_v13)) := by
  after_results_simp
  rfl

theorem opsNextIdx_v17 :
    StableHlo.after opsNextIdx V (Proc.devRef .tc main_v17)
      = Term.floorMod (addi (V (Proc.devRef .tc main_v13)) (Term.spread (constantI S_ 32 1#32))) (constantI S_ 32 4#32) := by
  after_results_simp
  rfl

theorem opsNext_v18 :
    StableHlo.after opsNext V (Proc.devRef .tc main_v18)
      = Term.takeAlong (V (Proc.devRef .tc main_v0)) (V (Proc.devRef .tc main_v17)) := by
  after_results_simp
  rfl

theorem opsLen_v20 :
    StableHlo.after opsLen V (Proc.devRef .tc main_v20)
      = Term.floorMod (subi (V (Proc.devRef .tc main_v18)) (V (Proc.devRef .tc main_v14))) (constantI S_ 32 1024#32) := by
  after_results_simp
  rfl

theorem opsOff_v24 :
    StableHlo.after opsOff V (Proc.devRef .tc main_v24)
      = offFrom (V (Proc.devRef .tc main_v1)) (V (Proc.devRef .tc main_v14)) := by
  after_results_simp
  rfl

theorem opsTarget_v34 :
    StableHlo.after opsTarget V (Proc.devRef .tc main_v34)
      = targetFrom (V (Proc.devRef .tc main_v24)) (V (Proc.devRef .tc main_v20)) := by
  after_results_simp
  rfl

theorem opsLoss_v39 :
    StableHlo.after opsLoss V (Proc.devRef .tc main_v39)
      = lossFrom (V (Proc.devRef .tc main_arg0)) (V (Proc.devRef .tc main_v34)) := by
  after_results_simp
  rfl

end Stages

/-! ## The stages composed

`atK V`: the contents after the first `K` stages run from `V`. Each buffer a later stage reads is followed from the
stage that writes it to the stage that reads it, through the stages between, which do not write it. -/

section Compose

variable (V : Valuation τ sig (Elt F))

/-- The sorted breakpoints, from the contents the run starts at. -/
abbrev srt : IVec S32768x4 32 := Term.sorted (V (Proc.devRef .tc main_arg1))

/-- The next segment number round the circle, from the contents the run starts at. -/
abbrev nxt : IVec S32768x1024 32 :=
  Term.floorMod (addi (Term.segOf (srt V)) (Term.spread (constantI S_ 32 1#32))) (constantI S_ 32 4#32)

def at1 : Valuation τ sig (Elt F) := StableHlo.after opsSort V
def at2 : Valuation τ sig (Elt F) := StableHlo.after opsSeg (at1 V)
def at3 : Valuation τ sig (Elt F) := StableHlo.after opsStart (at2 V)
def at4 : Valuation τ sig (Elt F) := StableHlo.after opsNextIdx (at3 V)
def at5 : Valuation τ sig (Elt F) := StableHlo.after opsNext (at4 V)
def at6 : Valuation τ sig (Elt F) := StableHlo.after opsLen (at5 V)
def at7 : Valuation τ sig (Elt F) := StableHlo.after opsOff (at6 V)
def at8 : Valuation τ sig (Elt F) := StableHlo.after opsTarget (at7 V)
def at9 : Valuation τ sig (Elt F) := StableHlo.after opsLoss (at8 V)

/-- The whole list run from `V` is the nine stages run in order. -/
theorem after_ops : StableHlo.after ops V = at9 V := by
  rw [after_app, after_app, after_app, after_app, after_app, after_app, after_app, after_app]
  rfl

/-- A buffer none of the first eight stages writes holds after them what it held. -/
theorem at8_keep (r : Ref sig .tc) (h1 : r ∉ opsSort_W) (h2 : r ∉ opsSeg_W) (h3 : r ∉ opsStart_W) (h4 : r ∉ opsNextIdx_W)
    (h5 : r ∉ opsNext_W) (h6 : r ∉ opsLen_W) (h7 : r ∉ opsOff_W) (h8 : r ∉ opsTarget_W) :
    at8 V (Proc.devRef .tc r) = V (Proc.devRef .tc r) :=
  (opsTarget_keep _ r h8).trans <| (opsOff_keep _ r h7).trans <| (opsLen_keep _ r h6).trans <| (opsNext_keep _ r h5).trans <|
    (opsNextIdx_keep _ r h4).trans <| (opsStart_keep _ r h3).trans <| (opsSeg_keep _ r h2).trans (opsSort_keep V r h1)

/-- The same of all nine. -/
theorem at9_keep (r : Ref sig .tc) (h1 : r ∉ opsSort_W) (h2 : r ∉ opsSeg_W) (h3 : r ∉ opsStart_W) (h4 : r ∉ opsNextIdx_W)
    (h5 : r ∉ opsNext_W) (h6 : r ∉ opsLen_W) (h7 : r ∉ opsOff_W) (h8 : r ∉ opsTarget_W) (h9 : r ∉ opsLoss_W) :
    at9 V (Proc.devRef .tc r) = V (Proc.devRef .tc r) :=
  (opsLoss_keep _ r h9).trans (at8_keep V r h1 h2 h3 h4 h5 h6 h7 h8)

-- the sorted breakpoints: written by the first stage, read by the second, the third and the fifth
theorem at1_v0 : at1 V (Proc.devRef .tc main_v0) = srt V := opsSort_v0 V
theorem at2_v0 : at2 V (Proc.devRef .tc main_v0) = srt V := (opsSeg_keep _ main_v0 (by decide)).trans (at1_v0 V)
theorem at4_v0 : at4 V (Proc.devRef .tc main_v0) = srt V :=
  (opsNextIdx_keep _ main_v0 (by decide)).trans <| (opsStart_keep _ main_v0 (by decide)).trans (at2_v0 V)

-- the positions: written by the second stage, read by the seventh
theorem at6_v1 : at6 V (Proc.devRef .tc main_v1) = Term.positions :=
  (opsLen_keep _ main_v1 (by decide)).trans <| (opsNext_keep _ main_v1 (by decide)).trans <|
    (opsNextIdx_keep _ main_v1 (by decide)).trans <| (opsStart_keep _ main_v1 (by decide)).trans (opsSeg_v1 (at1 V))

-- the segment number: written by the second stage, read by the third and the fourth
theorem at2_v13 : at2 V (Proc.devRef .tc main_v13) = Term.segOf (srt V) :=
  (opsSeg_v13 (at1 V)).trans (congrArg Term.segOf (at1_v0 V))
theorem at3_v13 : at3 V (Proc.devRef .tc main_v13) = Term.segOf (srt V) :=
  (opsStart_keep _ main_v13 (by decide)).trans (at2_v13 V)

-- the segment's start: written by the third stage, read by the sixth and the seventh
theorem at3_v14 : at3 V (Proc.devRef .tc main_v14) = Term.startOf (srt V) :=
  (opsStart_v14 (at2 V)).trans (congrArg₂ Term.takeAlong (at2_v0 V) (at2_v13 V))
theorem at5_v14 : at5 V (Proc.devRef .tc main_v14) = Term.startOf (srt V) :=
  (opsNext_keep _ main_v14 (by decide)).trans <| (opsNextIdx_keep _ main_v14 (by decide)).trans (at3_v14 V)
theorem at6_v14 : at6 V (Proc.devRef .tc main_v14) = Term.startOf (srt V) :=
  (opsLen_keep _ main_v14 (by decide)).trans (at5_v14 V)

-- the next segment number, and the segment's end
theorem at4_v17 : at4 V (Proc.devRef .tc main_v17) = nxt V :=
  (opsNextIdx_v17 (at3 V)).trans
    (congrArg (fun s => Term.floorMod (addi s (Term.spread (constantI S_ 32 1#32))) (constantI S_ 32 4#32)) (at3_v13 V))
theorem at5_v18 : at5 V (Proc.devRef .tc main_v18) = Term.takeAlong (srt V) (nxt V) :=
  (opsNext_v18 (at4 V)).trans (congrArg₂ Term.takeAlong (at4_v0 V) (at4_v17 V))

-- the segment's length: written by the sixth stage, read by the eighth
theorem at6_v20 : at6 V (Proc.devRef .tc main_v20) = Term.lenOf (srt V) :=
  (opsLen_v20 (at5 V)).trans
    (congrArg₂ (fun a b => Term.floorMod (subi a b) (constantI S_ 32 1024#32)) (at5_v18 V) (at5_v14 V))
theorem at7_v20 : at7 V (Proc.devRef .tc main_v20) = Term.lenOf (srt V) :=
  (opsOff_keep _ main_v20 (by decide)).trans (at6_v20 V)

-- the offset, the target, the loss
theorem at7_v24 : at7 V (Proc.devRef .tc main_v24) = Term.offOf (srt V) :=
  ((opsOff_v24 (at6 V)).trans (congrArg₂ offFrom (at6_v1 V) (at6_v14 V))).trans (offOf_eq (srt V)).symm
theorem at8_v34 : at8 V (Proc.devRef .tc main_v34) = Term.targetOf (srt V) :=
  ((opsTarget_v34 (at7 V)).trans (congrArg₂ targetFrom (at7_v24 V) (at7_v20 V))).trans (targetOf_eq (srt V)).symm
theorem at8_arg0 : at8 V (Proc.devRef .tc main_arg0) = V (Proc.devRef .tc main_arg0) :=
  at8_keep V main_arg0 (by decide) (by decide) (by decide) (by decide) (by decide) (by decide) (by decide) (by decide)
theorem at9_v39 :
    at9 V (Proc.devRef .tc main_v39) = Term.loss (V (Proc.devRef .tc main_arg0)) (V (Proc.devRef .tc main_arg1)) :=
  ((opsLoss_v39 (at8 V)).trans (congrArg₂ lossFrom (at8_arg0 V) (at8_v34 V))).trans (loss_eq _ _).symm
theorem at9_arg0 : at9 V (Proc.devRef .tc main_arg0) = V (Proc.devRef .tc main_arg0) :=
  at9_keep V main_arg0 (by decide) (by decide) (by decide) (by decide) (by decide) (by decide) (by decide) (by decide) (by decide)
theorem at9_arg1 : at9 V (Proc.devRef .tc main_arg1) = V (Proc.devRef .tc main_arg1) :=
  at9_keep V main_arg1 (by decide) (by decide) (by decide) (by decide) (by decide) (by decide) (by decide) (by decide) (by decide)

end Compose

/-! ## The program is that list, and its run -/

/-- The list as the program spells it is the list over the buffers. -/
theorem opsT_eq : (opsT : List (HloOp τ sig (Elt F))) = ops := by
  show opsSortT ++ (opsSegT ++ (opsStartT ++ (opsNextIdxT ++ (opsNextT ++ (opsLenT ++ (opsOffT ++ (opsTargetT ++ opsLossT)))))))
    = opsSort ++ (opsSeg ++ (opsStart ++ (opsNextIdx ++ (opsNext ++ (opsLen ++ (opsOff ++ (opsTarget ++ opsLoss)))))))
  rw [opsSortT_eq, opsSegT_eq, opsStartT_eq, opsNextIdxT_eq, opsNextT_eq, opsLenT_eq, opsOffT_eq, opsTargetT_eq, opsLossT_eq]

set_option maxRecDepth 16384 in
set_option maxHeartbeats 1600000 in
/-- @main is that straight line: the functions' definitions unfolded at their calls and the records at their fields,
    both sides are one chain of steps once sequencing is reassociated. -/
theorem main_eqT (c : Dev nD) : main (F := F) c = StableHlo.seq opsT := by
  simp only [opsT, StableHlo.seq_append]
  simp only [main, fn_sort.body, fn_where.body, fn_take_along_axis.body, fn_where_0.body, fn_remainder.body,
    StableHlo.seq, bind_assoc, pure_bind]

theorem main_eq (c : Dev nD) : main (F := F) c = StableHlo.seq ops := (main_eqT c).trans (congrArg StableHlo.seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  List.forall_append.2 ⟨opsSort_sub, List.forall_append.2 ⟨opsSeg_sub, List.forall_append.2 ⟨opsStart_sub,
    List.forall_append.2 ⟨opsNextIdx_sub, List.forall_append.2 ⟨opsNext_sub, List.forall_append.2 ⟨opsLen_sub,
      List.forall_append.2 ⟨opsOff_sub, List.forall_append.2 ⟨opsTarget_sub, opsLoss_sub⟩⟩⟩⟩⟩⟩⟩⟩

theorem ops_fresh : ∀ op ∈ (ops : List (HloOp τ sig (Elt F))), op.fresh = ∅ :=
  List.forall_iff_forall_mem.1
    (List.forall_append.2 ⟨opsSort_fresh, List.forall_append.2 ⟨opsSeg_fresh, List.forall_append.2 ⟨opsStart_fresh,
      List.forall_append.2 ⟨opsNextIdx_fresh, List.forall_append.2 ⟨opsNext_fresh, List.forall_append.2 ⟨opsLen_fresh,
        List.forall_append.2 ⟨opsOff_fresh, List.forall_append.2 ⟨opsTarget_fresh, opsLoss_fresh⟩⟩⟩⟩⟩⟩⟩⟩)

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v39)
          = Term.loss (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c =>
      ⟨(h c main_v39).trans ((congrFun (after_ops _) _).trans (at9_v39 _)),
        (h c main_arg0).trans ((congrFun (after_ops _) _).trans (at9_arg0 _)),
        (h c main_arg1).trans ((congrFun (after_ops _) _).trans (at9_arg1 _))⟩)
    (StableHlo.run_seq scopedRefs_eq scopedSems_eq defs main (fun _ => ops) main_eq (fun _ => ops_sub) m ρ
      (fun _ => ops_fresh))

end Cert.ReferenceIdeal.HandRun

end
-- ==== Proof.Spec.lean ====
/-
  The mathematics of the certificate, with no program in sight.

  A row of four breakpoints, sorted as signed words m0 ≤ m1 ≤ m2 ≤ m3, cuts the circle of 1024 positions into four
  segments. A position p lies in the segment that starts at the LAST breakpoint that is ≤ p (at m3, wrapping round,
  when none is); the segment ends at the next breakpoint circularly. With start the segment's first breakpoint, len its
  circular length and off = (p - start) mod 1024 the position's offset in it, the target value at p is
  cos(off · 2π / len) / 2 + 1/2, and the loss is the mean over all rows and positions of (x - target)².
  The kernel computes off · (2π / len), the reference (off · 2π) / len: one number when len ≠ 0.
-/
import Idealize.ShloMosaic.PureOps.Ideal
import Idealize.ShloMosaic.Lib.ValueIdx

noncomputable section

open scoped BigOperators

namespace Cert.CosTarget

open Idealize.ShloMosaic Idealize.ShloMosaic.ValueIdx

/-- The circular distance from `a` forward to `b`, mod 1024, on 32-bit words (the subtraction wraps). -/
def gap (a b : BitVec 32) : BitVec 32 := (b - a) &&& 1023#32

/-- The cascade over the breakpoints: the value attached to the last breakpoint that is ≤ p (signed), and the value
    attached to m3, the wrap-round segment's, when no breakpoint is. -/
def pick {α : Type} (m0 m1 m2 m3 p : BitVec 32) (v0 v1 v2 v3 : α) : α :=
  if m3.sle p then v3 else if m2.sle p then v2 else if m1.sle p then v1 else if m0.sle p then v0 else v3

/-- The breakpoint the segment of `p` starts at. -/
def start (m0 m1 m2 m3 p : BitVec 32) : BitVec 32 := pick m0 m1 m2 m3 p m0 m1 m2 m3

/-- The circular length of the segment of `p`. -/
def len (m0 m1 m2 m3 p : BitVec 32) : BitVec 32 :=
  pick m0 m1 m2 m3 p (gap m0 m1) (gap m1 m2) (gap m2 m3) (gap m3 m0)

/-- The offset of `p` inside its segment. -/
def off (m0 m1 m2 m3 p : BitVec 32) : BitVec 32 := gap (start m0 m1 m2 m3 p) p

/-- A word read as a signed integer, as an extended real. -/
def toR (w : BitVec 32) : EReal := ((w.toInt : ℝ) : EReal)

/-- The f32 nearest 2π, the literal both programs carry. -/
def twoPi : EReal := Ideal.ofBits .f32 0x40C90FDB#32
/-- 1/2. -/
def half : EReal := Ideal.ofBits .f32 0x3F000000#32
/-- 2⁻²⁵, the kernel's scale. -/
def scale : EReal := Ideal.ofBits .f32 0x33000000#32
/-- 2²⁵, the reference's divisor: the number of elements. -/
def count : EReal := Ideal.ofBits .f32 0x4C000000#32

/-- The target at `p` as the kernel computes it: the angular step 2π / len first, then times the offset. -/
def target (m0 m1 m2 m3 p : BitVec 32) : EReal :=
  Ideal.cos (toR (off m0 m1 m2 m3 p) * Ideal.div twoPi (toR (len m0 m1 m2 m3 p))) * half + half

/-- The target at `p` as the reference computes it: offset times 2π first, then divided by the length. -/
def targetRef (m0 m1 m2 m3 p : BitVec 32) : EReal :=
  Ideal.cos (Ideal.div (toR (off m0 m1 m2 m3 p) * twoPi) (toR (len m0 m1 m2 m3 p))) * half + half

/-- The squared deviation of `x` from `t`. -/
def sqDev (x t : EReal) : EReal := (x - t) * (x - t)

/-- The array of values, 32768 rows of 1024, and the array of sorted breakpoints, 32768 rows of 4. -/
abbrev Xs := (⟨2, ![32768, 1024]⟩ : Shape).Idx → EReal
abbrev Ms := (⟨2, ![32768, 4]⟩ : Shape).Idx → BitVec 32

/-- The kernel-form term of the loss at row `b`, position `p`. -/
def term (X : Xs) (M : Ms) (b : Fin 32768) (p : Fin 1024) : EReal :=
  sqDev (X (ix2 b p)) (target (M (ix2 b 0)) (M (ix2 b 1)) (M (ix2 b 2)) (M (ix2 b 3)) (BitVec.ofNat 32 p.val))

/-- The reference-form term of the loss at row `b`, position `p`. -/
def termRef (X : Xs) (M : Ms) (b : Fin 32768) (p : Fin 1024) : EReal :=
  sqDev (X (ix2 b p)) (targetRef (M (ix2 b 0)) (M (ix2 b 1)) (M (ix2 b 2)) (M (ix2 b 3)) (BitVec.ofNat 32 p.val))

/-- Row `r` of block `t` (32 blocks of 1024 rows) as a row of the whole array. -/
def rowOf (t : Fin 32) (r : Fin 1024) : Fin 32768 := ⟨1024 * t.val + r.val, by have := t.isLt; have := r.isLt; omega⟩

/-- The sum of the kernel-form terms over block `t`: rows first, inside each row the positions. -/
def blockSum (X : Xs) (M : Ms) (t : Fin 32) : EReal := ∑ r : Fin 1024, ∑ p : Fin 1024, term X M (rowOf t r) p

/-- Block `i` of core `c` (two cores of 16 blocks). -/
def blockOf (c : Fin 2) (i : Fin 16) : Fin 32 := ⟨16 * c.val + i.val, by have := c.isLt; have := i.isLt; omega⟩

/-- What the kernel returns: each core's sum of its 16 blocks, scaled, the two added. -/
def kernelLoss (X : Xs) (M : Ms) : EReal :=
  (∑ i : Fin 16, blockSum X M (blockOf 0 i)) * scale + (∑ i : Fin 16, blockSum X M (blockOf 1 i)) * scale

/-- What the reference returns: the sum over every row and position, from 0, divided by the count. -/
def refLoss (X : Xs) (M : Ms) : EReal :=
  Ideal.div (0 + ∑ b : Fin 32768, ∑ p : Fin 1024, termRef X M b p) count

end Cert.CosTarget

end
-- ==== Proof.Words.lean ====
/-
  Words: the integer facts of the certificate, on 32-bit two's-complement words, with no program and no array.

  The reference finds a position's segment by COUNTING the breakpoints that are ≤ the position and reading the row at
  that count less one (at 3 when the count is 0) and at the next column circularly; the kernel by a cascade of selects.
  For a sorted row the two agree. The reference reduces mod 1024 by a floored modulus (truncated remainder, adjusted
  to the divisor's sign); the kernel by masking with 1023: the same word.
-/
import proofs.«426116_j60318520705345_3_alg».proof.Proof.Spec

namespace Cert.CosTarget

/-- The compare bit "m ≤ p (signed)" widened to a 32-bit word. -/
def leBit (m p : BitVec 32) : BitVec 32 := (BitVec.ofBool (m.sle p)).setWidth 32

/-- How many of the four breakpoints are ≤ p, summed from 0 in column order. -/
def countLe (m0 m1 m2 m3 p : BitVec 32) : BitVec 32 := 0#32 + leBit m0 p + leBit m1 p + leBit m2 p + leBit m3 p

/-- The segment number: the count less one, and 3 when that is negative. -/
def segNo (m0 m1 m2 m3 p : BitVec 32) : BitVec 32 :=
  if (countLe m0 m1 m2 m3 p - 1#32).slt 0#32 then 3#32 else countLe m0 m1 m2 m3 p - 1#32

/-- The floored modulus on words as the reference spells it: the truncated remainder, plus the divisor where the
    remainder is nonzero and of the other sign. -/
def floorModW (x d : BitVec 32) : BitVec 32 :=
  if ((x.srem d).slt 0#32 != d.slt 0#32) && (x.srem d != 0#32) then x.srem d + d else x.srem d

/-- Entry `j` of the row (m0, m1, m2, m3), the column index read signed and clamped into 0 … 3. -/
def entry (m0 m1 m2 m3 : BitVec 32) (j : BitVec 32) : BitVec 32 :=
  if j.toInt ≤ 0 then m0 else if j.toInt = 1 then m1 else if j.toInt = 2 then m2 else m3

/-- The breakpoint after the segment's start, circularly. -/
def next (m0 m1 m2 m3 p : BitVec 32) : BitVec 32 := pick m0 m1 m2 m3 p m1 m2 m3 m0

/-- Mod 1024 the floored modulus is the mask with 1023. -/
theorem floorModW_1024 (x : BitVec 32) : floorModW x 1024#32 = x &&& 1023#32 := by
  have hrI : (x.srem 1024#32).toInt = x.toInt.tmod 1024 := by
    rw [BitVec.toInt_srem]; rfl
  have hxI := BitVec.toInt_eq_toNat_cond x
  have hrN := BitVec.toInt_eq_toNat_cond (x.srem 1024#32)
  have hlt := x.isLt
  have hrlt := (x.srem 1024#32).isLt
  have hand : (x &&& 1023#32).toNat = x.toNat % 1024 := by
    rw [BitVec.toNat_and]; exact Nat.and_two_pow_sub_one_eq_mod x.toNat 10
  have h1 : 0 ≤ x.toInt → x.toInt.tmod 1024 = x.toInt % 1024 := fun h => Int.tmod_eq_emod_of_nonneg h
  have h2 : x.toInt < 0 → x.toInt.tmod 1024 = -((-x.toInt) % 1024) := by
    intro h
    have h3 := Int.neg_tmod (-x.toInt) 1024
    rw [Int.neg_neg] at h3
    rw [h3, Int.tmod_eq_emod_of_nonneg (by omega)]
  apply BitVec.eq_of_toNat_eq
  rw [hand]
  unfold floorModW
  have hd : (1024#32).slt 0#32 = false := by decide
  rw [hd]
  generalize x.srem 1024#32 = r at *
  by_cases hneg : r.toInt < 0
  · have hs : r.slt 0#32 = true := by
      rw [BitVec.slt_iff_toInt_lt, BitVec.toInt_zero]; exact hneg
    have hz : (r != 0#32) = true := by
      rw [bne_iff_ne]; intro h; rw [h, BitVec.toInt_zero] at hneg; omega
    rw [hs, hz]
    simp only [bne_self_eq_false, Bool.true_and, Bool.and_self, ↓reduceIte, Bool.true_bne, Bool.not_false]
    rw [BitVec.toNat_add]
    have h1024 : (1024#32).toNat = 1024 := rfl
    rw [h1024]
    split at hxI <;> split at hrN <;> omega
  · have hs : r.slt 0#32 = false := by
      rw [← Bool.not_eq_true, BitVec.slt_iff_toInt_lt, BitVec.toInt_zero]; exact hneg
    rw [hs]
    simp only [bne_self_eq_false, Bool.false_and, Bool.false_eq_true, ↓reduceIte]
    split at hxI <;> split at hrN <;> omega

/-- The segment number as a function of the four compare bits alone. -/
private def segB (b0 b1 b2 b3 : Bool) : BitVec 32 :=
  if ((0#32 + (BitVec.ofBool b0).setWidth 32 + (BitVec.ofBool b1).setWidth 32 + (BitVec.ofBool b2).setWidth 32
      + (BitVec.ofBool b3).setWidth 32) - 1#32).slt 0#32 then 3#32
  else (0#32 + (BitVec.ofBool b0).setWidth 32 + (BitVec.ofBool b1).setWidth 32 + (BitVec.ofBool b2).setWidth 32
      + (BitVec.ofBool b3).setWidth 32) - 1#32

private theorem segNo_eq_segB (m0 m1 m2 m3 p : BitVec 32) :
    segNo m0 m1 m2 m3 p = segB (m0.sle p) (m1.sle p) (m2.sle p) (m3.sle p) := rfl

private theorem segB_mem : ∀ b0 b1 b2 b3 : Bool,
    segB b0 b1 b2 b3 = 0#32 ∨ segB b0 b1 b2 b3 = 1#32 ∨ segB b0 b1 b2 b3 = 2#32 ∨ segB b0 b1 b2 b3 = 3#32 := by
  decide

private theorem nextB_mem : ∀ b0 b1 b2 b3 : Bool,
    floorModW (segB b0 b1 b2 b3 + 1#32) 4#32 = 0#32 ∨ floorModW (segB b0 b1 b2 b3 + 1#32) 4#32 = 1#32
      ∨ floorModW (segB b0 b1 b2 b3 + 1#32) 4#32 = 2#32 ∨ floorModW (segB b0 b1 b2 b3 + 1#32) 4#32 = 3#32 := by
  decide

/-- The segment number is one of 0, 1, 2, 3. -/
theorem segNo_mem (m0 m1 m2 m3 p : BitVec 32) :
    segNo m0 m1 m2 m3 p = 0#32 ∨ segNo m0 m1 m2 m3 p = 1#32 ∨ segNo m0 m1 m2 m3 p = 2#32 ∨ segNo m0 m1 m2 m3 p = 3#32 := by
  rw [segNo_eq_segB]; exact segB_mem _ _ _ _

/-- The next column circularly, (segment number + 1) mod 4, is one of 0, 1, 2, 3. -/
theorem nextNo_mem (m0 m1 m2 m3 p : BitVec 32) :
    floorModW (segNo m0 m1 m2 m3 p + 1#32) 4#32 = 0#32 ∨ floorModW (segNo m0 m1 m2 m3 p + 1#32) 4#32 = 1#32
      ∨ floorModW (segNo m0 m1 m2 m3 p + 1#32) 4#32 = 2#32 ∨ floorModW (segNo m0 m1 m2 m3 p + 1#32) 4#32 = 3#32 := by
  rw [segNo_eq_segB]; exact nextB_mem _ _ _ _

private theorem entry_0 (m0 m1 m2 m3 : BitVec 32) : entry m0 m1 m2 m3 0#32 = m0 := rfl
private theorem entry_1 (m0 m1 m2 m3 : BitVec 32) : entry m0 m1 m2 m3 1#32 = m1 := rfl
private theorem entry_2 (m0 m1 m2 m3 : BitVec 32) : entry m0 m1 m2 m3 2#32 = m2 := rfl
private theorem entry_3 (m0 m1 m2 m3 : BitVec 32) : entry m0 m1 m2 m3 3#32 = m3 := rfl

/-- Signed ≤ against p, as a Bool, decided by the integers. -/
private theorem sle_cases (p m : BitVec 32) :
    (m.sle p = true ∧ m.toInt ≤ p.toInt) ∨ (m.sle p = false ∧ p.toInt < m.toInt) := by
  by_cases h : m.toInt ≤ p.toInt
  · exact Or.inl ⟨BitVec.sle_iff_toInt_le.mpr h, h⟩
  · refine Or.inr ⟨?_, by omega⟩
    rw [← Bool.not_eq_true, BitVec.sle_iff_toInt_le]; exact h

/-- In a sorted row the entry at the segment number is the cascade's start. -/
theorem entry_segNo (m0 m1 m2 m3 p : BitVec 32) (h01 : m0.sle m1 = true) (h12 : m1.sle m2 = true) (h23 : m2.sle m3 = true) :
    entry m0 m1 m2 m3 (segNo m0 m1 m2 m3 p) = start m0 m1 m2 m3 p := by
  have H01 := BitVec.sle_iff_toInt_le.mp h01
  have H12 := BitVec.sle_iff_toInt_le.mp h12
  have H23 := BitVec.sle_iff_toInt_le.mp h23
  have s0 : segB false false false false = 3#32 := by decide
  have s1 : segB true false false false = 0#32 := by decide
  have s2 : segB true true false false = 1#32 := by decide
  have s3 : segB true true true false = 2#32 := by decide
  have s4 : segB true true true true = 3#32 := by decide
  rw [segNo_eq_segB]
  rcases sle_cases p m0 with ⟨e0, c0⟩ | ⟨e0, c0⟩ <;> rcases sle_cases p m1 with ⟨e1, c1⟩ | ⟨e1, c1⟩ <;>
    rcases sle_cases p m2 with ⟨e2, c2⟩ | ⟨e2, c2⟩ <;> rcases sle_cases p m3 with ⟨e3, c3⟩ | ⟨e3, c3⟩ <;>
    first
      | (exfalso; omega)
      | simp only [start, pick, e0, e1, e2, e3, s0, s1, s2, s3, s4, entry_0, entry_1, entry_2, entry_3,
          Bool.false_eq_true, ↓reduceIte]

/-- In a sorted row the entry at the next column circularly is the breakpoint after the start. -/
theorem entry_nextNo (m0 m1 m2 m3 p : BitVec 32) (h01 : m0.sle m1 = true) (h12 : m1.sle m2 = true) (h23 : m2.sle m3 = true) :
    entry m0 m1 m2 m3 (floorModW (segNo m0 m1 m2 m3 p + 1#32) 4#32) = next m0 m1 m2 m3 p := by
  have H01 := BitVec.sle_iff_toInt_le.mp h01
  have H12 := BitVec.sle_iff_toInt_le.mp h12
  have H23 := BitVec.sle_iff_toInt_le.mp h23
  have s0 : floorModW (segB false false false false + 1#32) 4#32 = 0#32 := by decide
  have s1 : floorModW (segB true false false false + 1#32) 4#32 = 1#32 := by decide
  have s2 : floorModW (segB true true false false + 1#32) 4#32 = 2#32 := by decide
  have s3 : floorModW (segB true true true false + 1#32) 4#32 = 3#32 := by decide
  have s4 : floorModW (segB true true true true + 1#32) 4#32 = 0#32 := by decide
  rw [segNo_eq_segB]
  rcases sle_cases p m0 with ⟨e0, c0⟩ | ⟨e0, c0⟩ <;> rcases sle_cases p m1 with ⟨e1, c1⟩ | ⟨e1, c1⟩ <;>
    rcases sle_cases p m2 with ⟨e2, c2⟩ | ⟨e2, c2⟩ <;> rcases sle_cases p m3 with ⟨e3, c3⟩ | ⟨e3, c3⟩ <;>
    first
      | (exfalso; omega)
      | simp only [next, pick, e0, e1, e2, e3, s0, s1, s2, s3, s4, entry_0, entry_1, entry_2, entry_3,
          Bool.false_eq_true, ↓reduceIte]

/-- The circular distance from the start to the next breakpoint is the segment's length. -/
theorem gap_start_next (m0 m1 m2 m3 p : BitVec 32) :
    gap (start m0 m1 m2 m3 p) (next m0 m1 m2 m3 p) = len m0 m1 m2 m3 p := by
  unfold start next len pick
  split
  · rfl
  · split
    · rfl
    · split
      · rfl
      · split <;> rfl

/-- A function of the cascade's value is the cascade of the function's values. -/
theorem pick_map {α β : Type} (f : α → β) (m0 m1 m2 m3 p : BitVec 32) (v0 v1 v2 v3 : α) :
    f (pick m0 m1 m2 m3 p v0 v1 v2 v3) = pick m0 m1 m2 m3 p (f v0) (f v1) (f v2) (f v3) := by
  unfold pick
  split
  · rfl
  · split
    · rfl
    · split
      · rfl
      · split <;> rfl

end Cert.CosTarget
-- ==== Proof.SortedRows.lean ====
/-
  The rows of a stable sort along axis 1 by the signed "less than" are sorted: each entry ≤ the next (signed).
-/
import Idealize.ShloMosaic.Lib.SortFacts
import Idealize.ShloMosaic.Lib.ValueIdx

namespace Cert.CosTarget

open Idealize.ShloMosaic Idealize.ShloMosaic.ValueIdx

/-- The comparator "signed less than" says "before" exactly where the first word is below the second. -/
private theorem before_eq (x y : BitVec 32) : (IntOp.cmpi .slt x y == 1#1) = x.slt y := by
  show (BitVec.ofBool (x.slt y) == 1#1) = x.slt y
  cases x.slt y <;> rfl

/-- Along axis 1 the fiber through (b, k) is row b: its position k' is (b, k'), whatever k. -/
private theorem along_row (b : Fin 32768) (k k' : Fin 4) (hd : 1 < 2) :
    Shape.Idx.along (s := (⟨2, ![32768, 4]⟩ : Shape)) (ix2 b k) ⟨1, hd⟩ k' = ix2 b k' := by
  funext a
  unfold Shape.Idx.along
  match a with
  | ⟨0, _⟩ => exact Function.update_of_ne (fun h => Nat.zero_ne_one (congrArg Fin.val h)) _ _
  | ⟨1, _⟩ => exact Function.update_self ..

/-- Row b of the sorted array reads row b of the argument through ONE self-map of the four columns: the sorting
    permutation of the row's own "before" relation. -/
private theorem sort_row (idx : IVec (⟨2, ![32768, 4]⟩ : Shape) 32) (b : Fin 32768) (k : Fin 4) :
    Host.sort (⟨2, ![32768, 4]⟩ : Shape) 1 (fun l r : BitVec 32 => IntOp.cmpi .slt l r) idx (ix2 b k)
      = idx (ix2 b (sortedFrom (fun c c' : Fin 4 => (idx (ix2 b c)).slt (idx (ix2 b c'))) k)) := by
  unfold Host.sort
  have hd : 1 < 2 := by decide
  rw [dif_pos (show 1 < (⟨2, ![32768, 4]⟩ : Shape).rank from hd)]
  show idx (Shape.Idx.along (s := (⟨2, ![32768, 4]⟩ : Shape)) (ix2 b k) ⟨1, hd⟩
      (sortedFrom (n := 4) (fun c c' : Fin 4 =>
        IntOp.cmpi .slt (idx (Shape.Idx.along (s := (⟨2, ![32768, 4]⟩ : Shape)) (ix2 b k) ⟨1, hd⟩ c))
          (idx (Shape.Idx.along (s := (⟨2, ![32768, 4]⟩ : Shape)) (ix2 b k) ⟨1, hd⟩ c')) == 1#1) k)) = _
  simp only [along_row, before_eq]

/-- No later column of the sorted row is strictly below an earlier one. -/
private theorem row_noInversion (idx : IVec (⟨2, ![32768, 4]⟩ : Shape) 32) (b : Fin 32768) (i j : Fin 4) (hij : i < j) :
    (Host.sort (⟨2, ![32768, 4]⟩ : Shape) 1 (fun l r : BitVec 32 => IntOp.cmpi .slt l r) idx (ix2 b i)).sle
      (Host.sort (⟨2, ![32768, 4]⟩ : Shape) 1 (fun l r : BitVec 32 => IntOp.cmpi .slt l r) idx (ix2 b j)) = true := by
  rw [sort_row, sort_row]
  have h := sortedFrom_noInversion (fun c c' : Fin 4 => (idx (ix2 b c)).slt (idx (ix2 b c')))
    (fun c c' : Fin 4 => (idx (ix2 b c)).slt (idx (ix2 b c'))) ?_ (fun _ _ h => h) ?_ i j hij
  · rw [BitVec.sle_iff_toInt_le]
    have h' : ¬ ((idx (ix2 b (sortedFrom (fun c c' : Fin 4 => (idx (ix2 b c)).slt (idx (ix2 b c'))) j))).slt
        (idx (ix2 b (sortedFrom (fun c c' : Fin 4 => (idx (ix2 b c)).slt (idx (ix2 b c'))) i))) = true) := by
      rw [Bool.not_eq_true]; exact h
    rw [BitVec.slt_iff_toInt_lt] at h'
    omega
  · intro a c hac
    have h1 := BitVec.slt_iff_toInt_lt.mp hac
    rw [← Bool.not_eq_true, BitVec.slt_iff_toInt_lt]
    omega
  · intro a c d hac hcd
    rw [← Bool.not_eq_true, BitVec.slt_iff_toInt_lt] at hac hcd ⊢
    omega

/-- Row `b` of the sorted 32768 × 4 array of words is nondecreasing (signed). -/
theorem sorted_rows (idx : IVec (⟨2, ![32768, 4]⟩ : Shape) 32) (b : Fin 32768) :
    ((Host.sort (⟨2, ![32768, 4]⟩ : Shape) 1 (fun l r : BitVec 32 => IntOp.cmpi .slt l r) idx (ix2 b 0)).sle
        (Host.sort (⟨2, ![32768, 4]⟩ : Shape) 1 (fun l r : BitVec 32 => IntOp.cmpi .slt l r) idx (ix2 b 1)) = true)
    ∧ ((Host.sort (⟨2, ![32768, 4]⟩ : Shape) 1 (fun l r : BitVec 32 => IntOp.cmpi .slt l r) idx (ix2 b 1)).sle
        (Host.sort (⟨2, ![32768, 4]⟩ : Shape) 1 (fun l r : BitVec 32 => IntOp.cmpi .slt l r) idx (ix2 b 2)) = true)
    ∧ ((Host.sort (⟨2, ![32768, 4]⟩ : Shape) 1 (fun l r : BitVec 32 => IntOp.cmpi .slt l r) idx (ix2 b 2)).sle
        (Host.sort (⟨2, ![32768, 4]⟩ : Shape) 1 (fun l r : BitVec 32 => IntOp.cmpi .slt l r) idx (ix2 b 3)) = true) := by
  exact ⟨row_noInversion idx b 0 1 (by decide), row_noInversion idx b 1 2 (by decide), row_noInversion idx b 2 3 (by decide)⟩

end Cert.CosTarget
-- ==== Proof.RefStages.lean ====
/-
  The reference's integer stages read at one (row, position): for the sorted breakpoints its segment start, segment
  length and offset are the cascade's (Spec.lean), by the word facts (Words.lean) and the sortedness of the rows.

  The segment number at (b, p) is a sum over the four columns of the compare bits "breakpoint ≤ p", less one, and 3
  where that is negative; the take along the row reads the row at a column word in 0 … 3; the floored modulus by a
  divisor that is neither 0 nor -1 is the truncated remainder adjusted to the divisor's sign. Each is read at the one
  index (b, p), the arrays themselves never evaluated.
-/
import proofs.«426116_j60318520705345_3_alg».proof.Proof.RefTerm
import proofs.«426116_j60318520705345_3_alg».proof.Proof.Words
import proofs.«426116_j60318520705345_3_alg».proof.Proof.SortedRows
import Idealize.ShloMosaic.PureOps.Reduce
import Idealize.ShloMosaic.Lib.Pipeline.Value
import Idealize.ShloMosaic.Lib.IdealHost
import Idealize.ShloMosaic.Lib.ValueLayout

noncomputable section

namespace Cert.ReferenceIdeal.Stages

open Idealize.ShloMosaic Idealize.ShloMosaic.ValueIdx Cert.ReferenceIdeal Cert.ReferenceIdeal.Term Cert.CosTarget
open Cert.ReferenceIdeal.Facts₀

variable [Facts]

/-- Row `b`'s four sorted breakpoints. -/
abbrev M (idx : IVec S32768x4 32) (b : Fin 32768) (j : Fin 4) : BitVec 32 := sorted idx (ix2 b j)

/-! ## The segment number -/

/-- The fold of word addition over the four columns, written out. -/
theorem fold4 (g : Fin 4 → BitVec 32) (c : BitVec 32) :
    (Finset.univ : Finset (Fin 4)).fold IntOp.addi c g = g 0 + (g 1 + (g 2 + (g 3 + c))) := rfl

/-- The index over (b, p) with column k inserted on the reduced axis is (b, k, p). -/
theorem lift_eq (h : S32768x4x1024.Reduces [1] S32768x1024) (b : Fin 32768) (p : Fin 1024) (k : Fin 4) :
    h.lift (ix2 b p) k = ix3 b k p := by
  funext c
  match c with
  | ⟨0, _⟩ => rfl
  | ⟨1, _⟩ => rfl
  | ⟨2, _⟩ => rfl

/-- Dropping the column axis of the 32768 × 4 × 1024 array leaves the 32768 × 1024 one. -/
theorem red : S32768x4x1024.Reduces [1] S32768x1024 := by decide

/-- A scalar spread over the array reads the scalar everywhere. -/
theorem spread_apply {α : Type} (v : S_.Idx → α) (i : S32768x1024.Idx) : spread v i = v ix0 :=
  broadcastInDim_scalar_apply _ v i

/-- The row of breakpoints laid along the positions reads, at (b, k, p), the breakpoint (b, k). -/
theorem mfull_apply (m : IVec S32768x4 32) (b : Fin 32768) (k : Fin 4) (p : Fin 1024) :
    broadcastInDim S32768x4x1024 ![0, 1, 2] bcast_S32768x4x1_S32768x4x1024_0_1_2
      (broadcastInDim S32768x4x1 ![0, 1] bcast_S32768x4_S32768x4x1_0_1 m) (ix3 b k p) = m (ix2 b k) := by
  rw [broadcastInDim_apply _ _ _ (ix3 b k p) (ix3 b k (0 : Fin 1))
    (fun a => match a with | ⟨0, _⟩ => rfl | ⟨1, _⟩ => rfl | ⟨2, _⟩ => rfl)]
  exact broadcastInDim_apply _ _ _ _ (ix2 b k) (fun a => match a with | ⟨0, _⟩ => rfl | ⟨1, _⟩ => rfl)

/-- The positions laid along rows and columns read, at (b, k, p), the word p. -/
theorem pfull_apply (b : Fin 32768) (k : Fin 4) (p : Fin 1024) :
    broadcastInDim S32768x4x1024 ![0, 1, 2] bcast_S1x1x1024_S32768x4x1024_0_1_2
      (broadcastInDim S1x1x1024 ![2] bcast_S1024_S1x1x1024_2 positions) (ix3 b k p) = BitVec.ofNat 32 p.val := by
  rw [broadcastInDim_apply _ _ _ (ix3 b k p) (ix3 (0 : Fin 1) (0 : Fin 1) p)
    (fun a => match a with | ⟨0, _⟩ => rfl | ⟨1, _⟩ => rfl | ⟨2, _⟩ => rfl)]
  exact broadcastInDim_apply _ _ _ _ (ix1 p) (fun a => match a with | ⟨0, _⟩ => rfl)

/-- The sum over the column axis at (b, p), written out over the four columns. -/
theorem cnt_fold (x : S32768x4x1024.Idx → BitVec 32) (c : BitVec 32) (b : Fin 32768) (p : Fin 1024) :
    (Finset.univ : Finset (Fin (S32768x4x1024.size 1))).fold IntOp.addi c (x ∘ red.lift (ix2 b p))
      = x (ix3 b 0 p) + (x (ix3 b 1 p) + (x (ix3 b 2 p) + (x (ix3 b 3 p) + c))) := by
  refine (fold4 (fun k => x (red.lift (ix2 b p) k)) c).trans ?_
  simp only [lift_eq]

/-- The widened compare bit is the word-level one. -/
theorem leBit_eq (a c : BitVec 32) : BitVec.setWidth 32 (IntOp.cmpi .sle a c) = leBit a c := rfl

/-- The count of the row's breakpoints that are ≤ the position, at (b, p). -/
theorem cnt_apply (m : IVec S32768x4 32) (b : Fin 32768) (p : Fin 1024) :
    Host.reduce IntOp.addi
      (extui 32 (cmpi .sle
        (broadcastInDim S32768x4x1024 ![0, 1, 2] bcast_S32768x4x1_S32768x4x1024_0_1_2
          (broadcastInDim S32768x4x1 ![0, 1] bcast_S32768x4_S32768x4x1_0_1 m))
        (broadcastInDim S32768x4x1024 ![0, 1, 2] bcast_S1x1x1024_S32768x4x1024_0_1_2
          (broadcastInDim S1x1x1024 ![2] bcast_S1024_S1x1x1024_2 positions))) natLt_1_32)
      (constantI S_ 32 0#32) reducesTo_S32768x4x1024_S32768x1024_d1 h_S_ (ix2 b p)
    = countLe (m (ix2 b 0)) (m (ix2 b 1)) (m (ix2 b 2)) (m (ix2 b 3)) (BitVec.ofNat 32 p.val) := by
  rw [Host.reduce_eq_fold_single IntOp.addi _ _ _ red, cnt_fold]
  simp only [extui_apply, cmpi, constantI_apply]
  rw [mfull_apply m b 0 p, mfull_apply m b 1 p, mfull_apply m b 2 p, mfull_apply m b 3 p,
    pfull_apply b 0 p, pfull_apply b 1 p, pfull_apply b 2 p, pfull_apply b 3 p]
  simp only [leBit_eq]
  unfold countLe
  simp only [BitVec.add_zero, BitVec.zero_add, BitVec.add_assoc]

/-- A select on a Boolean's bit is the conditional on the Boolean. -/
theorem select_ofBool {α : Type} (t : Bool) (x y : α) : Scalar.select (BitVec.ofBool t) x y = if t then x else y := by
  cases t <;> rfl

/-- The segment number at (b, p) is the word-level segment number of row b's breakpoints and the word p. -/
theorem segOf_apply (m : IVec S32768x4 32) (b : Fin 32768) (p : Fin 1024) :
    segOf m (ix2 b p) = segNo (m (ix2 b 0)) (m (ix2 b 1)) (m (ix2 b 2)) (m (ix2 b 3)) (BitVec.ofNat 32 p.val) := by
  unfold segOf whereScalar
  simp only [select_apply, spread_apply, cmpi, subi, constantI_apply, id]
  rw [cnt_apply]
  exact select_ofBool _ _ _

/-! ## The floored modulus -/

/-- "Not equal" on two Booleans' bits is the bit of their difference. -/
theorem cmpi_ne_ofBool : ∀ A B : Bool, IntOp.cmpi .ne (BitVec.ofBool A) (BitVec.ofBool B) = BitVec.ofBool (A != B) := by decide

/-- "And" on two Booleans' bits is the bit of their conjunction. -/
theorem andi_ofBool' : ∀ A B : Bool, IntOp.andi (BitVec.ofBool A) (BitVec.ofBool B) = BitVec.ofBool (A && B) := by decide

/-- The floored modulus by a scalar divisor that is neither 0 nor -1, at an index, is the word-level floored modulus. -/
theorem floorMod_apply (x : IVec S32768x1024 32) (d : BitVec 32) (hd : d ≠ 0#32) (hd1 : d ≠ -1#32) (i : S32768x1024.Idx) :
    floorMod x (constantI S_ 32 d) i = floorModW (x i) d := by
  unfold floorMod
  simp only [select_apply, spread_apply, cmpi, addi, andi, constantI_apply, id, Host.remsi]
  have h1 : Scalar.select (IntOp.cmpi .eq d 0#32) (1#32) d = d := by
    have hb : (d == 0#32) = false := by simpa using hd
    show Scalar.select (BitVec.ofBool (d == 0#32)) (1#32) d = d
    rw [hb]; rfl
  rw [h1]
  have h2 : IntOp.remsi .host (x i) d = (x i).srem d := by
    unfold IntOp.remsi
    rw [if_neg]
    rintro (h | ⟨_, h⟩)
    · exact hd h
    · exact hd1 h
  rw [h2]
  show Scalar.select (IntOp.andi (IntOp.cmpi .ne (BitVec.ofBool _) (BitVec.ofBool _)) (BitVec.ofBool _)) _ _ = _
  rw [cmpi_ne_ofBool, andi_ofBool', select_ofBool]
  rfl

/-! ## The take along the row -/

/-- The reduction of the in-bounds mask runs over an axis of one element. -/
theorem red2 : S32768x1024x1.Reduces [2] S32768x1024 := by decide

/-- The index over (b, p) with k inserted on the trailing unit axis is (b, p, k). -/
theorem lift2_eq (h : S32768x1024x1.Reduces [2] S32768x1024) (b : Fin 32768) (p : Fin 1024) (k : Fin 1) :
    h.lift (ix2 b p) k = ix3 b p k := by
  funext c
  match c with
  | ⟨0, _⟩ => rfl
  | ⟨1, _⟩ => rfl
  | ⟨2, _⟩ => rfl

/-- The fold of "and" over the one element of the unit axis. -/
theorem fold1 (g : Fin 1 → BitVec 1) (c : BitVec 1) :
    (Finset.univ : Finset (Fin 1)).fold IntOp.andi c g = g 0 &&& c := rfl

/-- The reshape to a trailing unit axis reads (b, p, 0) at (b, p). -/
theorem col_apply (x : IVec S32768x1024 32) (b : Fin 32768) (p : Fin 1024) :
    shapeCast S32768x1024x1 x shapeCasts_S32768x1024_S32768x1024x1 (ix3 b p (0 : Fin 1)) = x (ix2 b p) := by
  refine shapeCast_apply x _ _ (ix2 b p) ?_
  rw [Shape.rowMajor_val_two, Shape.rowMajor_val_three]
  show b.val * 1024 + p.val = (b.val * 1024 + p.val) * 1 + 0
  omega

/-- The gather's dimension numbers: rows batched, the column axis collapsed and start-indexed. -/
abbrev gd := gather_S32768x4_S32768x1024x1_S32768x1024_n_1_0_0_1_2_11

/-- The start-indices index a result index (b, p) reads its one start-index component at is (b, p, 0). -/
theorem gd_si (b : Fin 32768) (p : Fin 1024) (c : Fin gd.startIndexMap.length) : gd.siIdx (ix2 b p) c = ix3 b p (0 : Fin 1) := by
  funext a
  match a with
  | ⟨0, _⟩ => rfl
  | ⟨1, _⟩ => rfl
  | ⟨2, _⟩ =>
    have hc : c.val < 1 := c.isLt
    exact Fin.ext (by show c.val = 0; omega)

/-- On the batching axis the operand index of (b, p) is the row b. -/
theorem gd_idx0 (col : IVec S32768x1024x1 32) (b : Fin 32768) (p : Fin 1024) :
    (gd.operandIdx (ix2 b p) col (0 : Fin 2)).val = b.val := by
  show gd.start (ix2 b p) col 0 + gd.batchCoord (ix2 b p) 0 + gd.offCoord (ix2 b p) 0 = b.val
  rw [GatherDims.start_batching gd _ _ 0 (List.mem_singleton.mpr rfl),
    GatherDims.offCoord_eq_zero gd _ 0 (fun h => ((gd.mem_sKept 0).mp h).2 (List.mem_singleton.mpr rfl))]
  unfold GatherDims.batchCoord
  rw [dif_pos (show (0 : Fin S32768x4.rank) ∈ gd.operandBatchingDims from List.mem_singleton.mpr rfl)]
  simp only [Nat.zero_add, Nat.add_zero]
  rfl

/-- On the column axis the operand index of (b, p) is the start index at (b, p, 0), read signed and clamped into 0 … 3. -/
theorem gd_idx1 (col : IVec S32768x1024x1 32) (b : Fin 32768) (p : Fin 1024) :
    (gd.operandIdx (ix2 b p) col (1 : Fin 2)).val = min (col (ix3 b p (0 : Fin 1))).toInt.toNat 3 := by
  show gd.start (ix2 b p) col 1 + gd.batchCoord (ix2 b p) 1 + gd.offCoord (ix2 b p) 1 = _
  rw [GatherDims.batchCoord_eq_zero gd _ 1 (fun h => absurd (List.mem_singleton.mp h) (by decide)),
    GatherDims.offCoord_eq_zero gd _ 1 (fun h => ((gd.mem_sKept 1).mp h).1 (List.mem_singleton.mpr rfl))]
  unfold GatherDims.start
  rw [dif_pos (show (1 : Fin S32768x4.rank) ∈ gd.startIndexMap from List.mem_singleton.mpr rfl), gd_si]
  rfl

/-- The gather at (b, p): row b's entry at the start index (b, p, 0), read signed and clamped into 0 … 3. -/
theorem gather_apply (m : IVec S32768x4 32) (col : IVec S32768x1024x1 32) (b : Fin 32768) (p : Fin 1024) :
    Host.gather gd m col (ix2 b p)
      = m (ix2 b (⟨min (col (ix3 b p (0 : Fin 1))).toInt.toNat 3, by omega⟩ : Fin 4)) := by
  unfold Host.gather
  congr 1
  funext a
  match a with
  | ⟨0, _⟩ => exact Fin.ext (gd_idx0 col b p)
  | ⟨1, _⟩ => exact Fin.ext (gd_idx1 col b p)

/-- The "and" over the trailing unit axis at (b, p) is the one element at (b, p, 0). -/
theorem inb_fold (x : S32768x1024x1.Idx → BitVec 1) (c : BitVec 1) (b : Fin 32768) (p : Fin 1024) :
    (Finset.univ : Finset (Fin (S32768x1024x1.size 2))).fold IntOp.andi c (x ∘ red2.lift (ix2 b p))
      = x (ix3 b p (0 : Fin 1)) &&& c := by
  refine (fold1 (fun k => x (red2.lift (ix2 b p) k)) c).trans ?_
  simp only [lift2_eq]

/-- Row b's entry at a column word that is one of 0, 1, 2, 3, read signed and clamped, is the word-level entry. -/
theorem entry_read (m : IVec S32768x4 32) (b : Fin 32768) (w : BitVec 32)
    (hw : w = 0#32 ∨ w = 1#32 ∨ w = 2#32 ∨ w = 3#32) :
    m (ix2 b (⟨min w.toInt.toNat 3, by omega⟩ : Fin 4))
      = entry (m (ix2 b 0)) (m (ix2 b 1)) (m (ix2 b 2)) (m (ix2 b 3)) w := by
  rcases hw with h | h | h | h <;> subst h <;> rfl

/-- A word that is one of 0, 1, 2, 3 is inside 0 … 3: the mask bit is set. -/
theorem mask_one (w : BitVec 32) (h : w = 0#32 ∨ w = 1#32 ∨ w = 2#32 ∨ w = 3#32) :
    IntOp.andi (IntOp.cmpi .sge w 0#32) (IntOp.cmpi .sle w 3#32) &&& 1#1 = 1#1 := by
  rcases h with h | h | h | h <;> subst h <;> decide

/-- The take along the row at (b, p), for a column word that is one of 0, 1, 2, 3: the word-level entry. -/
theorem takeAlong_apply (m : IVec S32768x4 32) (idx : IVec S32768x1024 32) (b : Fin 32768) (p : Fin 1024)
    (h : idx (ix2 b p) = 0#32 ∨ idx (ix2 b p) = 1#32 ∨ idx (ix2 b p) = 2#32 ∨ idx (ix2 b p) = 3#32) :
    takeAlong m idx (ix2 b p)
      = entry (m (ix2 b 0)) (m (ix2 b 1)) (m (ix2 b 2)) (m (ix2 b 3)) (idx (ix2 b p)) := by
  have hc : shapeCast S32768x1024x1 (select (cmpi .slt idx (spread (constantI S_ 32 0#32)))
      (addi idx (spread (constantI S_ 32 4#32))) idx) shapeCasts_S32768x1024_S32768x1024x1 (ix3 b p (0 : Fin 1))
      = idx (ix2 b p) := by
    rw [col_apply]
    simp only [select_apply, cmpi, addi, spread_apply, constantI_apply]
    generalize idx (ix2 b p) = w at h ⊢
    rcases h with h | h | h | h <;> subst h <;> rfl
  unfold takeAlong
  simp only [select_apply, spread_apply, constantI_apply]
  rw [Host.reduce_eq_fold_single IntOp.andi _ _ _ red2, inb_fold, gather_apply]
  simp only [andi, cmpi]
  simp only [hc]
  rw [entry_read m b _ h]
  show Scalar.select (IntOp.andi (IntOp.cmpi .sge (idx (ix2 b p)) 0#32) (IntOp.cmpi .sle (idx (ix2 b p)) 3#32) &&& 1#1)
    _ _ = _
  rw [mask_one _ h, select_one]

/-! ## The three stages at (b, p) -/

/-- The positions laid along the rows read, at (b, p), the word p. -/
theorem prow_apply (b : Fin 32768) (p : Fin 1024) :
    broadcastInDim S32768x1024 ![0, 1] bcast_S1x1024_S32768x1024_0_1
      (broadcastInDim S1x1024 ![1] bcast_S1024_S1x1024_1 positions) (ix2 b p) = BitVec.ofNat 32 p.val := by
  rw [broadcastInDim_apply _ _ _ (ix2 b p) (ix2 (0 : Fin 1) p) (fun a => match a with | ⟨0, _⟩ => rfl | ⟨1, _⟩ => rfl)]
  exact broadcastInDim_apply _ _ _ _ (ix1 p) (fun a => match a with | ⟨0, _⟩ => rfl)

/-- Row b of the sorted breakpoints is nondecreasing. -/
theorem M_sorted (idx : IVec S32768x4 32) (b : Fin 32768) :
    (M idx b 0).sle (M idx b 1) = true ∧ (M idx b 1).sle (M idx b 2) = true ∧ (M idx b 2).sle (M idx b 3) = true :=
  sorted_rows idx b

theorem startOf_apply (idx : IVec S32768x4 32) (b : Fin 32768) (p : Fin 1024) :
    startOf (sorted idx) (ix2 b p) = start (M idx b 0) (M idx b 1) (M idx b 2) (M idx b 3) (BitVec.ofNat 32 p.val) := by
  obtain ⟨h01, h12, h23⟩ := M_sorted idx b
  unfold startOf
  rw [takeAlong_apply _ _ b p (by rw [segOf_apply]; exact segNo_mem _ _ _ _ _), segOf_apply]
  exact entry_segNo _ _ _ _ _ h01 h12 h23

/-- The next breakpoint circularly at (b, p). -/
theorem nextOf_apply (idx : IVec S32768x4 32) (b : Fin 32768) (p : Fin 1024) :
    takeAlong (sorted idx) (floorMod (addi (segOf (sorted idx)) (spread (constantI S_ 32 1#32))) (constantI S_ 32 4#32))
        (ix2 b p)
      = next (M idx b 0) (M idx b 1) (M idx b 2) (M idx b 3) (BitVec.ofNat 32 p.val) := by
  obtain ⟨h01, h12, h23⟩ := M_sorted idx b
  have hn : floorMod (addi (segOf (sorted idx)) (spread (constantI S_ 32 1#32))) (constantI S_ 32 4#32) (ix2 b p)
      = floorModW (segNo (M idx b 0) (M idx b 1) (M idx b 2) (M idx b 3) (BitVec.ofNat 32 p.val) + 1#32) 4#32 := by
    rw [floorMod_apply _ 4#32 (by decide) (by decide)]
    simp only [addi, spread_apply, constantI_apply]
    rw [segOf_apply]
    rfl
  rw [takeAlong_apply _ _ b p (by rw [hn]; exact nextNo_mem _ _ _ _ _), hn]
  exact entry_nextNo _ _ _ _ _ h01 h12 h23

theorem lenOf_apply (idx : IVec S32768x4 32) (b : Fin 32768) (p : Fin 1024) :
    lenOf (sorted idx) (ix2 b p) = len (M idx b 0) (M idx b 1) (M idx b 2) (M idx b 3) (BitVec.ofNat 32 p.val) := by
  unfold lenOf
  rw [floorMod_apply _ 1024#32 (by decide) (by decide), floorModW_1024]
  simp only [subi]
  rw [nextOf_apply, startOf_apply]
  exact gap_start_next _ _ _ _ _

theorem offOf_apply (idx : IVec S32768x4 32) (b : Fin 32768) (p : Fin 1024) :
    offOf (sorted idx) (ix2 b p) = off (M idx b 0) (M idx b 1) (M idx b 2) (M idx b 3) (BitVec.ofNat 32 p.val) := by
  unfold offOf
  rw [floorMod_apply _ 1024#32 (by decide) (by decide), floorModW_1024]
  simp only [subi]
  rw [prow_apply, startOf_apply]
  rfl

end Cert.ReferenceIdeal.Stages

end
-- ==== Proof.RefRead.lean ====
/-
  The reference's result is the loss of Spec.lean in its reference form: each element of the target array is
  cos((offset · 2π) / length) / 2 + 1/2 of its row's cascade, and the host's sum over both axes from 0, divided by the
  count, is the double sum over rows and positions divided by the count.
-/
import proofs.«426116_j60318520705345_3_alg».proof.Proof.RefStages
import Idealize.ShloMosaic.PureOps.Ideal.Laws

noncomputable section

namespace Cert.ReferenceIdeal.Read

open Idealize.ShloMosaic Idealize.ShloMosaic.ValueIdx Cert.ReferenceIdeal Cert.ReferenceIdeal.Facts₀ Cert.ReferenceIdeal.Term Cert.CosTarget

variable [Facts]

/-- The values as the reference reads them: the 32768 × 1 × 1024 argument at 32768 × 1024. -/
abbrev X (x : FVec Ideal S32768x1x1024 .f32) : Xs := shapeCast S32768x1024 x shapeCasts_S32768x1x1024_S32768x1024

theorem targetOf_apply (idx : IVec S32768x4 32) (b : Fin 32768) (p : Fin 1024) :
    targetOf (F := Ideal) (sorted idx) (ix2 b p)
      = targetRef (sorted idx (ix2 b 0)) (sorted idx (ix2 b 1)) (sorted idx (ix2 b 2)) (sorted idx (ix2 b 3)) (BitVec.ofNat 32 p.val) := by
  have ho := Stages.offOf_apply idx b p
  have hl := Stages.lenOf_apply idx b p
  -- every elementwise operation reads at the index: the element is cos((offset · 2π) / length) · ½ + ½
  show Ideal.cos (Ideal.div (((offOf (sorted idx) (ix2 b p)).toInt : ℝ) * Ideal.ofBits .f32 0x40C90FDB#32)
      ((lenOf (sorted idx) (ix2 b p)).toInt : ℝ)) * Ideal.ofBits .f32 0x3F000000#32 + Ideal.ofBits .f32 0x3F000000#32 = _
  rw [ho, hl]
  rfl

theorem loss_eq (x : FVec Ideal S32768x1x1024 .f32) (idx : IVec S32768x4 32) :
    loss (F := Ideal) x idx = fun _ => refLoss (X x) (sorted idx) := by
  funext j
  -- the result is the sum of the squared deviations over both axes, from the zero word, divided by the count word
  show Ideal.div (Ideal.hostReduceAdd reducesTo_S32768x1024_S_d0_1
      (fun i => (X x i - targetOf (F := Ideal) (sorted idx) i) * (X x i - targetOf (F := Ideal) (sorted idx) i))
      (Ideal.ofBits .f32 0x00000000#32) j) (Ideal.ofBits .f32 0x4C000000#32) = _
  -- a sum into the scalar shape is the initial value plus the sum over every element: the double sum over rows and positions
  rw [Ideal.hostReduceAdd_total _ (fun b => b.elim0), Ideal.ofBits_zero_f32, sum_idx2]
  unfold refLoss Cert.CosTarget.count
  refine congrArg (fun s => Ideal.div (0 + s) (Ideal.ofBits .f32 0x4C000000#32)) ?_
  -- term by term, the squared deviation from the target element is the reference-form term
  refine Finset.sum_congr rfl fun b _ => Finset.sum_congr rfl fun p _ => ?_
  rw [targetOf_apply]
  rfl

end Cert.ReferenceIdeal.Read

end
-- ==== Proof.KernelPieces.lean ====
/-
  What one run of the kernel's body leaves behind, as pure functions of the two input blocks and of what the carried
  accumulator held: the accumulator afterwards is what it held plus the block's sum of squared deviations (spread over
  the 8 × 128 tile); at a core's first point it held zeros; at a core's last point the output tile is the accumulator
  times 2⁻²⁵.
-/
import proofs.«426116_j60318520705345_3_alg».proof.Proof.Gen.KernelIdeal.Frame
import proofs.«426116_j60318520705345_3_alg».proof.Proof.Spec
import Idealize.ShloMosaic.Lib.Pipeline.Value
import Idealize.ShloMosaic.PureOps.Ideal.Laws
import Idealize.ShloMosaic.Lib.Tactic

noncomputable section

open scoped BigOperators

namespace Cert.KernelIdeal.Pieces

open Idealize.ShloMosaic Idealize.ShloMosaic.ValueIdx Cert.KernelIdeal Cert.KernelIdeal.Facts₀ Cert.KernelIdeal.Gen Cert.CosTarget

variable {F : FTy → Type} [FloatOps F]

/-- The accumulator after one body: the body's arithmetic of the breakpoint block `x0`, the value block `x1` and
    the accumulator before, `acc`. -/
def accStep (x0 : Vec F S1024x4 .i32) (x1 : Vec F S1024x1024 .f32) (acc : Vec F S8x128 .f32) : Vec F S8x128 .f32 :=
  k0_pay14 (k0_pay3 x1) (iota .tc S1024x1024 32 [1] Facts₀.iota_S1024x1024_d1_w32) (k0_pay5 x0) (k0_pay6 x0) (k0_pay7 x0)
    (k0_pay8 x0) (k0_pay9 x0) (k0_pay10 x0) (k0_pay11 x0) (k0_pay12 x0) (k0_pay13 x0) acc

/-- The sum of squared deviations over one 1024 × 1024 block: rows, inside each row the positions. -/
def blockDev (x0 : Vec Ideal S1024x4 .i32) (x1 : Vec Ideal S1024x1024 .f32) : EReal :=
  ∑ r : Fin 1024, ∑ p : Fin 1024,
    sqDev (x1 (ix2 r p)) (target (x0 (ix2 r 0)) (x0 (ix2 r 1)) (x0 (ix2 r 2)) (x0 (ix2 r 3)) (BitVec.ofNat 32 p.val))

/-! ## The body's arithmetic read at an entry -/

namespace Elem
/-- The squared deviations of one block: the body's arithmetic from the two loaded blocks up to the square, before the sums. -/
def sqArr (x0 : Vec F S1024x4 .i32) (x1 : Vec F S1024x1024 .f32) : FVec F S1024x1024 .f32 :=
  have v5 : FVec F S1024x1024 .f32 := k0_pay3 x1
  have v6 : IVec S1024x1024 32 := iota .tc S1024x1024 32 [1] Gen.iota_S1024x1024_d1_w32
  have v8 : IVec S1024x1 32 := k0_pay5 x0
  have v9 : IVec S1024x1 32 := k0_pay6 x0
  have v10 : IVec S1024x1 32 := k0_pay7 x0
  have v28 : FVec F S1024x1 .f32 := k0_pay8 x0
  have v31 : FVec F S1024x1 .f32 := k0_pay9 x0
  have v34 : FVec F S1024x1 .f32 := k0_pay10 x0
  have v36 : IVec S1024x1024 1 := k0_pay11 x0
  have v41 : IVec S1024x1024 32 := k0_pay12 x0
  have v42 : FVec F S1024x1 .f32 := k0_pay13 x0
  have v43 : FVec F S1024x1024 .f32 := broadcastTo S1024x1024 v42 Gen.broadcasts_S1024x1_S1024x1024
  have v44 : FVec F S1024x1 .f32 := shapeCast S1024x1 v34 Gen.shapeCasts_S1024x1_S1024x1
  have v45 : FVec F S1024x1024 .f32 := broadcastTo S1024x1024 v44 Gen.broadcasts_S1024x1_S1024x1024
  have v46 : FVec F S1024x1024 .f32 := select v36 v43 v45
  have v47 : IVec S1024x1024 32 := broadcastTo S1024x1024 v8 Gen.broadcasts_S1024x1_S1024x1024
  have v48 : IVec S1024x1024 1 := cmpi .sle v47 v6
  have v49 : IVec S1024x1 32 := shapeCast S1024x1 v8 Gen.shapeCasts_S1024x1_S1024x1
  have v50 : IVec S1024x1024 32 := broadcastTo S1024x1024 v49 Gen.broadcasts_S1024x1_S1024x1024
  have v51 : IVec S1024x1024 32 := select v48 v50 v41
  have v52 : FVec F S1024x1 .f32 := shapeCast S1024x1 v28 Gen.shapeCasts_S1024x1_S1024x1
  have v53 : FVec F S1024x1024 .f32 := broadcastTo S1024x1024 v52 Gen.broadcasts_S1024x1_S1024x1024
  have v54 : FVec F S1024x1024 .f32 := select v48 v53 v46
  have v55 : IVec S1024x1024 32 := broadcastTo S1024x1024 v9 Gen.broadcasts_S1024x1_S1024x1024
  have v56 : IVec S1024x1024 1 := cmpi .sle v55 v6
  have v57 : IVec S1024x1 32 := shapeCast S1024x1 v9 Gen.shapeCasts_S1024x1_S1024x1
  have v58 : IVec S1024x1024 32 := broadcastTo S1024x1024 v57 Gen.broadcasts_S1024x1_S1024x1024
  have v59 : IVec S1024x1024 32 := select v56 v58 v51
  have v60 : FVec F S1024x1 .f32 := shapeCast S1024x1 v31 Gen.shapeCasts_S1024x1_S1024x1
  have v61 : FVec F S1024x1024 .f32 := broadcastTo S1024x1024 v60 Gen.broadcasts_S1024x1_S1024x1024
  have v62 : FVec F S1024x1024 .f32 := select v56 v61 v54
  have v63 : IVec S1024x1024 32 := broadcastTo S1024x1024 v10 Gen.broadcasts_S1024x1_S1024x1024
  have v64 : IVec S1024x1024 1 := cmpi .sle v63 v6
  have v65 : IVec S1024x1 32 := shapeCast S1024x1 v10 Gen.shapeCasts_S1024x1_S1024x1
  have v66 : IVec S1024x1024 32 := broadcastTo S1024x1024 v65 Gen.broadcasts_S1024x1_S1024x1024
  have v67 : IVec S1024x1024 32 := select v64 v66 v59
  have v68 : FVec F S1024x1 .f32 := shapeCast S1024x1 v34 Gen.shapeCasts_S1024x1_S1024x1
  have v69 : FVec F S1024x1024 .f32 := broadcastTo S1024x1024 v68 Gen.broadcasts_S1024x1_S1024x1024
  have v70 : FVec F S1024x1024 .f32 := select v64 v69 v62
  have v71 : IVec S1024x1024 32 := subi v6 v67
  have v72 : IVec S1024x1024 32 := broadcast S1024x1024 1023#32
  have v73 : IVec S1024x1024 32 := andi v71 v72
  have v74 : FVec F S1024x1024 .f32 := sitofp .f32 v73
  have v75 : FVec F S1024x1024 .f32 := mulf v74 v70
  have v76 : FVec F S1024x1024 .f32 := cos v75
  have cst_11 : F .f32 := Scalar.ofBits .f32 0x3F000000#32
  have v77 : FVec F S1024x1024 .f32 := broadcast S1024x1024 cst_11
  have v78 : FVec F S1024x1024 .f32 := mulf v76 v77
  have cst_12 : F .f32 := Scalar.ofBits .f32 0x3F000000#32
  have v79 : FVec F S1024x1024 .f32 := broadcast S1024x1024 cst_12
  have v80 : FVec F S1024x1024 .f32 := addf v78 v79
  have v81 : FVec F S1024x1024 .f32 := subf v5 v80
  have v82 : FVec F S1024x1024 .f32 := mulf v81 v81
  v82

section Stages
variable {S : Shape}

/-- The square of a difference at an entry. -/
theorem sq_stage (a t : FVec Ideal S .f32) (i : S.Idx) (av tv : EReal) (ha : a i = av) (ht : t i = tv) :
    mulf (subf a t) (subf a t) i = sqDev av tv := by
  rw [← ha, ← ht]; rfl

/-- The cosine of offset times step, halved and lifted by a half, at an entry. -/
theorem tgt_stage (o : IVec S 32) (g : FVec Ideal S .f32) (i : S.Idx) (ov : BitVec 32) (gv : EReal) (ho : o i = ov) (hg : g i = gv) :
    addf (mulf (cos (mulf (sitofp .f32 o) g)) (broadcast S (Scalar.ofBits .f32 0x3F000000#32)))
        (broadcast S (Scalar.ofBits .f32 0x3F000000#32)) i
      = Ideal.cos (toR ov * gv) * half + half := by
  rw [← ho, ← hg]; rfl

/-- The wrapped difference masked to ten bits is the circular distance. -/
theorem off_stage (q s : IVec S 32) (i : S.Idx) (qv sv : BitVec 32) (hq : q i = qv) (hs : s i = sv) :
    andi (subi q s) (broadcast S 1023#32) i = gap sv qv := by
  rw [← hq, ← hs]; rfl

/-- A signed comparison at an entry. -/
theorem sle_stage (a b : IVec S 32) (i : S.Idx) (av bv : BitVec 32) (ha : a i = av) (hb : b i = bv) :
    cmpi .sle a b i = BitVec.ofBool (av.sle bv) := by
  rw [← ha, ← hb]; rfl

/-- A select on a comparison bit at an entry is the conditional. -/
theorem sel_stage {α : Type} (c : IVec S 1) (a b : S.Idx → α) (i : S.Idx) (cb : Bool) (av bv : α)
    (hc : c i = BitVec.ofBool cb) (ha : a i = av) (hb : b i = bv) :
    select c a b i = if cb then av else bv := by
  show Scalar.select (c i) (a i) (b i) = _
  rw [hc, ha, hb]; cases cb <;> rfl

/-- Three selects over the innermost conditional are the cascade over the four breakpoints. -/
theorem casc_stage {α : Type} (c1 c2 c3 : IVec S 1) (a1 a2 a3 e : S.Idx → α) (i : S.Idx) (m0 m1 m2 m3 p : BitVec 32) (w0 w1 w2 w3 : α)
    (h1 : c1 i = BitVec.ofBool (m1.sle p)) (h2 : c2 i = BitVec.ofBool (m2.sle p)) (h3 : c3 i = BitVec.ofBool (m3.sle p))
    (k1 : a1 i = w1) (k2 : a2 i = w2) (k3 : a3 i = w3) (ke : e i = if m0.sle p then w0 else w3) :
    select c3 a3 (select c2 a2 (select c1 a1 e)) i = pick m0 m1 m2 m3 p w0 w1 w2 w3 := by
  show Scalar.select (c3 i) (a3 i) (Scalar.select (c2 i) (a2 i) (Scalar.select (c1 i) (a1 i) (e i))) = _
  rw [h1, h2, h3, k1, k2, k3, ke]
  unfold pick
  generalize m3.sle p = b3; generalize m2.sle p = b2; generalize m1.sle p = b1; generalize m0.sle p = b0
  cases b3 <;> cases b2 <;> cases b1 <;> cases b0 <;> rfl

end Stages

/-- A function of the cascade's value is the cascade of the function's values. -/
theorem pick_app {α β : Type} (f : α → β) (m0 m1 m2 m3 p : BitVec 32) (v0 v1 v2 v3 : α) :
    f (pick m0 m1 m2 m3 p v0 v1 v2 v3) = pick m0 m1 m2 m3 p (f v0) (f v1) (f v2) (f v3) := by
  unfold pick; split_ifs <;> rfl

/-- A column spread along the positions reads, at row r, the column's entry of that row. -/
theorem bcol_apply {α : Type} (v : S1024x1.Idx → α) (h : S1024x1.Broadcasts S1024x1024) (r p : Fin 1024) :
    broadcastTo S1024x1024 v h (ix2 r p) = v (ix2 r (0 : Fin 1)) :=
  broadcastTo_apply v h (ix2 r p) (ix2 r (0 : Fin 1)) (fun a => match a with | ⟨0, _⟩ => rfl | ⟨1, _⟩ => rfl)

/-! The four columns of the breakpoint block. -/

theorem pay4_apply (x0 : Vec Ideal S1024x4 .i32) (r : Fin 1024) : k0_pay4 (F := Ideal) x0 (ix2 r (0 : Fin 1)) = x0 (ix2 r 0) := by
  unfold k0_pay4
  exact extractStridedSlice_apply _ x0 _ (ix2 r (0 : Fin 1)) (ix2 r (0 : Fin 4))
    (fun a => match a with | ⟨0, _⟩ => (Nat.zero_add _).symm | ⟨1, _⟩ => rfl)

theorem pay5_apply (x0 : Vec Ideal S1024x4 .i32) (r : Fin 1024) : k0_pay5 (F := Ideal) x0 (ix2 r (0 : Fin 1)) = x0 (ix2 r 1) := by
  unfold k0_pay5
  exact extractStridedSlice_apply _ x0 _ (ix2 r (0 : Fin 1)) (ix2 r (1 : Fin 4))
    (fun a => match a with | ⟨0, _⟩ => (Nat.zero_add _).symm | ⟨1, _⟩ => rfl)

theorem pay6_apply (x0 : Vec Ideal S1024x4 .i32) (r : Fin 1024) : k0_pay6 (F := Ideal) x0 (ix2 r (0 : Fin 1)) = x0 (ix2 r 2) := by
  unfold k0_pay6
  exact extractStridedSlice_apply _ x0 _ (ix2 r (0 : Fin 1)) (ix2 r (2 : Fin 4))
    (fun a => match a with | ⟨0, _⟩ => (Nat.zero_add _).symm | ⟨1, _⟩ => rfl)

theorem pay7_apply (x0 : Vec Ideal S1024x4 .i32) (r : Fin 1024) : k0_pay7 (F := Ideal) x0 (ix2 r (0 : Fin 1)) = x0 (ix2 r 3) := by
  unfold k0_pay7
  exact extractStridedSlice_apply _ x0 _ (ix2 r (0 : Fin 1)) (ix2 r (3 : Fin 4))
    (fun a => match a with | ⟨0, _⟩ => (Nat.zero_add _).symm | ⟨1, _⟩ => rfl)

/-! The four angular steps 2π / gap of a row. -/

theorem pay13_apply (x0 : Vec Ideal S1024x4 .i32) (r : Fin 1024) :
    k0_pay13 (F := Ideal) x0 (ix2 r (0 : Fin 1)) = Ideal.div twoPi (toR (gap (x0 (ix2 r 0)) (x0 (ix2 r 1)))) := by
  unfold k0_pay13
  rw [shapeCast_self]
  show Ideal.div twoPi (toR (gap (k0_pay4 x0 (ix2 r (0 : Fin 1))) (k0_pay5 x0 (ix2 r (0 : Fin 1))))) = _
  rw [pay4_apply, pay5_apply]

theorem pay8_apply (x0 : Vec Ideal S1024x4 .i32) (r : Fin 1024) :
    k0_pay8 (F := Ideal) x0 (ix2 r (0 : Fin 1)) = Ideal.div twoPi (toR (gap (x0 (ix2 r 1)) (x0 (ix2 r 2)))) := by
  unfold k0_pay8
  show Ideal.div twoPi (toR (gap (k0_pay5 x0 (ix2 r (0 : Fin 1))) (k0_pay6 x0 (ix2 r (0 : Fin 1))))) = _
  rw [pay5_apply, pay6_apply]

theorem pay9_apply (x0 : Vec Ideal S1024x4 .i32) (r : Fin 1024) :
    k0_pay9 (F := Ideal) x0 (ix2 r (0 : Fin 1)) = Ideal.div twoPi (toR (gap (x0 (ix2 r 2)) (x0 (ix2 r 3)))) := by
  unfold k0_pay9
  show Ideal.div twoPi (toR (gap (k0_pay6 x0 (ix2 r (0 : Fin 1))) (k0_pay7 x0 (ix2 r (0 : Fin 1))))) = _
  rw [pay6_apply, pay7_apply]

theorem pay10_apply (x0 : Vec Ideal S1024x4 .i32) (r : Fin 1024) :
    k0_pay10 (F := Ideal) x0 (ix2 r (0 : Fin 1)) = Ideal.div twoPi (toR (gap (x0 (ix2 r 3)) (x0 (ix2 r 0)))) := by
  unfold k0_pay10
  show Ideal.div twoPi (toR (gap (k0_pay7 x0 (ix2 r (0 : Fin 1))) (k0_pay4 x0 (ix2 r (0 : Fin 1))))) = _
  rw [pay7_apply, pay4_apply]

/-- The position counter reads the position. -/
theorem pos_apply (h : S1024x1024.Iotas .tc 32 [1]) (r p : Fin 1024) :
    iota .tc S1024x1024 32 [1] h (ix2 r p) = BitVec.ofNat 32 p.val :=
  iota_single_apply .tc S1024x1024 32 1 h (ix2 r p)

/-- The first comparison: breakpoint 0 against the position. -/
theorem pay11_apply (x0 : Vec Ideal S1024x4 .i32) (r p : Fin 1024) :
    k0_pay11 (F := Ideal) x0 (ix2 r p) = BitVec.ofBool ((x0 (ix2 r 0)).sle (BitVec.ofNat 32 p.val)) := by
  unfold k0_pay11
  exact sle_stage _ _ _ _ _ ((bcol_apply _ _ r p).trans (pay4_apply x0 r)) (pos_apply _ r p)

/-- The innermost conditional of the start cascade. -/
theorem pay12_apply (x0 : Vec Ideal S1024x4 .i32) (r p : Fin 1024) :
    k0_pay12 (F := Ideal) x0 (ix2 r p)
      = if (x0 (ix2 r 0)).sle (BitVec.ofNat 32 p.val) then x0 (ix2 r 0) else x0 (ix2 r 3) := by
  unfold k0_pay12
  rw [shapeCast_self, shapeCast_self]
  exact sel_stage _ _ _ _ _ _ _ (pay11_apply x0 r p) ((bcol_apply _ _ r p).trans (pay4_apply x0 r))
    ((bcol_apply _ _ r p).trans (pay7_apply x0 r))

/-- At row r, position p the array holds the squared deviation of the value from the target. -/
theorem sqArr_apply (x0 : Vec Ideal S1024x4 .i32) (x1 : Vec Ideal S1024x1024 .f32) (r p : Fin 1024) :
    sqArr (F := Ideal) x0 x1 (ix2 r p)
      = sqDev (x1 (ix2 r p)) (target (x0 (ix2 r 0)) (x0 (ix2 r 1)) (x0 (ix2 r 2)) (x0 (ix2 r 3)) (BitVec.ofNat 32 p.val)) := by
  unfold sqArr
  dsimp only
  simp only [shapeCast_self]
  have c1 := sle_stage _ _ _ _ _ ((bcol_apply (k0_pay5 x0) Gen.broadcasts_S1024x1_S1024x1024 r p).trans (pay5_apply x0 r))
    (pos_apply Gen.iota_S1024x1024_d1_w32 r p)
  have c2 := sle_stage _ _ _ _ _ ((bcol_apply (k0_pay6 x0) Gen.broadcasts_S1024x1_S1024x1024 r p).trans (pay6_apply x0 r))
    (pos_apply Gen.iota_S1024x1024_d1_w32 r p)
  have c3 := sle_stage _ _ _ _ _ ((bcol_apply (k0_pay7 x0) Gen.broadcasts_S1024x1_S1024x1024 r p).trans (pay7_apply x0 r))
    (pos_apply Gen.iota_S1024x1024_d1_w32 r p)
  refine sq_stage _ _ _ _ _ ?_ ?_
  · unfold k0_pay3; rw [shapeCast_self]
  unfold target
  refine tgt_stage _ _ _ _ _ ?_ ?_
  · refine off_stage _ _ _ _ _ (pos_apply _ r p) ?_
    exact casc_stage _ _ _ _ _ _ _ _ (x0 (ix2 r 0)) (x0 (ix2 r 1)) (x0 (ix2 r 2)) (x0 (ix2 r 3)) (BitVec.ofNat 32 p.val) _ _ _ _
      c1 c2 c3
      ((bcol_apply _ _ r p).trans (pay5_apply x0 r)) ((bcol_apply _ _ r p).trans (pay6_apply x0 r))
      ((bcol_apply _ _ r p).trans (pay7_apply x0 r)) (pay12_apply x0 r p)
  · refine (casc_stage _ _ _ _ _ _ _ _ (x0 (ix2 r 0)) (x0 (ix2 r 1)) (x0 (ix2 r 2)) (x0 (ix2 r 3)) (BitVec.ofNat 32 p.val) _ _ _ _
      c1 c2 c3
      ((bcol_apply _ _ r p).trans (pay8_apply x0 r)) ((bcol_apply _ _ r p).trans (pay9_apply x0 r))
      ((bcol_apply _ _ r p).trans (pay10_apply x0 r))
      (sel_stage _ _ _ _ _ _ _ (pay11_apply x0 r p) ((bcol_apply _ _ r p).trans (pay13_apply x0 r))
        ((bcol_apply _ _ r p).trans (pay10_apply x0 r)))).trans ?_
    exact (pick_app (fun g => Ideal.div twoPi (toR g)) _ _ _ _ _ _ _ _ _).symm
/-- The two lane sums, spread over the tile and added to the accumulator, read at an entry. -/
theorem tail_apply (w : FVec Ideal S1024x1024 .f32) (acc : FVec Ideal S8x128 .f32)
    (hr1 : S1024x1024.Reduces [1] S1024) (hf : FKind.Formats .f32) (ha : (0x00000000#32 : BitVec 32) = FKind.add.neutral .f32 hf)
    (hs1 : S1024.ShapeCasts S1024x1) (hr2 : S1024x1.Reduces [0] S1) (hs2 : S1.ShapeCasts S1x1) (hs3 : S1x1.ShapeCasts S1x1)
    (hb : S1x1.Broadcasts S8x128) (hs4 : S8x128.ShapeCasts S8x128) (y : S8x128.Idx) :
    shapeCast S8x128 (addf acc (broadcastTo S8x128 (shapeCast S1x1 (shapeCast S1x1
      (multiReduction .add [0] S1 (shapeCast S1024x1 (multiReduction .add [1] S1024 w 0x00000000#32 hr1 hf ha) hs1) 0x00000000#32 hr2 hf ha) hs2) hs3) hb)) hs4 y
    = acc y + ∑ r : Fin 1024, ∑ p : Fin 1024, w (ix2 r p) := by
  rw [shapeCast_self, addf_apply, shapeCast_self]
  congr 1
  rw [broadcastTo_apply _ hb y (ix2 (0 : Fin 1) (0 : Fin 1)) (fun a => match a with | ⟨0, _⟩ => rfl | ⟨1, _⟩ => rfl)]
  rw [shapeCast_apply _ hs2 (ix2 (0 : Fin 1) (0 : Fin 1)) (ix1 (0 : Fin 1)) rfl]
  refine (Ideal.multiReduction_add_single _ _ hr2 hf ha (ix1 (0 : Fin 1))).trans ?_
  show ∑ r : Fin 1024, _ = _
  refine Finset.sum_congr rfl fun r _ => ?_
  have e2 : hr2.lift (ix1 (0 : Fin 1)) r = ix2 r (0 : Fin 1) :=
    funext fun c => match c with | ⟨0, _⟩ => Fin.ext rfl | ⟨1, _⟩ => Fin.ext rfl
  rw [e2, shapeCast_apply _ hs1 (ix2 r (0 : Fin 1)) (ix1 r) rfl]
  refine (Ideal.multiReduction_add_single _ _ hr1 hf ha (ix1 r)).trans ?_
  show ∑ p : Fin 1024, _ = _
  refine Finset.sum_congr rfl fun p _ => ?_
  exact congrArg w (funext fun c => match c with | ⟨0, _⟩ => Fin.ext rfl | ⟨1, _⟩ => Fin.ext rfl)

end Elem

/-- At the ideal instance the accumulator gains the block's sum at every entry of the tile. -/
theorem accStep_apply (x0 : Vec Ideal S1024x4 .i32) (x1 : Vec Ideal S1024x1024 .f32) (acc : Vec Ideal S8x128 .f32) (y : S8x128.Idx) :
    accStep (F := Ideal) x0 x1 acc y = acc y + blockDev x0 x1 := by
  refine (Elem.tail_apply (Elem.sqArr (F := Ideal) x0 x1) acc Gen.reduces_S1024x1024_S1024 (.inl rfl) rfl Gen.shapeCasts_S1024_S1024x1
    Gen.reduces_S1024x1_S1 Gen.shapeCasts_S1_S1x1 Gen.shapeCasts_S1x1_S1x1 Gen.broadcasts_S1x1_S8x128 Gen.shapeCasts_S8x128_S8x128 y).trans ?_
  unfold blockDev
  exact congrArg (acc y + ·) (Finset.sum_congr rfl fun r _ => Finset.sum_congr rfl fun p _ => Elem.sqArr_apply x0 x1 r p)

/-- The reset value is zero. -/
theorem reset_apply (y : S8x128.Idx) : k0_pay2 (F := Ideal) y = 0 := by
  unfold k0_pay2
  rw [shapeCast_self]
  exact Ideal.ofBits_zero_f32

/-- The output tile is the accumulator scaled. -/
theorem scaled_apply (v : Vec Ideal S8x128 .f32) (y : S8x128.Idx) : k0_pay1 (F := Ideal) v y = v y * scale := rfl

/-! The three control cases' leavings are those functions. -/

/-- The offsets of the whole-tile rectangle are all zero. -/
private theorem hz : (![0, 0] : Fin 2 → Nat) = fun _ => 0 := funext fun a => by fin_cases a <;> rfl

theorem sout0_A_0_eq (c : Dev nD) (i : grid0.Coords) (arg2 : Memref sig .tc .vmem S1024x4 .i32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S1024x4 .i32) (x1 : Vec F S1024x1024 .f32) :
    sout0_A_0 c i arg2 harg2 arg3 harg3 arg4 harg4 arg5 harg5 hc0 hc1 x0 x1 = accStep x0 x1 k0_pay2 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz, View.readCov_unit_zero (S := S8x128) _ hz]
  unfold accStep
  simp only [View.readAt_eq_ld, harg2.read_unread, harg3.read_unread, harg5.read_unread, View.ld_unit_zero (S := S1024x4) hz,
    View.ld_unit_zero (S := S1024x1024) hz, View.ld_unit_zero (S := S8x128) hz]

theorem sout0_B_0_eq (c : Dev nD) (i : grid0.Coords) (arg2 : Memref sig .tc .vmem S1024x4 .i32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : ¬cond0_1 i)
    (x0 : Vec F S1024x4 .i32) (x1 : Vec F S1024x1024 .f32) (xs0 : Vec F S8x128 .f32) :
    sout0_B_0 c i arg2 harg2 arg3 harg3 arg4 harg4 arg5 harg5 hc0 hc1 x0 x1 xs0 = accStep x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  unfold accStep
  simp only [View.readAt_eq_ld, harg2.read_unread, harg3.read_unread, harg5.read_unread, View.ld_unit_zero (S := S1024x4) hz,
    View.ld_unit_zero (S := S1024x1024) hz, View.ld_unit_zero (S := S8x128) hz]

theorem sout0_C_0_eq (c : Dev nD) (i : grid0.Coords) (arg2 : Memref sig .tc .vmem S1024x4 .i32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S1024x4 .i32) (x1 : Vec F S1024x1024 .f32) (xs0 : Vec F S8x128 .f32) :
    sout0_C_0 c i arg2 harg2 arg3 harg3 arg4 harg4 arg5 harg5 hc0 hc1 x0 x1 xs0 = accStep x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  unfold accStep
  simp only [View.readAt_eq_ld, harg2.read_unread, harg3.read_unread, harg5.read_unread, View.ld_unit_zero (S := S1024x4) hz,
    View.ld_unit_zero (S := S1024x1024) hz, View.ld_unit_zero (S := S8x128) hz]

theorem out0_C_2_eq (c : Dev nD) (i : grid0.Coords) (arg2 : Memref sig .tc .vmem S1024x4 .i32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S1024x4 .i32) (x1 : Vec F S1024x1024 .f32) (xs0 : Vec F S8x128 .f32) :
    out0_C_2 c i arg2 harg2 arg3 harg3 arg4 harg4 arg5 harg5 hc0 hc1 x0 x1 xs0 = k0_pay1 (accStep x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  unfold accStep
  simp only [View.readAt_eq_ld, harg2.read_unread, harg3.read_unread, harg5.read_unread, View.ld_unit_zero (S := S1024x4) hz,
    View.ld_unit_zero (S := S1024x1024) hz, View.ld_unit_zero (S := S8x128) hz, View.readCov_unit_zero (S := S8x128) _ hz]

end Cert.KernelIdeal.Pieces

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.KernelAcc.lean ====
/-
  What the output tile holds after a core's last point: the accumulator was reset at the core's first point and gained
  one block's sum of squared deviations at each of its 16 points, so it holds the sum of the core's 16 block sums; the
  tile is that, scaled. The blocks the body sees are the rows 1024·t … 1024·t + 1023 of the two arrays the region finds:
  the sorted breakpoints and the values at 32768 × 1024.
-/
import proofs.«426116_j60318520705345_3_alg».proof.Proof.KernelPieces
import proofs.«426116_j60318520705345_3_alg».proof.Proof.LibBlockSum

noncomputable section

open scoped BigOperators

namespace Cert.KernelIdeal.Acc

open Idealize.ShloMosaic Idealize.ShloMosaic.TcCoe Idealize.ShloMosaic.ValueIdx Cert.KernelIdeal Cert.KernelIdeal.Facts₀ Cert.KernelIdeal.Gen Cert.KernelIdeal.Pieces Cert.CosTarget

variable (m : (ℓ : Loc nD τ sig) → Buf (Elt Ideal) ℓ)

/-- The values as the kernel reads them: the 32768 × 1 × 1024 argument at 32768 × 1024. -/
abbrev Xk (c : Dev nD) : Xs := shapeCast S32768x1024 (m ((c : Thread nD τ).loc main_arg0)) Facts₀.shapeCasts_S32768x1x1024_S32768x1024

/-- The sorted breakpoints. -/
abbrev Mk (c : Dev nD) : Ms := Host.sort S32768x4 1 comparator_i32_d1 (m ((c : Thread nD τ).loc main_arg1))

/-! ## The blocks the body sees are rows of the two arrays -/

/-- The breakpoint block and the value block of point `t`, and the two arrays they are cut from. -/
abbrev mblk (c : Dev nD) (t : Fin cfg0.N) : Vec Ideal S1024x4 .i32 := iblk m c 0 t
abbrev xblk (c : Dev nD) (t : Fin cfg0.N) : Vec Ideal S1024x1024 .f32 := iblk m c 1 t
abbrev marr (c : Dev nD) : Vec Ideal S32768x4 .i32 := V m c main_v1
abbrev xarr (c : Dev nD) : Vec Ideal S32768x1024 .f32 := V m c main_v0

/-- At point `t` both index maps give block (t, 0): with t = 16·c + i the row block is 16·c + i. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry (r, j) of the breakpoint block of point `t` is entry (1024·t + r, j) of the breakpoint array. -/
theorem mblk_apply (c : Dev nD) (t : Fin cfg0.N) (x : S1024x4.Idx) (k : S32768x4.Idx)
    (hk0 : (k 0).val = 1024 * t.val + (x 0).val) (hk1 : (k 1).val = (x 1).val) :
    mblk m c t x = marr m c k := by
  have hi := idx_facts t
  show iblk m c 0 t x = _
  unfold iblk
  rw [View.read_apply]
  show V m c main_v1 _ = V m c main_v1 _
  congr 1
  funext a
  apply Fin.ext
  match a with
  | ⟨0, _⟩ => show win0_0.index t 0 * 1024 + 1 * (x 0).val = (k 0).val; rw [hi.1, hk0]; omega
  | ⟨1, _⟩ => show win0_0.index t 1 * 4 + 1 * (x 1).val = (k 1).val; rw [hi.2.1, hk1]; omega

/-- Entry (r, p) of the value block of point `t` is entry (1024·t + r, p) of the value array. -/
theorem xblk_apply (c : Dev nD) (t : Fin cfg0.N) (x : S1024x1024.Idx) (k : S32768x1024.Idx)
    (hk0 : (k 0).val = 1024 * t.val + (x 0).val) (hk1 : (k 1).val = (x 1).val) :
    xblk m c t x = xarr m c k := by
  have hi := idx_facts t
  show iblk m c 1 t x = _
  unfold iblk
  rw [View.read_apply]
  show V m c main_v0 _ = V m c main_v0 _
  congr 1
  funext a
  apply Fin.ext
  match a with
  | ⟨0, _⟩ => show win0_1.index t 0 * 1024 + 1 * (x 0).val = (k 0).val; rw [hi.2.2.1, hk0]; omega
  | ⟨1, _⟩ => show win0_1.index t 1 * 1024 + 1 * (x 1).val = (k 1).val; rw [hi.2.2.2, hk1]; omega

/-- The breakpoint array the region finds is the argument's rows sorted. -/
theorem marr_eq (c : Dev nD) : marr m c = Mk m c := by
  show (V m c main_v1 : S32768x4.Idx → BitVec 32) = Host.sort S32768x4 1 comparator_i32_d1 (m ((c : Thread nD τ).loc main_arg1))
  dsimp only [Gen.V, Gen.V0]
  simp only [Gen.hostOps0, Gen.hostOps0_1, List.flatten_cons, List.flatten_nil, List.append_nil, List.cons_append, List.nil_append]
  after_results
  rfl

/-- The value array the region finds is the argument at 32768 × 1024. -/
theorem xarr_eq (c : Dev nD) : xarr m c = Xk m c := by
  show (V m c main_v0 : S32768x1024.Idx → EReal) = shapeCast S32768x1024 (m ((c : Thread nD τ).loc main_arg0)) Facts₀.shapeCasts_S32768x1x1024_S32768x1024
  dsimp only [Gen.V, Gen.V0]
  simp only [Gen.hostOps0, Gen.hostOps0_1, List.flatten_cons, List.flatten_nil, List.append_nil, List.cons_append, List.nil_append]
  after_results
  rfl

/-- The sum of squared deviations over the blocks of point `t` is the sum of the terms over block `t` of the arrays:
    row r of the block is row 1024·t + r. -/
theorem blockDev_eq (c : Dev nD) (t : Fin cfg0.N) (t' : Fin 32) (htt : t'.val = t.val) :
    blockDev (mblk m c t) (xblk m c t) = blockSum (Xk m c) (Mk m c) t' := by
  unfold blockDev blockSum term
  refine Finset.sum_congr rfl fun r _ => Finset.sum_congr rfl fun p _ => ?_
  have hr : (rowOf t' r).val = 1024 * t.val + r.val := by unfold rowOf; rw [← htt]
  rw [xblk_apply m c t (ix2 r p) (ix2 (rowOf t' r) p) hr rfl,
    mblk_apply m c t (ix2 r 0) (ix2 (rowOf t' r) 0) hr rfl,
    mblk_apply m c t (ix2 r 1) (ix2 (rowOf t' r) 1) hr rfl,
    mblk_apply m c t (ix2 r 2) (ix2 (rowOf t' r) 2) hr rfl,
    mblk_apply m c t (ix2 r 3) (ix2 (rowOf t' r) 3) hr rfl,
    xarr_eq, marr_eq]

/-! ## The carried accumulator: restarted at a core's first point, one block sum gained at every point -/

/-- Entry `y` of the accumulator after point `n` (zero past the grid). -/
def accAt (c : Dev nD) (y : S8x128.Idx) (n : ℕ) : EReal :=
  if h : n < cfg0.N then (outsAt0 (F := Ideal) m c n h).2 y else 0

/-- The sum of the terms over block `n` (zero past the grid). -/
def sumAt (c : Dev nD) (n : ℕ) : EReal :=
  if h : n < 32 then blockSum (Xk m c) (Mk m c) ⟨n, h⟩ else 0

/-- At a core's first point (n ≡ 0 mod 16) the accumulator is zero plus the block's sum. -/
theorem accAt_first (c : Dev nD) (y : S8x128.Idx) (n : ℕ) (hn : n < 32) (h0 : n % 16 = 0) :
    accAt m c y n = 0 + sumAt m c n := by
  have hN : n < cfg0.N := lt_of_lt_of_eq hn (show (32 : ℕ) = cfg0.N from N_0.symm)
  have h1 : ¬ n % 16 = 15 := by omega
  unfold accAt sumAt
  rw [dif_pos hN, dif_pos hn, outsAt0_A m c ⟨n, hN⟩ h0 h1]
  dsimp only
  refine (congrFun (sout0_A_0_eq (F := Ideal) c (grid0.coords ⟨n, hN⟩) (ms0_0 ⟨n, hN⟩) (hs0_0 ⟨n, hN⟩) (ms0_1 ⟨n, hN⟩) (hs0_1 ⟨n, hN⟩)
    (ms0_2 ⟨n, hN⟩) (hs0_2 ⟨n, hN⟩) scM0_0 (Memref.isWhole_whole _) ((hcond0_0 ⟨n, hN⟩).mpr h0) (fun h => h1 ((hcond0_1 ⟨n, hN⟩).mp h))
    (mblk m c ⟨n, hN⟩) (xblk m c ⟨n, hN⟩)) y).trans ?_
  refine (accStep_apply (mblk m c ⟨n, hN⟩) (xblk m c ⟨n, hN⟩) (k0_pay2 (F := Ideal)) y).trans ?_
  rw [reset_apply, blockDev_eq m c ⟨n, hN⟩ ⟨n, hn⟩ rfl]

/-- At every other point the accumulator is what the point before left plus the block's sum. -/
theorem accAt_next (c : Dev nD) (y : S8x128.Idx) (n : ℕ) (hn : n < 32) (h0 : n % 16 ≠ 0) :
    accAt m c y n = accAt m c y (n - 1) + sumAt m c n := by
  have hN : n < cfg0.N := lt_of_lt_of_eq hn (show (32 : ℕ) = cfg0.N from N_0.symm)
  have hN' : n - 1 < cfg0.N := lt_of_le_of_lt (Nat.sub_le _ _) hN
  unfold accAt sumAt
  rw [dif_pos hN, dif_pos hN', dif_pos hn]
  by_cases h1 : n % 16 = 15
  · rw [outsAt0_C m c ⟨n, hN⟩ h0 h1]
    dsimp only
    refine (congrFun (sout0_C_0_eq (F := Ideal) c (grid0.coords ⟨n, hN⟩) (ms0_0 ⟨n, hN⟩) (hs0_0 ⟨n, hN⟩) (ms0_1 ⟨n, hN⟩) (hs0_1 ⟨n, hN⟩)
      (ms0_2 ⟨n, hN⟩) (hs0_2 ⟨n, hN⟩) scM0_0 (Memref.isWhole_whole _) (fun h => h0 ((hcond0_0 ⟨n, hN⟩).mp h)) ((hcond0_1 ⟨n, hN⟩).mpr h1)
      (mblk m c ⟨n, hN⟩) (xblk m c ⟨n, hN⟩) (outsAt0 (F := Ideal) m c (n - 1) hN').2) y).trans ?_
    refine (accStep_apply (mblk m c ⟨n, hN⟩) (xblk m c ⟨n, hN⟩) (outsAt0 (F := Ideal) m c (n - 1) hN').2 y).trans ?_
    rw [blockDev_eq m c ⟨n, hN⟩ ⟨n, hn⟩ rfl]
  · rw [outsAt0_B m c ⟨n, hN⟩ h0 h1]
    dsimp only
    refine (congrFun (sout0_B_0_eq (F := Ideal) c (grid0.coords ⟨n, hN⟩) (ms0_0 ⟨n, hN⟩) (hs0_0 ⟨n, hN⟩) (ms0_1 ⟨n, hN⟩) (hs0_1 ⟨n, hN⟩)
      (ms0_2 ⟨n, hN⟩) (hs0_2 ⟨n, hN⟩) scM0_0 (Memref.isWhole_whole _) (fun h => h0 ((hcond0_0 ⟨n, hN⟩).mp h)) (fun h => h1 ((hcond0_1 ⟨n, hN⟩).mp h))
      (mblk m c ⟨n, hN⟩) (xblk m c ⟨n, hN⟩) (outsAt0 (F := Ideal) m c (n - 1) hN').2) y).trans ?_
    refine (accStep_apply (mblk m c ⟨n, hN⟩) (xblk m c ⟨n, hN⟩) (outsAt0 (F := Ideal) m c (n - 1) hN').2 y).trans ?_
    rw [blockDev_eq m c ⟨n, hN⟩ ⟨n, hn⟩ rfl]

/-- After the last point of core `q` (point 16·q + 15) every entry of the output tile is the core's sum, scaled. -/
theorem out_last (c : Dev nD) (q : Fin 2) (t : Fin cfg0.N) (ht : t.val = 16 * q.val + 15) (y : S8x128.Idx) :
    (outsAt0 (F := Ideal) m c t.val t.isLt).1 y = (∑ i : Fin 16, blockSum (Xk m c) (Mk m c) (blockOf q i)) * scale := by
  have hq := q.isLt
  have hn : t.val < 32 := by omega
  have h0 : ¬ t.val % 16 = 0 := by omega
  have h1 : t.val % 16 = 15 := by omega
  have hN' : t.val - 1 < cfg0.N := lt_of_le_of_lt (Nat.sub_le _ _) t.isLt
  have e1 : accStep (mblk m c t) (xblk m c t) (outsAt0 (F := Ideal) m c (t.val - 1) hN').2 y = accAt m c y t.val := by
    unfold accAt
    rw [dif_pos t.isLt, outsAt0_C m c t h0 h1]
    dsimp only
    exact (congrFun (sout0_C_0_eq (F := Ideal) c (grid0.coords t) (ms0_0 t) (hs0_0 t) (ms0_1 t) (hs0_1 t)
      (ms0_2 t) (hs0_2 t) scM0_0 (Memref.isWhole_whole _) (fun h => h0 ((hcond0_0 t).mp h)) ((hcond0_1 t).mpr h1)
      (mblk m c t) (xblk m c t) (outsAt0 (F := Ideal) m c (t.val - 1) hN').2) y).symm
  rw [outsAt0_C m c t h0 h1]
  dsimp only
  refine (congrFun (out0_C_2_eq (F := Ideal) c (grid0.coords t) (ms0_0 t) (hs0_0 t) (ms0_1 t) (hs0_1 t)
    (ms0_2 t) (hs0_2 t) scM0_0 (Memref.isWhole_whole _) (fun h => h0 ((hcond0_0 t).mp h)) ((hcond0_1 t).mpr h1)
    (mblk m c t) (xblk m c t) (outsAt0 (F := Ideal) m c (t.val - 1) hN').2) y).trans ?_
  refine (scaled_apply (accStep (mblk m c t) (xblk m c t) (outsAt0 (F := Ideal) m c (t.val - 1) hN').2) y).trans ?_
  rw [e1, Cert.Hand.BlockSum.seg_acc_last_zero_add 16 (by norm_num) (accAt m c y) (sumAt m c) 32
    (fun n hn h0 => accAt_first m c y n hn h0) (fun n hn h0 => accAt_next m c y n hn h0) t.val hn (by omega)]
  refine congrArg (· * scale) (Finset.sum_congr rfl fun i _ => ?_)
  have hi := i.isLt
  unfold sumAt
  rw [dif_pos (show 16 * (t.val / 16) + i.val < 32 by omega)]
  exact congrArg (blockSum (Xk m c) (Mk m c)) (Fin.ext (show 16 * (t.val / 16) + i.val = 16 * q.val + i.val by omega))

end Cert.KernelIdeal.Acc

end
-- ==== Proof.KernelRun.lean ====
/-
  The kernel's run at the ideal instance: every weakly fair execution of its @main terminates with the result buffer at
  the kernel's loss of Spec.lean — entry (0, 0) of the 16 × 128 array (core 0's tile) plus entry (8, 0) (core 1's) —
  and the two arguments unchanged.
-/
import proofs.«426116_j60318520705345_3_alg».proof.Proof.KernelAcc

noncomputable section

open scoped BigOperators

namespace Cert.KernelIdeal.HandValue

open Idealize.ShloMosaic Idealize.ShloMosaic.TcCoe Idealize.SL.Sem Idealize.ShloMosaic.ValueIdx Cert.KernelIdeal Cert.KernelIdeal.Facts₀ Cert.KernelIdeal.Gen Cert.KernelIdeal.Acc Cert.CosTarget

section Array

variable (m : (ℓ : Loc nD τ sig) → Buf (Elt Ideal) ℓ)

/-- Core q's sum of its 16 block sums, scaled. -/
def coreSum (c : Dev nD) (q : Fin 2) : EReal := (∑ i : Fin 16, blockSum (Xk m c) (Mk m c) (blockOf q i)) * scale

/-- The final array: rows 0–7 hold core 0's scaled sum, rows 8–15 core 1's. -/
def G (c : Dev nD) : S16x128.Idx → EReal := fun i => if (i 0).val < 8 then coreSum m c 0 else coreSum m c 1

/-- The output's index map at every point of the grid: at point t the block's row index is the core t / 16 and its column index 0. -/
theorem out_idx_facts : ∀ t : Fin cfg0.N, win0_2.index t (0 : Fin 2) = t.val / 16 ∧ win0_2.index t (1 : Fin 2) = 0 :=
  (by decide +kernel : ∀ t : Fin grid0.N, _)

/-- What a flushing point writes back is its block of the final array: every entry the point's core sum, scaled. -/
theorem flushed_eq (c : Dev nD) (t : Fin cfg0.N) (hf : (cfg0.win 2).flush t = true) :
    (dats m 0 c).flushed 2 t = ((cfg0.win 2).blk t).view.read (Elt Ideal) (G m c) := by
  show (cfg0.win 2).cut (grid0.coords t) ((dats m 0 c).after 2 t) = _
  rw [after0_2]
  funext y
  have ht : t.val % 16 = 15 := (flush0_2 t).mp hf
  have hN : t.val < 32 := lt_of_lt_of_eq t.isLt N_0
  obtain ⟨q, hq⟩ : ∃ q : Fin 2, t.val = 16 * q.val + 15 := ⟨⟨t.val / 16, by omega⟩, by dsimp only; omega⟩
  refine (out_last m c q t hq _).trans ?_
  show coreSum m c q = G m c (((cfg0.win 2).blk t).view.emb y)
  have h0 : ((((cfg0.win 2).blk t).view.emb y) 0).val = win0_2.index t (0 : Fin 2) * 8 + 1 * (y 0).val := rfl
  have hy : (y 0).val < 8 := (y 0).isLt
  obtain ⟨e0, -⟩ := out_idx_facts t
  unfold G
  rw [h0, e0]
  match q, hq with
  | ⟨0, _⟩, hq => exact (if_pos (by dsimp only at hq; omega)).symm
  | ⟨1, _⟩, hq => exact (if_neg (by dsimp only at hq; omega)).symm

/-- An index of the array is in point t's block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- Every index of the array is in a flushing point's block: row r is written back by the last point of core r / 8. -/
theorem cover (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  obtain ⟨t, htv⟩ : ∃ t : Fin cfg0.N, t.val = 16 * ((i 0).val / 8) + 15 := ⟨⟨16 * ((i 0).val / 8) + 15, by omega⟩, rfl⟩
  refine ⟨t, (flush0_2 t).mpr (by omega), ?_⟩
  rw [mem_blk]
  obtain ⟨e0, e1⟩ := out_idx_facts t
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- The array after the run. -/
theorem final (c : Dev nD) : (dats m 0 c).arrAt 2 cfg0.N = G m c :=
  (dats m 0 c).arrAt_eq_of_cover 2 (G m c) (fun t hf => flushed_eq m c t hf) cover

/-- Row 0 of the final array holds core 0's scaled sum, row 8 core 1's. -/
theorem G_row0 (c : Dev nD) : G m c (ix2 0 0) = coreSum m c 0 := if_pos (by decide)
theorem G_row8 (c : Dev nD) : G m c (ix2 8 0) = coreSum m c 1 := if_neg (by decide)

/-- The scalar cut out of a 16 × 128 array at (r, 0): the 1 × 1 slice at offsets (r, 0), reshaped to a scalar. -/
theorem scalar_at0 (A : S16x128.Idx → EReal) (j : S_.Idx) :
    shapeCast S_ (extractStridedSlice S1x1 ![0, 0] A Facts₀.slices_S16x128_S1x1_0_0) Facts₀.shapeCasts_S1x1_S_ j = A (ix2 0 0) :=
  (shapeCast_apply _ Facts₀.shapeCasts_S1x1_S_ j (ix2 0 0)
    (by have h1 : (S1x1.rowMajor (ix2 0 0)).val < 1 := (S1x1.rowMajor (ix2 0 0)).isLt
        have h2 : (S_.rowMajor j).val < 1 := (S_.rowMajor j).isLt
        omega)).trans
    (extractStridedSlice_apply ![0, 0] A Facts₀.slices_S16x128_S1x1_0_0 (ix2 0 0) (ix2 0 0)
      (fun a => by match a with | ⟨0, _⟩ => rfl | ⟨1, _⟩ => rfl))

theorem scalar_at8 (A : S16x128.Idx → EReal) (j : S_.Idx) :
    shapeCast S_ (extractStridedSlice S1x1 ![8, 0] A Facts₀.slices_S16x128_S1x1_8_0) Facts₀.shapeCasts_S1x1_S_ j = A (ix2 8 0) :=
  (shapeCast_apply _ Facts₀.shapeCasts_S1x1_S_ j (ix2 0 0)
    (by have h1 : (S1x1.rowMajor (ix2 0 0)).val < 1 := (S1x1.rowMajor (ix2 0 0)).isLt
        have h2 : (S_.rowMajor j).val < 1 := (S_.rowMajor j).isLt
        omega)).trans
    (extractStridedSlice_apply ![8, 0] A Facts₀.slices_S16x128_S1x1_8_0 (ix2 0 0) (ix2 8 0)
      (fun a => by match a with | ⟨0, _⟩ => rfl | ⟨1, _⟩ => rfl))

/-- The result buffer after the lines that follow the region: entry (0, 0) of the final array plus entry (8, 0). -/
theorem tail_value (c : Dev nD) :
    Pipeline.afterTail₀ cfgs (dats m) 0 (V0 m) [hostOps1] c main_v7 = fun _ => kernelLoss (Xk m c) (Mk m c) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v2) = G m c :=
    (Pipeline.withArrays_arr spec0 launch0.win.arr_inj c _ _ 2).trans (final m c)
  rw [hA]
  funext j
  show shapeCast S_ (extractStridedSlice S1x1 ![0, 0] (G m c) Facts₀.slices_S16x128_S1x1_0_0) Facts₀.shapeCasts_S1x1_S_ j
      + shapeCast S_ (extractStridedSlice S1x1 ![8, 0] (G m c) Facts₀.slices_S16x128_S1x1_8_0) Facts₀.shapeCasts_S1x1_S_ j = _
  rw [scalar_at0, scalar_at8, G_row0, G_row8]
  rfl

end Array

/-- The run: the region's frame run, its post read at the result buffer and at the two arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = (fun _ => kernelLoss (Xk m c) (Mk m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HandValue

end
-- ==== Proof.PreDecode.lean ====
/-
  What the precondition says of the breakpoints: at every row and position the cascade's segment length is a nonzero
  word. The printed predicate sorts the rows, forms the four circular gaps, selects the gap of the position's segment by
  the cascade, compares it with zero and takes the conjunction over all rows and positions.
-/
import proofs.«426116_j60318520705345_3_alg».proof.Pre_finite_inputs
import proofs.«426116_j60318520705345_3_alg».proof.Proof.Spec
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs Cert.CosTarget

variable [Facts]

/-- The scalar shape has one index. -/
instance : Subsingleton S_.Idx := ⟨fun _ _ => funext fun d => d.elim0⟩

/-- A column spread along the positions reads, at row `b` and any position, the column at row `b`. -/
theorem bcastCol_apply {α : Type} (h : S32768x1.BroadcastsInDim S32768x1024 ![0, 1]) (v : S32768x1.Idx → α)
    (b : Fin 32768) (p : Fin 1024) : broadcastInDim S32768x1024 ![0, 1] h v (ix2 b p) = v (ix2 b 0) := by
  unfold broadcastInDim
  refine congrArg v (funext fun a => ?_)
  match a with
  | ⟨0, _⟩ => rfl
  | ⟨1, _⟩ => rfl

/-- A scalar spread over an array reads the scalar. -/
theorem bcastScalar_apply {α : Type} {T : Shape} (h : S_.BroadcastsInDim T ![]) (v : S_.Idx → α)
    (i : T.Idx) : broadcastInDim T ![] h v i = v ix0 := by
  unfold broadcastInDim
  exact congrArg v (funext fun a => a.elim0)

/-- Column `j` of the 32768 × 4 array, cut out as a 32768 × 1 column, reads at row `b` the array at (b, j). -/
theorem slice_apply {α : Type} (off : Fin S32768x4.rank → Nat) (j : Fin 4) (h0 : off 0 = 0) (h1 : off 1 = j.val)
    (h : S32768x4.Slices off S32768x1) (v : S32768x4.Idx → α) (b : Fin 32768) :
    extractStridedSlice S32768x1 off v h (ix2 b 0) = v (ix2 b j) := by
  unfold extractStridedSlice
  refine congrArg v (funext fun a => ?_)
  match a with
  | ⟨0, _⟩ => exact Fin.ext (by show off 0 + b.val = b.val; omega)
  | ⟨1, _⟩ => exact Fin.ext (by show off 1 + 0 = j.val; omega)

theorem len_ne_zero (x : FVec Ideal S32768x1x1024 .f32) (idx : IVec S32768x4 32)
    (h : fn (F := Ideal) x idx = fun _ => 1#1) (b : Fin 32768) (p : Fin 1024) :
    len (Host.sort S32768x4 1 comparator_i32_d1 idx (ix2 b 0)) (Host.sort S32768x4 1 comparator_i32_d1 idx (ix2 b 1))
        (Host.sort S32768x4 1 comparator_i32_d1 idx (ix2 b 2)) (Host.sort S32768x4 1 comparator_i32_d1 idx (ix2 b 3))
        (BitVec.ofNat 32 p.val) ≠ 0#32 := by
  -- the predicate at its one index: a conjunction whose second conjunct is the conjunction over all (row, position)
  have h0 : fn (F := Ideal) x idx ix0 = 1#1 := congrFun h ix0
  unfold fn fn_part1 at h0
  dsimp only at h0
  have h38 := (IntOp.andi_eq_one.1 h0).2
  -- so at (b, p) the selected gap differs from the zero word
  have h37 := IntOp.cmpi_ne.1 (Host.reduce_andi_all _ _ _ _ _ h38 (ix2 b p))
  clear h38 h0 h
  -- the sorted array enters only through its entries
  generalize Host.sort S32768x4 1 comparator_i32_d1 idx = M at h37 ⊢
  have e0 := slice_apply ![0, 0] 0 rfl rfl Facts.slices_S32768x4_S32768x1_0_0 M b
  have e1 := slice_apply ![0, 1] 1 rfl rfl Facts.slices_S32768x4_S32768x1_0_1 M b
  have e2 := slice_apply ![0, 2] 2 rfl rfl Facts.slices_S32768x4_S32768x1_0_2 M b
  have e3 := slice_apply ![0, 3] 3 rfl rfl Facts.slices_S32768x4_S32768x1_0_3 M b
  -- the elementwise operations read at an index
  have hsel : ∀ (c : IVec S32768x1024 1) (a d : IVec S32768x1024 32) (i : S32768x1024.Idx),
      select c a d i = if c i = 1#1 then a i else d i := fun _ _ _ _ => rfl
  have hcmp : ∀ (a d : IVec S32768x1024 32) (i : S32768x1024.Idx),
      cmpi .sle a d i = BitVec.ofBool ((a i).sle (d i)) := fun _ _ _ => rfl
  have hsub : ∀ (a d : IVec S32768x1 32) (i : S32768x1.Idx), subi a d i = a i - d i := fun _ _ _ => rfl
  have hand : ∀ (a d : IVec S32768x1 32) (i : S32768x1.Idx), andi a d i = a i &&& d i := fun _ _ _ => rfl
  have hiota : iotaInDim S32768x1024 32 1 (ix2 b p) = BitVec.ofNat 32 p.val := rfl
  have hc0 : constantI S_ 32 0#32 ix0 = 0#32 := rfl
  have hc1 : constantI S_ 32 1023#32 ix0 = 1023#32 := rfl
  -- read through, the selected gap is the cascade over row b's four words at the position p: the segment length
  simp only [hsel, hcmp, bcastCol_apply _ _ b p, bcastScalar_apply _ _ (ix2 b p), bcastScalar_apply _ _ (ix2 b (0 : Fin 1)),
    hsub, hand, e0, e1, e2, e3, hiota, hc0, hc1, StableHlo.Predicate.ofBool_eq_one_iff] at h37
  exact h37

end Cert.Pre_finite_inputs.Decode

end
-- ==== Proof.Algebra.lean ====
/-
  The two losses are one number when no segment has length zero.
  Elementwise, (off · 2π) / len = off · (2π / len) once len is a nonzero real: division by a nonzero real is
  multiplication by its inverse, and multiplication of extended reals is associative. Over the whole array the
  reference's sum over the 32768 rows is the sum over the 32 blocks of 1024 rows, the blocks of the two cores
  taken together; every term is a square, so it is nonnegative, and a sum of two nonnegative extended reals
  times the nonnegative 2⁻²⁵ distributes; dividing by 2²⁵ is multiplying by 2⁻²⁵.
-/
import proofs.«426116_j60318520705345_3_alg».proof.Proof.Spec
import proofs.«426116_j60318520705345_3_alg».proof.Proof.LibBlockSum
import Mathlib.Data.EReal.Operations
import Mathlib.Data.EReal.Inv

noncomputable section

open scoped BigOperators

namespace Cert.CosTarget

open Idealize.ShloMosaic Idealize.ShloMosaic.ValueIdx

/-- The reference's divisor is 2²⁵. -/
theorem count_eq : count = ((33554432 : ℝ) : EReal) := by
  unfold count
  simp [Ideal.ofBits, Ideal.ieee, -EReal.coe_mul]; norm_num

/-- The kernel's scale is 2⁻²⁵. -/
theorem scale_eq : scale = ((1 / 33554432 : ℝ) : EReal) := by
  unfold scale
  simp [Ideal.ofBits, Ideal.ieee, -EReal.coe_mul]; norm_num

/-- A nonzero word is a nonzero real. -/
theorem toInt_ne_zero {w : BitVec 32} (h : w ≠ 0#32) : (w.toInt : ℝ) ≠ 0 := by
  intro h0
  have h1 : w.toInt = 0 := by exact_mod_cast h0
  exact h (BitVec.toInt_inj.mp (by rw [h1]; rfl))

/-- With a nonzero length the kernel's angle is the reference's. -/
theorem target_eq_targetRef (m0 m1 m2 m3 p : BitVec 32) (h : len m0 m1 m2 m3 p ≠ 0#32) :
    target m0 m1 m2 m3 p = targetRef m0 m1 m2 m3 p := by
  unfold target targetRef toR
  rw [Ideal.div_coe (toInt_ne_zero h), Ideal.div_coe (toInt_ne_zero h), mul_assoc]

/-- A square of an extended real is nonnegative. -/
theorem mul_self_nonneg' (a : EReal) : 0 ≤ a * a := by
  induction a using EReal.rec with
  | bot => rw [EReal.bot_mul_bot]; exact le_top
  | coe r => rw [← EReal.coe_mul]; exact_mod_cast mul_self_nonneg r
  | top => rw [EReal.top_mul_top]; exact le_top

theorem sqDev_nonneg (x t : EReal) : 0 ≤ sqDev x t := mul_self_nonneg' _

theorem term_nonneg (X : Xs) (M : Ms) (b : Fin 32768) (p : Fin 1024) : 0 ≤ term X M b p := sqDev_nonneg _ _

theorem blockSum_nonneg (X : Xs) (M : Ms) (t : Fin 32) : 0 ≤ blockSum X M t :=
  Finset.sum_nonneg fun _ _ => Finset.sum_nonneg fun _ _ => term_nonneg X M _ _

/-- The sum over all rows is the sum over the two cores' blocks. -/
theorem sum_rows_eq (f : Fin 32768 → EReal) :
    ∑ b : Fin 32768, f b
      = (∑ i : Fin 16, ∑ r : Fin 1024, f (rowOf (blockOf 0 i) r)) + (∑ i : Fin 16, ∑ r : Fin 1024, f (rowOf (blockOf 1 i) r)) := by
  rw [← Cert.Hand.BlockSum.sum_blocks_cast 32 1024 32768 rfl f (fun kb kk => by have := kb.isLt; have := kk.isLt; omega)]
  rw [← Cert.Hand.BlockSum.sum_blocks_cast 2 16 32 rfl
    (fun t : Fin 32 => ∑ kk : Fin 1024, f ⟨t.val * 1024 + kk.val, by have := t.isLt; have := kk.isLt; omega⟩)
    (fun kb kk => by have := kb.isLt; have := kk.isLt; omega)]
  rw [Fin.sum_univ_two]
  refine congrArg₂ (· + ·) ?_ ?_ <;>
  · refine Finset.sum_congr rfl fun i _ => Finset.sum_congr rfl fun r _ => congrArg f (Fin.ext ?_)
    simp only [rowOf, blockOf]
    omega

/-- The kernel's loss is the reference's when every position's segment has a nonzero length. -/
theorem kernelLoss_eq_refLoss (X : Xs) (M : Ms)
    (h : ∀ (b : Fin 32768) (p : Fin 1024),
      len (M (ix2 b 0)) (M (ix2 b 1)) (M (ix2 b 2)) (M (ix2 b 3)) (BitVec.ofNat 32 p.val) ≠ 0#32) :
    kernelLoss X M = refLoss X M := by
  have hT : (∑ b : Fin 32768, ∑ p : Fin 1024, termRef X M b p) = ∑ b : Fin 32768, ∑ p : Fin 1024, term X M b p :=
    Finset.sum_congr rfl fun b _ => Finset.sum_congr rfl fun p _ => by
      unfold termRef term; rw [target_eq_targetRef _ _ _ _ _ (h b p)]
  unfold refLoss kernelLoss
  rw [hT, zero_add, sum_rows_eq (fun b => ∑ p : Fin 1024, term X M b p), count_eq,
    Ideal.div_coe (by norm_num : (33554432 : ℝ) ≠ 0), scale_eq]
  have hA : 0 ≤ ∑ i : Fin 16, blockSum X M (blockOf 0 i) := Finset.sum_nonneg fun _ _ => blockSum_nonneg X M _
  have hB : 0 ≤ ∑ i : Fin 16, blockSum X M (blockOf 1 i) := Finset.sum_nonneg fun _ _ => blockSum_nonneg X M _
  exact (EReal.right_distrib_of_nonneg hA hB).symm

end Cert.CosTarget

end
-- ==== Proof.lean ====
/-
  The certificate: a mean-squared loss against a circular piecewise-cosine target.

  Each of 32768 rows carries four breakpoints; sorted, they cut the circle of 1024 positions into four segments, and the
  target at a position is cos(offset · 2π / length) / 2 + 1/2 of the segment the position lies in. The loss is the mean over
  all rows and positions of (x − target)². The kernel finds the segment by a cascade of selects over the sorted
  breakpoints, forms the angular step 2π / length once per row and segment, accumulates one 1024 × 1024 block's sum of
  squared deviations per grid point into a tile carried across the 16 points of a core, scales the tile by 2⁻²⁵ at the
  core's last point, and adds the two cores' tiles. The reference counts the breakpoints ≤ the position, takes the row at
  that count and at the next column circularly, reduces mod 1024 by a floored modulus, forms (offset · 2π) / length, sums
  over everything and divides by 2²⁵.

  The two agree as extended reals wherever every position's segment has a nonzero length, which the precondition asks
  (there the reference's quotient is a quotient by a nonzero real): the rows of a stable sort are nondecreasing, so the
  count picks the cascade's breakpoint (Words, SortedRows, RefStages); the floored modulus by 1024 is the mask with 1023
  (Words); with a nonzero length (off · 2π) / len = off · (2π / len) (Algebra); the sum over the rows is the sum over
  the two cores' blocks, all terms squares, hence nonnegative, so the scale distributes (Algebra).
  The reference's run is read stage by stage (RefRun, RefRead); the kernel's value is read off its frame run: what one
  body leaves (KernelPieces), the accumulation over a core's points (KernelAcc), the final array and the additions after
  the region (KernelRun). The precondition is decoded in PreDecode.
-/
import proofs.«426116_j60318520705345_3_alg».proof.Defs
import proofs.«426116_j60318520705345_3_alg».proof.Proof.Gen.Kernel
import proofs.«426116_j60318520705345_3_alg».proof.Proof.Gen.Kernel.Skeleton
import proofs.«426116_j60318520705345_3_alg».proof.Proof.Gen.Kernel.Launch
import proofs.«426116_j60318520705345_3_alg».proof.Proof.Gen.Kernel.Points
import proofs.«426116_j60318520705345_3_alg».proof.Proof.Gen.Kernel.Frame
import proofs.«426116_j60318520705345_3_alg».proof.Proof.Gen.KernelIdeal
import proofs.«426116_j60318520705345_3_alg».proof.Proof.Gen.KernelIdeal.Skeleton
import proofs.«426116_j60318520705345_3_alg».proof.Proof.Gen.KernelIdeal.Launch
import proofs.«426116_j60318520705345_3_alg».proof.Proof.Gen.KernelIdeal.Points
import proofs.«426116_j60318520705345_3_alg».proof.Proof.Gen.KernelIdeal.Frame
import proofs.«426116_j60318520705345_3_alg».proof.Proof.Gen.ReferenceIdeal
import proofs.«426116_j60318520705345_3_alg».proof.Proof.Gen.Pre_finite_inputs
import proofs.«426116_j60318520705345_3_alg».proof.Proof.RefRun
import proofs.«426116_j60318520705345_3_alg».proof.Proof.RefRead
import proofs.«426116_j60318520705345_3_alg».proof.Proof.KernelRun
import proofs.«426116_j60318520705345_3_alg».proof.Proof.PreDecode
import proofs.«426116_j60318520705345_3_alg».proof.Proof.Algebra
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.HandRun.run (F := Ideal) m ρ)

/-- Both idealized programs end at one extended real: the kernel at its loss of the sorted breakpoints and the values,
    the reference at its own form of that loss, equal under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.CosTarget.kernelLoss (Cert.KernelIdeal.Acc.Xk m c) (Cert.KernelIdeal.Acc.Mk m c),
    Cert.KernelIdeal.HandValue.run m ρ, ?_⟩
  refine (θ_run (Cert.ReferenceIdeal.defs (F := Ideal)) _ _).mono (fun r h c => ⟨(h c).1.trans ?_, (h c).2⟩)
    (Cert.ReferenceIdeal.HandRun.run (F := Ideal) m' ρ')
  rw [(hagree c).1, (hagree c).2, Cert.ReferenceIdeal.Read.loss_eq]
  funext _
  exact (Cert.CosTarget.kernelLoss_eq_refLoss _ _ fun b p =>
    Cert.Pre_finite_inputs.Decode.len_ne_zero _ _ (hpre c) b p).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
